-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x24576x2 : Shape := ⟨3, ![16, 24576, 2]⟩
abbrev S128x128 : Shape := ⟨2, ![128, 128]⟩
abbrev S128 : Shape := ⟨1, ![128]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S16x2048x64 .f32) (main_arg1 : IVec S16x24576x2 32) (main_arg2 : FVec F S128x128 .f32) (main_arg3 : FVec F S128 .f32) (main_arg4 : FVec F S128 .f32) (main_arg5 : FVec F S128 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S16x2048x64 : Shape := ⟨3, ![16, 2048, 64]⟩
abbrev S16x24576x2 : Shape := ⟨3, ![16, 24576, 2]⟩
abbrev S128x128 : Shape := ⟨2, ![128, 128]⟩
abbrev S128 : Shape := ⟨1, ![128]⟩
abbrev S16x49152 : Shape := ⟨2, ![16, 49152]⟩
abbrev S16x49152x1 : Shape := ⟨3, ![16, 49152, 1]⟩
abbrev S_ : Shape := ⟨0, ![]⟩
abbrev S1 : Shape := ⟨1, ![1]⟩
abbrev S1x1x1 : Shape := ⟨3, ![1, 1, 1]⟩
abbrev S16x49152x64 : Shape := ⟨3, ![16, 49152, 64]⟩
abbrev S16x24576x128 : Shape := ⟨3, ![16, 24576, 128]⟩
abbrev S16x1x128 : Shape := ⟨3, ![16, 1, 128]⟩
abbrev S1x4096x128 : Shape := ⟨3, ![1, 4096, 128]⟩
abbrev S1x1x128 : Shape := ⟨3, ![1, 1, 128]⟩
abbrev S4096x128 : Shape := ⟨2, ![4096, 128]⟩
abbrev S1x128 : Shape := ⟨2, ![1, 128]⟩

abbrev nBuf : Space → Nat
  | .hbm => 57
  | .vmem => 23
  | .smem => 0
  | _ => 0

abbrev bufTy : (tb : Table) → Fin (tcTables nBuf tb) → BufTy
  | .hbm, ⟨0, _⟩ => ⟨S16x2048x64, .f32⟩
  | .hbm, ⟨1, _⟩ => ⟨S16x24576x2, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S16x49152, .i32⟩
  | .hbm, ⟨7, _⟩ => ⟨S16x49152x1, .i32⟩
  | .hbm, ⟨8, _⟩ => ⟨S_, .i32⟩
  | .hbm, ⟨9, _⟩ => ⟨S16x49152x1, .i32⟩
  | .hbm, ⟨10, _⟩ => ⟨S16x49152x1, .i1⟩
  | .hbm, ⟨11, _⟩ => ⟨S_, .i32⟩
  | .hbm, ⟨12, _⟩ => ⟨S16x49152x1, .i32⟩
  | .hbm, ⟨13, _⟩ => ⟨S16x49152x1, .i32⟩
  | .hbm, ⟨14, _⟩ => ⟨S16x49152x1, .i32⟩
  | .hbm, ⟨15, _⟩ => ⟨S1, .i32⟩
  | .hbm, ⟨16, _⟩ => ⟨S_, .i32⟩
  | .hbm, ⟨17, _⟩ => ⟨S16x49152x1, .i32⟩
  | .hbm, ⟨18, _⟩ => ⟨S16x49152x1, .i1⟩
  | .hbm, ⟨19, _⟩ => ⟨S1x1x1, .i32⟩
  | .hbm, ⟨20, _⟩ => ⟨S16x49152x1, .i32⟩
  | .hbm, ⟨21, _⟩ => ⟨S16x49152x1, .i1⟩
  | .hbm, ⟨22, _⟩ => ⟨S16x49152x1, .i1⟩
  | .hbm, ⟨23, _⟩ => ⟨S_, .i1⟩
  | .hbm, ⟨24, _⟩ => ⟨S16x49152, .i1⟩
  | .hbm, ⟨25, _⟩ => ⟨S16x49152x64, .f32⟩
  | .hbm, ⟨26, _⟩ => ⟨S16x49152x64, .i1⟩
  | .hbm, ⟨27, _⟩ => ⟨S_, .f32⟩
  | .hbm, ⟨28, _⟩ => ⟨S16x49152x64, .f32⟩
  | .hbm, ⟨29, _⟩ => ⟨S16x49152x64, .f32⟩
  | .hbm, ⟨30, _⟩ => ⟨S16x24576x128, .f32⟩
  | .hbm, ⟨31, _⟩ => ⟨S16x1x128, .f32⟩
  | .hbm, ⟨32, _⟩ => ⟨S_, .f32⟩
  | .hbm, ⟨33, _⟩ => ⟨S16x1x128, .f32⟩
  | .hbm, ⟨34, _⟩ => ⟨S16x1x128, .f32⟩
  | .hbm, ⟨35, _⟩ => ⟨S_, .f32⟩
  | .hbm, ⟨36, _⟩ => ⟨S16x1x128, .f32⟩
  | .hbm, ⟨37, _⟩ => ⟨S16x1x128, .f32⟩
  | .hbm, ⟨38, _⟩ => ⟨S128x128, .bf16⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S16x24576x128, .f32⟩
  | .local _ .vmem, ⟨0, _⟩ => ⟨S1x4096x128, .f32⟩
  | .local _ .vmem, ⟨1, _⟩ => ⟨S1x4096x128, .f32⟩
  | .local _ .vmem, ⟨2, _⟩ => ⟨S1x1x128, .f32⟩
  | .local _ .vmem, ⟨3, _⟩ => ⟨S1x1x128, .f32⟩
  | .local _ .vmem, ⟨4, _⟩ => ⟨S128, .f32⟩
  | .local _ .vmem, ⟨5, _⟩ => ⟨S1x4096x128, .f32⟩
  | .local _ .vmem, ⟨6, _⟩ => ⟨S1x4096x128, .f32⟩
  | .local _ .vmem, ⟨7, _⟩ => ⟨S1x1x128, .f32⟩
  | .local _ .vmem, ⟨8, _⟩ => ⟨S1x1x128, .f32⟩
  | .local _ .vmem, ⟨9, _⟩ => ⟨S128x128, .bf16⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S1x4096x128, .f32⟩
  | .local _ .vmem, ⟨14, _⟩ => ⟨S1x4096x128, .f32⟩
  | .local _ .vmem, ⟨15, _⟩ => ⟨S1x1x128, .f32⟩
  | .local _ .vmem, ⟨16, _⟩ => ⟨S1x1x128, .f32⟩
  | .local _ .vmem, ⟨17, _⟩ => ⟨S128x128, .bf16⟩
  | .local _ .vmem, ⟨18, _⟩ => ⟨S128, .f32⟩
  | .local _ .vmem, ⟨19, _⟩ => ⟨S128, .f32⟩
  | .local _ .vmem, ⟨20, _⟩ => ⟨S128, .f32⟩
  | .local _ .vmem, ⟨21, _⟩ => ⟨S1x4096x128, .f32⟩
  | .local _ .vmem, ⟨22, _⟩ => ⟨S1x4096x128, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_c_2 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_cst_0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10_0 : Ref sig .tc := ⟨.hbm, 39, rfl⟩
abbrev main_v10_1 : Ref sig .tc := ⟨.hbm, 40, rfl⟩
abbrev main_cst_1 : Ref sig .tc := ⟨.hbm, 41, rfl⟩
abbrev main_v11 : Ref sig .tc := ⟨.hbm, 42, rfl⟩
abbrev main_v12 : Ref sig .tc := ⟨.hbm, 43, rfl⟩
abbrev main_cst_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_3 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c5_i32 : BitVec 32 := 5#32
  let v12 : BitVec 1 := Scalar.cmpi .eq arg1 c5_i32
  let v13 : BitVec 32 := Scalar.extui v12
  let c0_i32_5 : BitVec 32 := 0#32
  let v14 : BitVec 1 := Scalar.cmpi .ne v13 c0_i32_5
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![16, 6], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage1_0 : Fin 2 → Memref sig .tc .vmem S1x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev grid2 : Pipeline.Grid := ⟨2, ![16, 6], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x4096x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

class Facts₀ : Prop where
  shapeCasts_S16x24576x2_S16x49152 : S16x24576x2.ShapeCasts S16x49152
  bcast_S16x49152_S16x49152x1_0_1 : S16x49152.BroadcastsInDim S16x49152x1 (![0, 1] : Fin 2 → Fin S16x49152x1.rank)
  bcast_S_S16x49152x1 : S_.BroadcastsInDim S16x49152x1 (![] : Fin 0 → Fin S16x49152x1.rank)
  bcast_S1_S1x1x1_2 : S1.BroadcastsInDim S1x1x1 (![2] : Fin 1 → Fin S1x1x1.rank)
  bcast_S1x1x1_S16x49152x1_0_1_2 : S1x1x1.BroadcastsInDim S16x49152x1 (![0, 1, 2] : Fin 3 → Fin S16x49152x1.rank)
  reducesTo_S16x49152x1_S16x49152_d2 : S16x49152x1.ReducesTo [2] S16x49152
  h_S_ : 0 < S_.numel
  bcast_S16x49152_S16x49152x64_0_1 : S16x49152.BroadcastsInDim S16x49152x64 (![0, 1] : Fin 2 → Fin S16x49152x64.rank)
  bcast_S_S16x49152x64 : S_.BroadcastsInDim S16x49152x64 (![] : Fin 0 → Fin S16x49152x64.rank)
  shapeCasts_S16x49152x64_S16x24576x128 : S16x49152x64.ShapeCasts S16x24576x128
  inb_S128_S128_0 : ∀ a, (![0] : Fin 1 → Nat) a + S128.size a ≤ S128.size a
  h_S128 : 0 < S128.numel
  shapeCasts_S128_S128 : S128.ShapeCasts S128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  reduces_S4096x128_S128 : S4096x128.Reduces [0] S128
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  shapeCasts_S128_S1x1x128 : S128.ShapeCasts S1x1x128
  bcast_S_S16x1x128 : S_.BroadcastsInDim S16x1x128 (![] : Fin 0 → Fin S16x1x128.rank)
  bitsLt_bf16_f32 : FTy.bits .bf16 < FTy.bits .f32
  shapeCasts_S128_S1x128 : S128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S128 : S_.BroadcastsInDim S128 (![] : Fin 0 → Fin S128.rank)
  shapeCasts_S4096x128_S1x4096x128 : S4096x128.ShapeCasts S1x4096x128
  gather_S16x2048x64_S16x49152x1_S16x49152x64_2_1_0_0_1_2_1164_wf : GatherDims.WF S16x2048x64 S16x49152x1 S16x49152x64 [2] [1] [0] [1] [0] 2 ![1, 1, 64]
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S16x24576x128.size a
  hwx0_0 : ∀ i : grid0.Coords, EltTy.bits .f32 = 32 ∨ (Rect.block (s := S16x24576x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S16x1x128.size a
  hwx0_1 : ∀ i : grid0.Coords, EltTy.bits .f32 = 32 ∨ (Rect.block (s := S16x1x128) S1x1x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x128.size a ≤ S16x24576x128.size a
  hwx1_0 : ∀ i : grid1.Coords, EltTy.bits .f32 = 32 ∨ (Rect.block (s := S16x24576x128) S1x4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128.size a ≤ S16x1x128.size a
  hwx1_1 : ∀ i : grid1.Coords, EltTy.bits .f32 = 32 ∨ (Rect.block (s := S16x1x128) S1x1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x4096x128.size a ≤ S16x24576x128.size a
  hwx2_0 : ∀ i : grid2.Coords, EltTy.bits .f32 = 32 ∨ (Rect.block (s := S16x24576x128) S1x4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x128.size a ≤ S16x1x128.size a
  hwx2_1 : ∀ i : grid2.Coords, EltTy.bits .f32 = 32 ∨ (Rect.block (s := S16x1x128) S1x1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x4096x128.size a ≤ S16x24576x128.size a
  hwx2_6 : ∀ i : grid2.Coords, EltTy.bits .f32 = 32 ∨ (Rect.block (s := S16x24576x128) S1x4096x128.size (cc2_transform_6 i) (hinb2_6 i)).WholeWords (EltTy.packing .f32)

variable [Facts₀]

def gather_S16x2048x64_S16x49152x1_S16x49152x64_2_1_0_0_1_2_1164 : GatherDims S16x2048x64 S16x49152x1 S16x49152x64 where
  offsetDims := [2]
  collapsedSliceDims := [1]
  operandBatchingDims := [0]
  startIndicesBatchingDims := [0]
  startIndexMap := [1]
  indexVectorDim := 2
  sliceSizes := ![1, 1, 64]
  wf := gather_S16x2048x64_S16x49152x1_S16x49152x64_2_1_0_0_1_2_1164_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v3) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v3) S1x4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x1x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10_0) S128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10_1) S128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v3) S1x4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1x1x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v23) S1x4096x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S16x2048x64 : Shape := ⟨3, ![16, 2048, 64]⟩
abbrev S16x24576x2 : Shape := ⟨3, ![16, 24576, 2]⟩
abbrev S128x128 : Shape := ⟨2, ![128, 128]⟩
abbrev S128 : Shape := ⟨1, ![128]⟩
abbrev S16x49152 : Shape := ⟨2, ![16, 49152]⟩
abbrev S16x49152x1 : Shape := ⟨3, ![16, 49152, 1]⟩
abbrev S_ : Shape := ⟨0, ![]⟩
abbrev S1 : Shape := ⟨1, ![1]⟩
abbrev S1x1x1 : Shape := ⟨3, ![1, 1, 1]⟩
abbrev S16x49152x64 : Shape := ⟨3, ![16, 49152, 64]⟩
abbrev S16x24576x128 : Shape := ⟨3, ![16, 24576, 128]⟩
abbrev S16x128 : Shape := ⟨2, ![16, 128]⟩
abbrev S16x1x128 : Shape := ⟨3, ![16, 1, 128]⟩
abbrev S1x1x128 : Shape := ⟨3, ![1, 1, 128]⟩

abbrev nBuf : Space → Nat
  | .hbm => 75
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x24576x2, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S16x49152, .i32⟩
  | .hbm, ⟨7, _⟩ => ⟨S16x49152x1, .i32⟩
  | .hbm, ⟨8, _⟩ => ⟨S_, .i32⟩
  | .hbm, ⟨9, _⟩ => ⟨S16x49152x1, .i32⟩
  | .hbm, ⟨10, _⟩ => ⟨S16x49152x1, .i1⟩
  | .hbm, ⟨11, _⟩ => ⟨S_, .i32⟩
  | .hbm, ⟨12, _⟩ => ⟨S16x49152x1, .i32⟩
  | .hbm, ⟨13, _⟩ => ⟨S16x49152x1, .i32⟩
  | .hbm, ⟨14, _⟩ => ⟨S16x49152x1, .i32⟩
  | .hbm, ⟨15, _⟩ => ⟨S1, .i32⟩
  | .hbm, ⟨16, _⟩ => ⟨S_, .i32⟩
  | .hbm, ⟨17, _⟩ => ⟨S16x49152x1, .i32⟩
  | .hbm, ⟨18, _⟩ => ⟨S16x49152x1, .i1⟩
  | .hbm, ⟨19, _⟩ => ⟨S1x1x1, .i32⟩
  | .hbm, ⟨20, _⟩ => ⟨S16x49152x1, .i32⟩
  | .hbm, ⟨21, _⟩ => ⟨S16x49152x1, .i1⟩
  | .hbm, ⟨22, _⟩ => ⟨S16x49152x1, .i1⟩
  | .hbm, ⟨23, _⟩ => ⟨S_, .i1⟩
  | .hbm, ⟨24, _⟩ => ⟨S16x49152, .i1⟩
  | .hbm, ⟨25, _⟩ => ⟨S16x49152x64, .f32⟩
  | .hbm, ⟨26, _⟩ => ⟨S16x49152x64, .i1⟩
  | .hbm, ⟨27, _⟩ => ⟨S_, .f32⟩
  | .hbm, ⟨28, _⟩ => ⟨S16x49152x64, .f32⟩
  | .hbm, ⟨29, _⟩ => ⟨S16x49152x64, .f32⟩
  | .hbm, ⟨30, _⟩ => ⟨S16x24576x128, .f32⟩
  | .hbm, ⟨31, _⟩ => ⟨S16x24576x128, .f32⟩
  | .hbm, ⟨32, _⟩ => ⟨S_, .f32⟩
  | .hbm, ⟨33, _⟩ => ⟨S16x128, .f32⟩
  | .hbm, ⟨34, _⟩ => ⟨S16x1x128, .f32⟩
  | .hbm, ⟨35, _⟩ => ⟨S_, .f32⟩
  | .hbm, ⟨36, _⟩ => ⟨S16x1x128, .f32⟩
  | .hbm, ⟨37, _⟩ => ⟨S16x1x128, .f32⟩
  | .hbm, ⟨38, _⟩ => ⟨S16x24576x128, .f32⟩
  | .hbm, ⟨39, _⟩ => ⟨S16x24576x128, .f32⟩
  | .hbm, ⟨40, _⟩ => ⟨S16x24576x128, .f32⟩
  | .hbm, ⟨41, _⟩ => ⟨S1x1x128, .f32⟩
  | .hbm, ⟨42, _⟩ => ⟨S16x24576x128, .f32⟩
  | .hbm, ⟨43, _⟩ => ⟨S16x24576x128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x1x128, .f32⟩
  | .hbm, ⟨50, _⟩ => ⟨S16x24576x128, .f32⟩
  | .hbm, ⟨51, _⟩ => ⟨S16x24576x128, .f32⟩
  | .hbm, ⟨52, _⟩ => ⟨S16x24576x128, .f32⟩
  | .hbm, ⟨53, _⟩ => ⟨S_, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S1x1x128, .f32⟩
  | .hbm, ⟨59, _⟩ => ⟨S16x24576x128, .f32⟩
  | .hbm, ⟨60, _⟩ => ⟨S16x24576x128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S1x1x128, .f32⟩
  | .hbm, ⟨66, _⟩ => ⟨S16x24576x128, .f32⟩
  | .hbm, ⟨67, _⟩ => ⟨S16x24576x128, .f32⟩
  | .hbm, ⟨68, _⟩ => ⟨S1x1x128, .f32⟩
  | .hbm, ⟨69, _⟩ => ⟨S16x24576x128, .f32⟩
  | .hbm, ⟨70, _⟩ => ⟨S16x24576x128, .f32⟩
  | .hbm, ⟨71, _⟩ => ⟨S1x1x128, .f32⟩
  | .hbm, ⟨72, _⟩ => ⟨S16x24576x128, .f32⟩
  | .hbm, ⟨73, _⟩ => ⟨S16x24576x128, .f32⟩
  | .hbm, ⟨74, _⟩ => ⟨S16x24576x128, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_c_2 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_cst_0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_1 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_3 : Ref sig .tc := ⟨.hbm, 53, rfl⟩
abbrev main_v22 : Ref sig .tc := ⟨.hbm, 54, rfl⟩
abbrev main_cst_4 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_5 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩

abbrev nD : Nat := 1
abbrev τ : Topo := Topo.v7x

variable {F : FTy → Type} [FloatOps F]

class Facts₀ : Prop where
  shapeCasts_S16x24576x2_S16x49152 : S16x24576x2.ShapeCasts S16x49152
  bcast_S16x49152_S16x49152x1_0_1 : S16x49152.BroadcastsInDim S16x49152x1 (![0, 1] : Fin 2 → Fin S16x49152x1.rank)
  bcast_S_S16x49152x1 : S_.BroadcastsInDim S16x49152x1 (![] : Fin 0 → Fin S16x49152x1.rank)
  bcast_S1_S1x1x1_2 : S1.BroadcastsInDim S1x1x1 (![2] : Fin 1 → Fin S1x1x1.rank)
  bcast_S1x1x1_S16x49152x1_0_1_2 : S1x1x1.BroadcastsInDim S16x49152x1 (![0, 1, 2] : Fin 3 → Fin S16x49152x1.rank)
  reducesTo_S16x49152x1_S16x49152_d2 : S16x49152x1.ReducesTo [2] S16x49152
  h_S_ : 0 < S_.numel
  bcast_S16x49152_S16x49152x64_0_1 : S16x49152.BroadcastsInDim S16x49152x64 (![0, 1] : Fin 2 → Fin S16x49152x64.rank)
  bcast_S_S16x49152x64 : S_.BroadcastsInDim S16x49152x64 (![] : Fin 0 → Fin S16x49152x64.rank)
  shapeCasts_S16x49152x64_S16x24576x128 : S16x49152x64.ShapeCasts S16x24576x128
  reducesTo_S16x24576x128_S16x128_d1 : S16x24576x128.ReducesTo [1] S16x128
  bcast_S16x128_S16x1x128_0_2 : S16x128.BroadcastsInDim S16x1x128 (![0, 2] : Fin 2 → Fin S16x1x128.rank)
  bcast_S_S16x1x128 : S_.BroadcastsInDim S16x1x128 (![] : Fin 0 → Fin S16x1x128.rank)
  bcast_S16x1x128_S16x24576x128_0_1_2 : S16x1x128.BroadcastsInDim S16x24576x128 (![0, 1, 2] : Fin 3 → Fin S16x24576x128.rank)
  bcast_S128_S1x1x128_2 : S128.BroadcastsInDim S1x1x128 (![2] : Fin 1 → Fin S1x1x128.rank)
  bcast_S1x1x128_S16x24576x128_0_1_2 : S1x1x128.BroadcastsInDim S16x24576x128 (![0, 1, 2] : Fin 3 → Fin S16x24576x128.rank)
  reducesTo_S16x24576x128_S128_d0_1 : S16x24576x128.ReducesTo [0, 1] S128
  bcast_S_S128 : S_.BroadcastsInDim S128 (![] : Fin 0 → Fin S128.rank)
  gather_S16x2048x64_S16x49152x1_S16x49152x64_2_1_0_0_1_2_1164_wf : GatherDims.WF S16x2048x64 S16x49152x1 S16x49152x64 [2] [1] [0] [1] [0] 2 ![1, 1, 64]
  dot_S16x24576x128_S128x128_S16x24576x128_2_0_01_1_n_n_wf : DotDims.WF S16x24576x128 S128x128 S16x24576x128 [2] [0] [0, 1] [1] [] []

variable [Facts₀]

def gather_S16x2048x64_S16x49152x1_S16x49152x64_2_1_0_0_1_2_1164 : GatherDims S16x2048x64 S16x49152x1 S16x49152x64 where
  offsetDims := [2]
  collapsedSliceDims := [1]
  operandBatchingDims := [0]
  startIndicesBatchingDims := [0]
  startIndexMap := [1]
  indexVectorDim := 2
  sliceSizes := ![1, 1, 64]
  wf := gather_S16x2048x64_S16x49152x1_S16x49152x64_2_1_0_0_1_2_1164_wf
def dot_S16x24576x128_S128x128_S16x24576x128_2_0_01_1_n_n : DotDims S16x24576x128 S128x128 S16x24576x128 where
  lhsContracting := [2]
  rhsContracting := [0]
  lhsNonContracting := [0, 1]
  rhsNonContracting := [1]
  lhsBatch := []
  rhsBatch := []
  wf := dot_S16x24576x128_S128x128_S16x24576x128_2_0_01_1_n_n_wf

class Facts : Prop extends Facts₀ where

variable [Facts]
-- ==== Proof.BK0Runs.lean ====
/- Region 0 (the column sums of |x| over the edge axis, accumulated in a scratch row over the six
   edge tiles of a batch): what its three control cases share. The grid is (batch, edge tile) = 16 × 6,
   point t = 6·batch + tile. The body resets the scratch when tile = 0 and copies it to the output
   block when tile = 5; the output block (batch, 0, 0) is written back after tile 5 only. -/
import proofs.«147310_j32392643347009_1_alg».proof.Proof.Gen.Kernel.Launch
import proofs.«147310_j32392643347009_1_alg».proof.Proof.Gen.Kernel.Skeleton
import proofs.«147310_j32392643347009_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of core c's buffers when the region is entered: a parameter
variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the edge tile of x at every point. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- "tile = 0": the reset branch is taken. -/
abbrev condReset (i : grid0.Coords) : Prop := (Scalar.cmpi .ne (Scalar.extui (Scalar.cmpi .eq (BitVec.ofNat 32 (i 1).val) 0#32)) 0#32) = 1#1
theorem hcondReset : ∀ t : Fin cfg0.N, condReset (grid0.coords t) ↔ t.val % 6 = 0 :=
  (by decide +kernel : ∀ t : Fin grid0.N, condReset (grid0.coords t) ↔ t.val % 6 = 0)

/-- "tile = 5": the output branch is taken. -/
abbrev condOut (i : grid0.Coords) : Prop := k0_cond2 i = 1#1
theorem hcondOut : ∀ t : Fin cfg0.N, condOut (grid0.coords t) ↔ t.val % 6 = 5 :=
  (by decide +kernel : ∀ t : Fin grid0.N, condOut (grid0.coords t) ↔ t.val % 6 = 5)

/-- The input window is never idle; the output window is idle and not written back unless tile = 5. -/
theorem live0 : ∀ t : Fin cfg0.N, cfg0.idle 0 (grid0.coords t) = false := by decide +kernel
theorem idle1 : ∀ t : Fin cfg0.N, ¬condOut (grid0.coords t) → cfg0.idle 1 (grid0.coords t) = true := by decide +kernel
theorem noFlush1 : ∀ t : Fin cfg0.N, ¬condOut (grid0.coords t) → (cfg0.win 1).flush t = false := by decide +kernel
theorem live1 : ∀ t : Fin cfg0.N, condOut (grid0.coords t) → cfg0.idle 1 (grid0.coords t) = false := by decide +kernel

/-- The staging memrefs at a point, and the scratch row. -/
abbrev VO1 : View sig .tc .vmem S1x1x128 .f32 := (Memref.whole cc0_stg1_0 : Memref sig .tc .vmem S1x1x128 .f32).view
abbrev ms0 (t : Fin cfg0.N) : Memref sig .tc .vmem S1x4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x128 .f32 := win0_1.stage (cfg0.slots t 1)
abbrev hs1 (t : Fin cfg0.N) : (ms1 t).IsWhole := hstage0_1 ((cfg0.slots t 1).cast nbuf0_1)
abbrev scM : Memref sig .tc .vmem S128 .f32 := Memref.whole cc0_scratch0
abbrev VS : View sig .tc .vmem S128 .f32 := scM.view

/-- The scoped buffers of the other two regions, each whole at some contents: they ride through this region untouched. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f))

/-- The class invariant: the scratch row owned at some contents, the other regions' scoped buffers, the generator register. -/
theorem PhiA_eq (c : Dev nD) :
    (Pipeline.ΦA spec0 c : sProp 𝕄)
      = iprop(((∃ d, owns (c : Thread nD τ) scM fullShare d) ∗ others c) ∗ (∃ r, prngReg c r)) := by
  unfold Pipeline.ΦA others; rw [scopedRest0_eq]; simp only [scM, owns_whole]; try rfl

end Cert.Kernel.Reg0

end
-- ==== Proof.BK0RunA.lean ====
/- Region 0, the body when tile = 0: the scratch row is reset to zero, then the tile's column sums of |x|
   are added to it; the output block is not touched. -/
import proofs.«147310_j32392643347009_1_alg».proof.Proof.BK0Runs

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body leaves in the scratch row when tile = 0 (last store first), with the body's triple: the tile of x
    and the output block are handed back as found, the scratch, found at anything, with those pieces written. -/
noncomputable def runReset (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : condReset i) (hc1 : ¬condOut i)
    (x0 : Vec F S1x4096x128 .f32) :
    Σ' (L1 : List (View.Piece (Elt F) S1x1x128 .f32)), { LS0 : List (View.Piece (Elt F) S128 .f32) //
      ∀ (xi1 : Vec F S1x1x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__denom_kernel i arg2 harg2 arg3 harg3 arg4 harg4) K } := by
  refine ⟨[], ?_, fun xi1 E K => ?run⟩
  case run =>
    simp only [cc0__denom_kernel_eq_skeleton]; unfold cc0__denom_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Reg0

end
-- ==== Proof.BK0RunB.lean ====
/- Region 0, the body when 0 < tile < 5: the tile's column sums of |x| are added to the scratch row; the output block
   is not touched. -/
import proofs.«147310_j32392643347009_1_alg».proof.Proof.BK0RunA

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body leaves in the scratch row in the middle of a batch, with the body's triple: the scratch is found at
    what the tile before left. -/
noncomputable def runAcc (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬condReset i) (hc1 : ¬condOut i)
    (x0 : Vec F S1x4096x128 .f32) (xs0 : Vec F S128 .f32) :
    Σ' (L1 : List (View.Piece (Elt F) S1x1x128 .f32)), { LS0 : List (View.Piece (Elt F) S128 .f32) //
      ∀ (xi1 : Vec F S1x1x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__denom_kernel i arg2 harg2 arg3 harg3 arg4 harg4) K } := by
  refine ⟨[], ?_, fun xi1 E K => ?run⟩
  case run =>
    simp only [cc0__denom_kernel_eq_skeleton]; unfold cc0__denom_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Reg0

end
-- ==== Proof.BK0RunC.lean ====
/- Region 0, the body when tile = 5: the tile's column sums of |x| are added to the scratch row, and the row is
   stored into the output block. -/
import proofs.«147310_j32392643347009_1_alg».proof.Proof.BK0RunB

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body leaves in the output block and in the scratch row at the last tile of a batch, with the body's triple. -/
noncomputable def runOut (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬condReset i) (hc1 : condOut i)
    (x0 : Vec F S1x4096x128 .f32) (xs0 : Vec F S128 .f32) :
    Σ' (L1 : List (View.Piece (Elt F) S1x1x128 .f32)), { LS0 : List (View.Piece (Elt F) S128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__denom_kernel i arg2 harg2 arg3 harg3 arg4 harg4) K } := by
  refine ⟨?_, ?_, fun E K => ?run⟩
  case run =>
    simp only [cc0__denom_kernel_eq_skeleton]; unfold cc0__denom_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Reg0

end
-- ==== Proof.BK0Frame.lean ====
/- Region 0: what the scratch row and the output block hold after each grid point, the proof data, and the body's
   obligation at every point. After the point (batch b, tile k) the scratch row holds the column sums of |x| over tiles
   0..k of batch b; at tile 5 that row is stored into the output block (b, 0, ·), which is then written back. -/
import proofs.«147310_j32392643347009_1_alg».proof.Proof.BK0RunC

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At tile 0 nothing is stored into the output block (the window is idle there and not written back): a placeholder
    that nothing consults. -/
def outA1 (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : condReset i) (hc1 : ¬condOut i)
    (x0 : Vec F S1x4096x128 .f32) : Vec F S1x1x128 .f32 :=
  VO1.read (Elt F) (VO1.writes (Elt F) VO1.junk (runReset c i arg2 harg2 arg3 harg3 arg4 harg4 hc0 hc1 x0).1)

/-- The pieces stored into the scratch row at tile 0 cover it. -/
theorem scoverA (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : condReset i) (hc1 : ¬condOut i)
    (x0 : Vec F S1x4096x128 .f32) (y : S128.Idx) :
    ∃ pc ∈ (runReset c i arg2 harg2 arg3 harg3 arg4 harg4 hc0 hc1 x0).2.1, y ∈ pc.1.set :=
  View.cover_of_tiledL (runReset c i arg2 harg2 arg3 harg3 arg4 harg4 hc0 hc1 x0).2.1 S128.size (by sl_kernel_rfl) y

/-- What tile 0 leaves in the scratch row: its pieces read back. -/
def soutA (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : condReset i) (hc1 : ¬condOut i)
    (x0 : Vec F S1x4096x128 .f32) : Vec F S128 .f32 :=
  VS.read (Elt F) (VS.writes (Elt F) VS.junk (runReset c i arg2 harg2 arg3 harg3 arg4 harg4 hc0 hc1 x0).2.1)

/-- At a tile strictly between the first and the last nothing is stored into the output block: a placeholder. -/
def outB1 (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬condReset i) (hc1 : ¬condOut i)
    (x0 : Vec F S1x4096x128 .f32) (xs0 : Vec F S128 .f32) : Vec F S1x1x128 .f32 :=
  VO1.read (Elt F) (VO1.writes (Elt F) VO1.junk (runAcc c i arg2 harg2 arg3 harg3 arg4 harg4 hc0 hc1 x0 xs0).1)

/-- The pieces stored into the scratch row at a middle tile cover it. -/
theorem scoverB (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬condReset i) (hc1 : ¬condOut i)
    (x0 : Vec F S1x4096x128 .f32) (xs0 : Vec F S128 .f32) (y : S128.Idx) :
    ∃ pc ∈ (runAcc c i arg2 harg2 arg3 harg3 arg4 harg4 hc0 hc1 x0 xs0).2.1, y ∈ pc.1.set :=
  View.cover_of_tiledL (runAcc c i arg2 harg2 arg3 harg3 arg4 harg4 hc0 hc1 x0 xs0).2.1 S128.size (by sl_kernel_rfl) y

/-- What a middle tile leaves in the scratch row. -/
def soutB (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬condReset i) (hc1 : ¬condOut i)
    (x0 : Vec F S1x4096x128 .f32) (xs0 : Vec F S128 .f32) : Vec F S128 .f32 :=
  VS.read (Elt F) (VS.writes (Elt F) VS.junk (runAcc c i arg2 harg2 arg3 harg3 arg4 harg4 hc0 hc1 x0 xs0).2.1)

/-- The pieces stored into the output block at tile 5 cover it. -/
theorem coverC1 (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬condReset i) (hc1 : condOut i)
    (x0 : Vec F S1x4096x128 .f32) (xs0 : Vec F S128 .f32) (y : S1x1x128.Idx) :
    ∃ pc ∈ (runOut c i arg2 harg2 arg3 harg3 arg4 harg4 hc0 hc1 x0 xs0).1, y ∈ pc.1.set :=
  View.cover_of_tiledL (runOut c i arg2 harg2 arg3 harg3 arg4 harg4 hc0 hc1 x0 xs0).1 S1x1x128.size (by sl_kernel_rfl) y

/-- What tile 5 leaves in the output block. -/
def outC1 (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬condReset i) (hc1 : condOut i)
    (x0 : Vec F S1x4096x128 .f32) (xs0 : Vec F S128 .f32) : Vec F S1x1x128 .f32 :=
  VO1.read (Elt F) (VO1.writes (Elt F) VO1.junk (runOut c i arg2 harg2 arg3 harg3 arg4 harg4 hc0 hc1 x0 xs0).1)

/-- The pieces stored into the scratch row at tile 5 cover it. -/
theorem scoverC (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬condReset i) (hc1 : condOut i)
    (x0 : Vec F S1x4096x128 .f32) (xs0 : Vec F S128 .f32) (y : S128.Idx) :
    ∃ pc ∈ (runOut c i arg2 harg2 arg3 harg3 arg4 harg4 hc0 hc1 x0 xs0).2.1, y ∈ pc.1.set :=
  View.cover_of_tiledL (runOut c i arg2 harg2 arg3 harg3 arg4 harg4 hc0 hc1 x0 xs0).2.1 S128.size (by sl_kernel_rfl) y

/-- What tile 5 leaves in the scratch row. -/
def soutC (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬condReset i) (hc1 : condOut i)
    (x0 : Vec F S1x4096x128 .f32) (xs0 : Vec F S128 .f32) : Vec F S128 .f32 :=
  VS.read (Elt F) (VS.writes (Elt F) VS.junk (runOut c i arg2 harg2 arg3 harg3 arg4 harg4 hc0 hc1 x0 xs0).2.1)

/-- What the output block's staging buffer (first component) and the scratch row (second) hold after the body at point n:
    the case n % 6 selects, run on the tile of x at n and, past tile 0, on what point n - 1 left in the scratch row. -/
def outsAt (c : Dev nD) : (n : ℕ) → n < cfg0.N → Vec F S1x1x128 .f32 × Vec F S128 .f32
  | 0, hn => (outA1 c (grid0.coords ⟨0, hn⟩) (ms0 ⟨0, hn⟩) (hs0 ⟨0, hn⟩) (ms1 ⟨0, hn⟩) (hs1 ⟨0, hn⟩) scM (Memref.isWhole_whole _) ((hcondReset ⟨0, hn⟩).mpr (Nat.zero_mod _)) (fun h => (fun h => by (try dsimp only at h); omega) ((hcondOut ⟨0, hn⟩).mp h)) (iblk V c 0 ⟨0, hn⟩), soutA c (grid0.coords ⟨0, hn⟩) (ms0 ⟨0, hn⟩) (hs0 ⟨0, hn⟩) (ms1 ⟨0, hn⟩) (hs1 ⟨0, hn⟩) scM (Memref.isWhole_whole _) ((hcondReset ⟨0, hn⟩).mpr (Nat.zero_mod _)) (fun h => (fun h => by (try dsimp only at h); omega) ((hcondOut ⟨0, hn⟩).mp h)) (iblk V c 0 ⟨0, hn⟩))
  | n + 1, hn =>
    if h0 : (n + 1) % 6 = 0 then
      if h1 : (n + 1) % 6 = 5 then
        False.elim (by omega)
      else
        (outA1 c (grid0.coords ⟨n + 1, hn⟩) (ms0 ⟨n + 1, hn⟩) (hs0 ⟨n + 1, hn⟩) (ms1 ⟨n + 1, hn⟩) (hs1 ⟨n + 1, hn⟩) scM (Memref.isWhole_whole _) ((hcondReset ⟨n + 1, hn⟩).mpr h0) (fun h => h1 ((hcondOut ⟨n + 1, hn⟩).mp h)) (iblk V c 0 ⟨n + 1, hn⟩), soutA c (grid0.coords ⟨n + 1, hn⟩) (ms0 ⟨n + 1, hn⟩) (hs0 ⟨n + 1, hn⟩) (ms1 ⟨n + 1, hn⟩) (hs1 ⟨n + 1, hn⟩) scM (Memref.isWhole_whole _) ((hcondReset ⟨n + 1, hn⟩).mpr h0) (fun h => h1 ((hcondOut ⟨n + 1, hn⟩).mp h)) (iblk V c 0 ⟨n + 1, hn⟩))
    else
      if h1 : (n + 1) % 6 = 5 then
        (outC1 c (grid0.coords ⟨n + 1, hn⟩) (ms0 ⟨n + 1, hn⟩) (hs0 ⟨n + 1, hn⟩) (ms1 ⟨n + 1, hn⟩) (hs1 ⟨n + 1, hn⟩) scM (Memref.isWhole_whole _) (fun h => h0 ((hcondReset ⟨n + 1, hn⟩).mp h)) ((hcondOut ⟨n + 1, hn⟩).mpr h1) (iblk V c 0 ⟨n + 1, hn⟩) (outsAt c n (Nat.lt_of_succ_lt hn)).2, soutC c (grid0.coords ⟨n + 1, hn⟩) (ms0 ⟨n + 1, hn⟩) (hs0 ⟨n + 1, hn⟩) (ms1 ⟨n + 1, hn⟩) (hs1 ⟨n + 1, hn⟩) scM (Memref.isWhole_whole _) (fun h => h0 ((hcondReset ⟨n + 1, hn⟩).mp h)) ((hcondOut ⟨n + 1, hn⟩).mpr h1) (iblk V c 0 ⟨n + 1, hn⟩) (outsAt c n (Nat.lt_of_succ_lt hn)).2)
      else
        (outB1 c (grid0.coords ⟨n + 1, hn⟩) (ms0 ⟨n + 1, hn⟩) (hs0 ⟨n + 1, hn⟩) (ms1 ⟨n + 1, hn⟩) (hs1 ⟨n + 1, hn⟩) scM (Memref.isWhole_whole _) (fun h => h0 ((hcondReset ⟨n + 1, hn⟩).mp h)) (fun h => h1 ((hcondOut ⟨n + 1, hn⟩).mp h)) (iblk V c 0 ⟨n + 1, hn⟩) (outsAt c n (Nat.lt_of_succ_lt hn)).2, soutB c (grid0.coords ⟨n + 1, hn⟩) (ms0 ⟨n + 1, hn⟩) (hs0 ⟨n + 1, hn⟩) (ms1 ⟨n + 1, hn⟩) (hs1 ⟨n + 1, hn⟩) scM (Memref.isWhole_whole _) (fun h => h0 ((hcondReset ⟨n + 1, hn⟩).mp h)) (fun h => h1 ((hcondOut ⟨n + 1, hn⟩).mp h)) (iblk V c 0 ⟨n + 1, hn⟩) (outsAt c n (Nat.lt_of_succ_lt hn)).2)

/-- outsAt at a point of tile 0. -/
theorem outsAt_A (c : Dev nD) (t : Fin cfg0.N) (h0 : t.val % 6 = 0) (h1 : ¬t.val % 6 = 5) :
    outsAt V c t.val t.isLt = (outA1 c (grid0.coords t) (ms0 t) (hs0 t) (ms1 t) (hs1 t) scM (Memref.isWhole_whole _) ((hcondReset t).mpr h0) (fun h => h1 ((hcondOut t).mp h)) (iblk V c 0 t), soutA c (grid0.coords t) (ms0 t) (hs0 t) (ms1 t) (hs1 t) scM (Memref.isWhole_whole _) ((hcondReset t).mpr h0) (fun h => h1 ((hcondOut t).mp h)) (iblk V c 0 t)) := by
  obtain ⟨n, hn⟩ := t
  cases n with
  | zero => exact rfl
  | succ n => exact (dif_pos h0).trans ((dif_neg h1).trans rfl)

/-- outsAt at a point of a middle tile: over what the point before left. -/
theorem outsAt_B (c : Dev nD) (t : Fin cfg0.N) (h0 : ¬t.val % 6 = 0) (h1 : ¬t.val % 6 = 5) :
    outsAt V c t.val t.isLt = (outB1 c (grid0.coords t) (ms0 t) (hs0 t) (ms1 t) (hs1 t) scM (Memref.isWhole_whole _) (fun h => h0 ((hcondReset t).mp h)) (fun h => h1 ((hcondOut t).mp h)) (iblk V c 0 t) (outsAt V c (t.val - 1) (Nat.lt_of_le_of_lt (Nat.sub_le _ _) t.isLt)).2, soutB c (grid0.coords t) (ms0 t) (hs0 t) (ms1 t) (hs1 t) scM (Memref.isWhole_whole _) (fun h => h0 ((hcondReset t).mp h)) (fun h => h1 ((hcondOut t).mp h)) (iblk V c 0 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- outsAt at a point of tile 5: over what the point before left. -/
theorem outsAt_C (c : Dev nD) (t : Fin cfg0.N) (h0 : ¬t.val % 6 = 0) (h1 : t.val % 6 = 5) :
    outsAt V c t.val t.isLt = (outC1 c (grid0.coords t) (ms0 t) (hs0 t) (ms1 t) (hs1 t) scM (Memref.isWhole_whole _) (fun h => h0 ((hcondReset t).mp h)) ((hcondOut t).mpr h1) (iblk V c 0 t) (outsAt V c (t.val - 1) (Nat.lt_of_le_of_lt (Nat.sub_le _ _) t.isLt)).2, soutC c (grid0.coords t) (ms0 t) (hs0 t) (ms1 t) (hs1 t) scM (Memref.isWhole_whole _) (fun h => h0 ((hcondReset t).mp h)) ((hcondOut t).mpr h1) (iblk V c 0 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before point n: before the first point the class's; afterwards the scratch row at what the
    point before left, the other regions' scoped buffers, the generator register. -/
def PhiS (c : Dev nD) : (n : ℕ) → n ≤ cfg0.N → sProp 𝕄
  | 0, _ => Pipeline.ΦA spec0 c
  | n + 1, hn => iprop((owns (c : Thread nD τ) scM fullShare ((outsAt V c n hn).2) ∗ others c) ∗ (∃ r, prngReg c r))

theorem PhiS_zero (c : Dev nD) (n : ℕ) (h : n ≤ cfg0.N) (hz : n = 0) : PhiS V c n h = Pipeline.ΦA spec0 c := by
  subst hz; rfl

/-- After point n (before point n + 1): the scratch row at that point's contents. -/
theorem PhiS_succ (c : Dev nD) (n : ℕ) (hn : n < cfg0.N) :
    PhiS V c (n + 1) hn = iprop((owns (c : Thread nD τ) scM fullShare ((outsAt V c n hn).2) ∗ others c) ∗ (∃ r, prngReg c r)) := rfl

/-- Before a point that is not the first: the scratch row at what the point before left. -/
theorem PhiS_pos (c : Dev nD) (n : ℕ) (h : n ≤ cfg0.N) (hz : n ≠ 0) :
    PhiS V c n h = iprop((owns (c : Thread nD τ) scM fullShare ((outsAt V c (n - 1) (by omega)).2) ∗ others c) ∗ (∃ r, prngReg c r)) := by
  cases n with
  | zero => exact absurd rfl hz
  | succ n => rfl

/-- The proof data of region 0 on core c, at the region-entry contents V. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

/-- The invariant at a point's start, restated at t.val. -/
theorem PhiS_castSucc (c : Dev nD) (t : Fin cfg0.N) :
    (dat V c).Φ t.castSucc = PhiS V c t.val (Nat.le_of_lt t.isLt) := by
  dsimp only [dat]; simp only [Fin.coe_castSucc]

/-- What the body leaves, window by window. -/
theorem after0 (c : Dev nD) (t : Fin cfg0.N) : (dat V c).after 0 t = iblk V c 0 t := by dsimp only [dat]
theorem after1 (c : Dev nD) (t : Fin cfg0.N) : (dat V c).after 1 t = (outsAt V c t.val t.isLt).1 := by dsimp only [dat]

/-- The input window's current staging buffer holds the tile of x at every point. -/
theorem before0 (c : Dev nD) (t : Fin cfg0.N) (d) : (dat V c).before 0 t d = iblk V c 0 t :=
  before0_of V (dat V c) (A_eq V c 0) (after0 V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point: the input window holds the tile of x; t % 6 says which case the point is in; the invariant hands
    the body the scratch row at what the point before left (at anything at the first point) and takes it back at this
    point's contents; the other regions' buffers and the generator register ride along; the core owes nothing. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0]
  rw [show (dat V c).owesAt () t.succ = (dat V c).owesAt () t.castSucc from rfl]
  rw [show (dat V c).Φ t.succ = PhiS V c (t.val + 1) t.isLt from rfl, PhiS_succ]
  have hN : t.val < 96 := lt_of_lt_of_eq t.isLt (show cfg0.N = 96 from N_0)
  by_cases h0 : t.val % 6 = 0
  · by_cases h1 : t.val % 6 = 5
    · exfalso; omega
    · rw [show (dat V c).leavesExact 0 t = owns (c : Thread nD τ) (ms0 t) fullShare ((dat V c).after 0 t) from by
      unfold Dat.leavesExact; rw [live0 t], after0]
      rw [Dat.leavesExact_idle (dat V c) 1 t (idle1 t (fun h => h1 ((hcondOut t).mp h))) (noFlush1 t (fun h => h1 ((hcondOut t).mp h)))]
      rw [outsAt_A V c t h0 h1]
      unfold soutA; (try dsimp only)
      by_cases hz : t.val = 0
      · rw [PhiS_castSucc V c t, PhiS_zero V c _ _ hz, PhiA_eq]
        iintro ⟨⟨⟨HS0, Hoth⟩, Hg⟩, Ho, ⟨%d0, H0⟩, ⟨%d1, H1⟩⟩
        iapply ((runReset c (grid0.coords t) _ _ _ _ _ _ ((hcondReset t).mpr h0) (fun h => h1 ((hcondOut t).mp h)) (iblk V c 0 t)).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA c _ _ _ _ _ _ _ _ _ _)
            iexact Hoth
          iexact Hg
        isplitl [Ho]; · iexact Ho
        isplitl [H0]; · iexact H0
        iexists _; iexact H1
      · rw [PhiS_castSucc V c t, PhiS_pos V c _ _ hz]
        iintro ⟨⟨⟨HS0, Hoth⟩, Hg⟩, Ho, ⟨%d0, H0⟩, ⟨%d1, H1⟩⟩
        iapply ((runReset c (grid0.coords t) _ _ _ _ _ _ ((hcondReset t).mpr h0) (fun h => h1 ((hcondOut t).mp h)) (iblk V c 0 t)).2.2 _ Set.univ _)
        isplitl [H0]; · iexact H0
        isplitl [H1]; · iexact H1
        isplitl [HS0]; · iexists _; iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA c _ _ _ _ _ _ _ _ _ _)
            iexact Hoth
          iexact Hg
        isplitl [Ho]; · iexact Ho
        isplitl [H0]; · iexact H0
        iexists _; iexact H1
  · by_cases h1 : t.val % 6 = 5
    · rw [show (dat V c).leavesExact 0 t = owns (c : Thread nD τ) (ms0 t) fullShare ((dat V c).after 0 t) from by
      unfold Dat.leavesExact; rw [live0 t], after0]
      rw [show (dat V c).leavesExact 1 t = owns (c : Thread nD τ) (ms1 t) fullShare ((dat V c).after 1 t) from by
      unfold Dat.leavesExact; rw [live1 t ((hcondOut t).mpr h1)], after1]
      rw [outsAt_C V c t h0 h1]
      unfold outC1 soutC; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩⟩
        iapply ((runOut c (grid0.coords t) _ _ _ _ _ _ (fun h => h0 ((hcondReset t).mp h)) ((hcondOut t).mpr h1) (iblk V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverC c _ _ _ _ _ _ _ _ _ _ _)
            iexact Hoth
          iexact Hg
        isplitl [Ho]; · iexact Ho
        isplitl [H0]; · iexact H0
        unfold owns; iexists _; isplitr
        swap; · iexact H1
        ipureintro; exact View.read_writes_of_cover _ _ _ _ _ (coverC1 c _ _ _ _ _ _ _ _ _ _ _)
    · rw [show (dat V c).leavesExact 0 t = owns (c : Thread nD τ) (ms0 t) fullShare ((dat V c).after 0 t) from by
      unfold Dat.leavesExact; rw [live0 t], after0]
      rw [Dat.leavesExact_idle (dat V c) 1 t (idle1 t (fun h => h1 ((hcondOut t).mp h))) (noFlush1 t (fun h => h1 ((hcondOut t).mp h)))]
      rw [outsAt_B V c t h0 h1]
      unfold soutB; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩⟩
        iapply ((runAcc c (grid0.coords t) _ _ _ _ _ _ (fun h => h0 ((hcondReset t).mp h)) (fun h => h1 ((hcondOut t).mp h)) (iblk V c 0 t) _).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverB c _ _ _ _ _ _ _ _ _ _ _)
            iexact Hoth
          iexact Hg
        isplitl [Ho]; · iexact Ho
        isplitl [H0]; · iexact H0
        iexists _; iexact H1

theorem body_obligation (c : Dev nD) : BodyObligation (dat (F := F) V c) (defs₀ (F := F)) Variants.none () Set.univ := fun t => by
  rw [bigSep_W0, bigSep_W0]
  exact sound_body V c t

/-- What the launch hands the region is the invariant before the first point; after the last point the invariant gives it back. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the scratch row's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS0, Hoth⟩, Hg⟩
  isplitl [HS0 Hoth]
  · isplitl [HS0]
    · iexists _; iexact HS0
    iexact Hoth
  iexact Hg

theorem hout (c : Dev nD) : (dat V c).Φ (Fin.last cfg0.N) ⊢ Pipeline.ΦA spec0 c :=
  Phi_out V c _ (by rw [Fin.val_last]; have : cfg0.N = 96 := N_0; omega)

end Cert.Kernel.Reg0

end
-- ==== Proof.BK1Runs.lean ====
/- Region 1 (the sums of y and of y² over all rows, accumulated in the two output blocks over the 96 grid points):
   what its two control cases share. The grid is (batch, edge tile) = 16 × 6, point t = 6·batch + tile. The body zeroes
   both output blocks at the first point (batch = 0 and tile = 0), then at every point adds the tile's column sums of y and
   of y·y to them; both output blocks have the constant index 0 and are written back after the last point only. -/
import proofs.«147310_j32392643347009_1_alg».proof.Proof.Gen.Kernel.Launch
import proofs.«147310_j32392643347009_1_alg».proof.Proof.Gen.Kernel.Skeleton
import proofs.«147310_j32392643347009_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of core c's buffers when the region is entered: a parameter
variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not: the tile of x is fetched at
    every point, the batch's reciprocal column masses when the batch moves, the weights and the bias at the first point
    only; unfetched, the block index has not moved. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- "batch = 0 and tile = 0": the branch that zeroes the two output blocks is taken. -/
abbrev condFirst (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcondFirst : ∀ t : Fin cfg1.N, condFirst (grid1.coords t) ↔ t.val = 0 :=
  (by decide +kernel : ∀ t : Fin grid1.N, condFirst (grid1.coords t) ↔ t.val = 0)

/-- One staging buffer of each output window, through which its contents are stated. -/
abbrev VO4 : View sig .tc .vmem S128 .f32 := (Memref.whole cc1_stg4_0 : Memref sig .tc .vmem S128 .f32).view
abbrev VO5 : View sig .tc .vmem S128 .f32 := (Memref.whole cc1_stg5_0 : Memref sig .tc .vmem S128 .f32).view
/-- The staging memrefs at a point, and their wholeness. -/
abbrev ms0 (t : Fin cfg1.N) : Memref sig .tc .vmem S1x4096x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S128x128 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S128 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S128 .f32 := win1_5.stage (cfg1.slots t 5)
abbrev hs5 (t : Fin cfg1.N) : (ms5 t).IsWhole := hstage1_5 ((cfg1.slots t 5).cast nbuf1_5)

/-- The scoped buffers of the other two regions, each whole at some contents: they ride through this region untouched. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f))

/-- The class invariant: the other regions' scoped buffers, the generator register. -/
theorem PhiA_eq (c : Dev nD) :
    (Pipeline.ΦA spec1 c : sProp 𝕄) = iprop(others c ∗ (∃ r, prngReg c r)) := by
  unfold Pipeline.ΦA others; rw [scopedRest1_eq]

end Cert.Kernel.Reg1

end
-- ==== Proof.BK1RunA.lean ====
/- Region 1, the body at the first point (batch = 0 and tile = 0): both output blocks, found at anything, are zeroed,
   then the tile's column sums of y and of y·y are added to them. -/
import proofs.«147310_j32392643347009_1_alg».proof.Proof.BK1Runs

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body leaves in the two output blocks at the first point (last store first), with the body's triple: the
    four inputs are handed back as found, each output block, found at anything, with its pieces written. -/
noncomputable def runFirst (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : condFirst i)
    (x0 : Vec F S1x4096x128 .f32) (x1 : Vec F S1x1x128 .f32) (x2 : Vec F S128x128 .bf16) (x3 : Vec F S128 .f32) :
    Σ' (L4 : List (View.Piece (Elt F) S128 .f32)), { L5 : List (View.Piece (Elt F) S128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1__stats_kernel i arg2 harg2 arg3 harg3 arg4 harg4 arg5 harg5 arg6 harg6 arg7 harg7) K } := by
  refine ⟨?_, ?_, fun E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.Kernel.Reg1

end
-- ==== Proof.BK1RunB.lean ====
/- Region 1, the body at a point after the first: both output blocks, found at what the point before left, have the
   tile's column sums of y and of y·y added to them. -/
import proofs.«147310_j32392643347009_1_alg».proof.Proof.BK1RunA

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body leaves in the two output blocks at a point after the first (last store first), with the body's
    triple: the four inputs are handed back as found, each output block, found at its running contents, with its pieces
    written. -/
noncomputable def runNext (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : ¬condFirst i)
    (x0 : Vec F S1x4096x128 .f32) (x1 : Vec F S1x1x128 .f32) (x2 : Vec F S128x128 .bf16) (x3 : Vec F S128 .f32) (xo4 : Vec F S128 .f32) (xo5 : Vec F S128 .f32) :
    Σ' (L4 : List (View.Piece (Elt F) S128 .f32)), { L5 : List (View.Piece (Elt F) S128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1__stats_kernel i arg2 harg2 arg3 harg3 arg4 harg4 arg5 harg5 arg6 harg6 arg7 harg7) K } := by
  refine ⟨?_, ?_, fun E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.Kernel.Reg1

end
-- ==== Proof.BK1Frame.lean ====
/- Region 1: the sums of y and of y² over all rows, accumulated in the two output blocks themselves over the 96 grid
   points (both blocks have the constant index 0, are zeroed at the first point and written back after the last): what
   each case leaves in each output block, what the blocks hold after each grid point, the proof data, and the body's
   obligation at every point. -/
import proofs.«147310_j32392643347009_1_alg».proof.Proof.BK1RunB

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in each output block -/

/-- At the first point the pieces found for the running sum of y tile its block, so they cover it. -/
theorem coverA_4 (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : condFirst i)
    (x0 : Vec F S1x4096x128 .f32) (x1 : Vec F S1x1x128 .f32) (x2 : Vec F S128x128 .bf16) (x3 : Vec F S128 .f32) (y : S128.Idx) :
    ∃ pc ∈ (runFirst c i arg2 harg2 arg3 harg3 arg4 harg4 arg5 harg5 arg6 harg6 arg7 harg7 hc0 x0 x1 x2 x3).1, y ∈ pc.1.set :=
  View.cover_of_tiledL (runFirst c i arg2 harg2 arg3 harg3 arg4 harg4 arg5 harg5 arg6 harg6 arg7 harg7 hc0 x0 x1 x2 x3).1 S128.size (by sl_kernel_rfl) y
/-- Likewise the pieces found for the running sum of y². -/
theorem coverA_5 (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : condFirst i)
    (x0 : Vec F S1x4096x128 .f32) (x1 : Vec F S1x1x128 .f32) (x2 : Vec F S128x128 .bf16) (x3 : Vec F S128 .f32) (y : S128.Idx) :
    ∃ pc ∈ (runFirst c i arg2 harg2 arg3 harg3 arg4 harg4 arg5 harg5 arg6 harg6 arg7 harg7 hc0 x0 x1 x2 x3).2.1, y ∈ pc.1.set :=
  View.cover_of_tiledL (runFirst c i arg2 harg2 arg3 harg3 arg4 harg4 arg5 harg5 arg6 harg6 arg7 harg7 hc0 x0 x1 x2 x3).2.1 S128.size (by sl_kernel_rfl) y

/-- What the first point leaves in the block of the running sum of y: its pieces read back over junk. -/
def outA_4 (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : condFirst i)
    (x0 : Vec F S1x4096x128 .f32) (x1 : Vec F S1x1x128 .f32) (x2 : Vec F S128x128 .bf16) (x3 : Vec F S128 .f32) : Vec F S128 .f32 :=
  VO4.read (Elt F) (VO4.writes (Elt F) VO4.junk (runFirst c i arg2 harg2 arg3 harg3 arg4 harg4 arg5 harg5 arg6 harg6 arg7 harg7 hc0 x0 x1 x2 x3).1)
/-- What the first point leaves in the block of the running sum of y². -/
def outA_5 (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : condFirst i)
    (x0 : Vec F S1x4096x128 .f32) (x1 : Vec F S1x1x128 .f32) (x2 : Vec F S128x128 .bf16) (x3 : Vec F S128 .f32) : Vec F S128 .f32 :=
  VO5.read (Elt F) (VO5.writes (Elt F) VO5.junk (runFirst c i arg2 harg2 arg3 harg3 arg4 harg4 arg5 harg5 arg6 harg6 arg7 harg7 hc0 x0 x1 x2 x3).2.1)

/-- At a later point the pieces found for the running sum of y tile its block, so they cover it. -/
theorem coverB_4 (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : ¬condFirst i)
    (x0 : Vec F S1x4096x128 .f32) (x1 : Vec F S1x1x128 .f32) (x2 : Vec F S128x128 .bf16) (x3 : Vec F S128 .f32) (xo4 : Vec F S128 .f32) (xo5 : Vec F S128 .f32) (y : S128.Idx) :
    ∃ pc ∈ (runNext c i arg2 harg2 arg3 harg3 arg4 harg4 arg5 harg5 arg6 harg6 arg7 harg7 hc0 x0 x1 x2 x3 xo4 xo5).1, y ∈ pc.1.set :=
  View.cover_of_tiledL (runNext c i arg2 harg2 arg3 harg3 arg4 harg4 arg5 harg5 arg6 harg6 arg7 harg7 hc0 x0 x1 x2 x3 xo4 xo5).1 S128.size (by sl_kernel_rfl) y
/-- Likewise the pieces found for the running sum of y². -/
theorem coverB_5 (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : ¬condFirst i)
    (x0 : Vec F S1x4096x128 .f32) (x1 : Vec F S1x1x128 .f32) (x2 : Vec F S128x128 .bf16) (x3 : Vec F S128 .f32) (xo4 : Vec F S128 .f32) (xo5 : Vec F S128 .f32) (y : S128.Idx) :
    ∃ pc ∈ (runNext c i arg2 harg2 arg3 harg3 arg4 harg4 arg5 harg5 arg6 harg6 arg7 harg7 hc0 x0 x1 x2 x3 xo4 xo5).2.1, y ∈ pc.1.set :=
  View.cover_of_tiledL (runNext c i arg2 harg2 arg3 harg3 arg4 harg4 arg5 harg5 arg6 harg6 arg7 harg7 hc0 x0 x1 x2 x3 xo4 xo5).2.1 S128.size (by sl_kernel_rfl) y

/-- What a later point leaves in the block of the running sum of y, found at xo4. -/
def outB_4 (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : ¬condFirst i)
    (x0 : Vec F S1x4096x128 .f32) (x1 : Vec F S1x1x128 .f32) (x2 : Vec F S128x128 .bf16) (x3 : Vec F S128 .f32) (xo4 : Vec F S128 .f32) (xo5 : Vec F S128 .f32) : Vec F S128 .f32 :=
  VO4.read (Elt F) (VO4.writes (Elt F) VO4.junk (runNext c i arg2 harg2 arg3 harg3 arg4 harg4 arg5 harg5 arg6 harg6 arg7 harg7 hc0 x0 x1 x2 x3 xo4 xo5).1)
/-- What a later point leaves in the block of the running sum of y², found at xo5. -/
def outB_5 (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : ¬condFirst i)
    (x0 : Vec F S1x4096x128 .f32) (x1 : Vec F S1x1x128 .f32) (x2 : Vec F S128x128 .bf16) (x3 : Vec F S128 .f32) (xo4 : Vec F S128 .f32) (xo5 : Vec F S128 .f32) : Vec F S128 .f32 :=
  VO5.read (Elt F) (VO5.writes (Elt F) VO5.junk (runNext c i arg2 harg2 arg3 harg3 arg4 harg4 arg5 harg5 arg6 harg6 arg7 harg7 hc0 x0 x1 x2 x3 xo4 xo5).2.1)

/-! ## What the output blocks hold after each point -/

/-- What the two output blocks' staging buffers (the running sum of y, the running sum of y²) hold after the body at point n. -/
def outsAt (c : Dev nD) : (n : ℕ) → n < cfg1.N → Vec F S128 .f32 × Vec F S128 .f32
  | 0, hn =>
    (outA_4 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcondFirst ⟨0, hn⟩).mpr rfl) (iblk V c 0 ⟨0, hn⟩) (iblk V c 1 ⟨0, hn⟩) (iblk V c 2 ⟨0, hn⟩) (iblk V c 3 ⟨0, hn⟩),
     outA_5 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcondFirst ⟨0, hn⟩).mpr rfl) (iblk V c 0 ⟨0, hn⟩) (iblk V c 1 ⟨0, hn⟩) (iblk V c 2 ⟨0, hn⟩) (iblk V c 3 ⟨0, hn⟩))
  | n + 1, hn =>
    (outB_4 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => Nat.succ_ne_zero n ((hcondFirst ⟨n + 1, hn⟩).mp h)) (iblk V c 0 ⟨n + 1, hn⟩) (iblk V c 1 ⟨n + 1, hn⟩) (iblk V c 2 ⟨n + 1, hn⟩) (iblk V c 3 ⟨n + 1, hn⟩)
       (outsAt c n (Nat.lt_of_succ_lt hn)).1 (outsAt c n (Nat.lt_of_succ_lt hn)).2,
     outB_5 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => Nat.succ_ne_zero n ((hcondFirst ⟨n + 1, hn⟩).mp h)) (iblk V c 0 ⟨n + 1, hn⟩) (iblk V c 1 ⟨n + 1, hn⟩) (iblk V c 2 ⟨n + 1, hn⟩) (iblk V c 3 ⟨n + 1, hn⟩)
       (outsAt c n (Nat.lt_of_succ_lt hn)).1 (outsAt c n (Nat.lt_of_succ_lt hn)).2)

/-- At the first point: what the zeroing case leaves. -/
theorem outsAt_first (c : Dev nD) (t : Fin cfg1.N) (h0 : t.val = 0) :
    outsAt V c t.val t.isLt
      = (outA_4 c (grid1.coords t) (ms0 t) (hs0 t) (ms1 t) (hs1 t) (ms2 t) (hs2 t) (ms3 t) (hs3 t) (ms4 t) (hs4 t) (ms5 t) (hs5 t) ((hcondFirst t).mpr h0) (iblk V c 0 t) (iblk V c 1 t) (iblk V c 2 t) (iblk V c 3 t),
         outA_5 c (grid1.coords t) (ms0 t) (hs0 t) (ms1 t) (hs1 t) (ms2 t) (hs2 t) (ms3 t) (hs3 t) (ms4 t) (hs4 t) (ms5 t) (hs5 t) ((hcondFirst t).mpr h0) (iblk V c 0 t) (iblk V c 1 t) (iblk V c 2 t) (iblk V c 3 t)) := by
  obtain ⟨n, hn⟩ := t
  cases n with
  | zero => exact rfl
  | succ n => exact absurd h0 (Nat.succ_ne_zero n)

/-- At a later point: what the accumulating case leaves, over what the point before left. -/
theorem outsAt_next (c : Dev nD) (t : Fin cfg1.N) (h0 : ¬t.val = 0) :
    outsAt V c t.val t.isLt
      = (outB_4 c (grid1.coords t) (ms0 t) (hs0 t) (ms1 t) (hs1 t) (ms2 t) (hs2 t) (ms3 t) (hs3 t) (ms4 t) (hs4 t) (ms5 t) (hs5 t) (fun h => h0 ((hcondFirst t).mp h)) (iblk V c 0 t) (iblk V c 1 t) (iblk V c 2 t) (iblk V c 3 t)
           (outsAt V c (t.val - 1) (Nat.lt_of_le_of_lt (Nat.sub_le _ _) t.isLt)).1 (outsAt V c (t.val - 1) (Nat.lt_of_le_of_lt (Nat.sub_le _ _) t.isLt)).2,
         outB_5 c (grid1.coords t) (ms0 t) (hs0 t) (ms1 t) (hs1 t) (ms2 t) (hs2 t) (ms3 t) (hs3 t) (ms4 t) (hs4 t) (ms5 t) (hs5 t) (fun h => h0 ((hcondFirst t).mp h)) (iblk V c 0 t) (iblk V c 1 t) (iblk V c 2 t) (iblk V c 3 t)
           (outsAt V c (t.val - 1) (Nat.lt_of_le_of_lt (Nat.sub_le _ _) t.isLt)).1 (outsAt V c (t.val - 1) (Nat.lt_of_le_of_lt (Nat.sub_le _ _) t.isLt)).2) := by
  obtain ⟨n, hn⟩ := t
  cases n with
  | zero => exact absurd rfl h0
  | succ n => exact rfl

/-- The same, output block by output block. -/
theorem outsAt_first_1 (c : Dev nD) (t : Fin cfg1.N) (h0 : t.val = 0) :
    (outsAt V c t.val t.isLt).1 = outA_4 c (grid1.coords t) (ms0 t) (hs0 t) (ms1 t) (hs1 t) (ms2 t) (hs2 t) (ms3 t) (hs3 t) (ms4 t) (hs4 t) (ms5 t) (hs5 t) ((hcondFirst t).mpr h0) (iblk V c 0 t) (iblk V c 1 t) (iblk V c 2 t) (iblk V c 3 t) := by
  rw [outsAt_first V c t h0]
theorem outsAt_first_2 (c : Dev nD) (t : Fin cfg1.N) (h0 : t.val = 0) :
    (outsAt V c t.val t.isLt).2 = outA_5 c (grid1.coords t) (ms0 t) (hs0 t) (ms1 t) (hs1 t) (ms2 t) (hs2 t) (ms3 t) (hs3 t) (ms4 t) (hs4 t) (ms5 t) (hs5 t) ((hcondFirst t).mpr h0) (iblk V c 0 t) (iblk V c 1 t) (iblk V c 2 t) (iblk V c 3 t) := by
  rw [outsAt_first V c t h0]
theorem outsAt_next_1 (c : Dev nD) (t : Fin cfg1.N) (h0 : ¬t.val = 0) :
    (outsAt V c t.val t.isLt).1 = outB_4 c (grid1.coords t) (ms0 t) (hs0 t) (ms1 t) (hs1 t) (ms2 t) (hs2 t) (ms3 t) (hs3 t) (ms4 t) (hs4 t) (ms5 t) (hs5 t) (fun h => h0 ((hcondFirst t).mp h)) (iblk V c 0 t) (iblk V c 1 t) (iblk V c 2 t) (iblk V c 3 t)
      (outsAt V c (t.val - 1) (Nat.lt_of_le_of_lt (Nat.sub_le _ _) t.isLt)).1 (outsAt V c (t.val - 1) (Nat.lt_of_le_of_lt (Nat.sub_le _ _) t.isLt)).2 := by
  rw [outsAt_next V c t h0]
theorem outsAt_next_2 (c : Dev nD) (t : Fin cfg1.N) (h0 : ¬t.val = 0) :
    (outsAt V c t.val t.isLt).2 = outB_5 c (grid1.coords t) (ms0 t) (hs0 t) (ms1 t) (hs1 t) (ms2 t) (hs2 t) (ms3 t) (hs3 t) (ms4 t) (hs4 t) (ms5 t) (hs5 t) (fun h => h0 ((hcondFirst t).mp h)) (iblk V c 0 t) (iblk V c 1 t) (iblk V c 2 t) (iblk V c 3 t)
      (outsAt V c (t.val - 1) (Nat.lt_of_le_of_lt (Nat.sub_le _ _) t.isLt)).1 (outsAt V c (t.val - 1) (Nat.lt_of_le_of_lt (Nat.sub_le _ _) t.isLt)).2 := by
  rw [outsAt_next V c t h0]

/-! ## The proof data -/

/-- The proof data of region 1 on core c, at the region-entry contents V. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2
  Φ _ := Pipeline.ΦA spec1 c
  q _ := fullShare
  owed _ := 0

theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]
theorem after_5 (c : Dev nD) (t : Fin cfg1.N) : (dat V c).after 5 t = (outsAt V c t.val t.isLt).2 := by dsimp only [dat]

/-- Each input's current staging buffer holds its block at every point, fetched there or not. -/
theorem before_0 (c : Dev nD) (t : Fin cfg1.N) (d) : (dat V c).before 0 t d = iblk V c 0 t :=
  before0_of V (dat V c) (A_eq V c 0) (after_0 V c) t d
theorem before_1 (c : Dev nD) (t : Fin cfg1.N) (d) : (dat V c).before 1 t d = iblk V c 1 t :=
  before1_of V (dat V c) (A_eq V c 1) (after_1 V c) t d
theorem before_2 (c : Dev nD) (t : Fin cfg1.N) (d) : (dat V c).before 2 t d = iblk V c 2 t :=
  before2_of V (dat V c) (A_eq V c 2) (after_2 V c) t d
theorem before_3 (c : Dev nD) (t : Fin cfg1.N) (d) : (dat V c).before 3 t d = iblk V c 3 t :=
  before3_of V (dat V c) (A_eq V c 3) (after_3 V c) t d

/-- At a point after the first each output block's staging buffer holds what the body left at the point before: the
    buffer was not written back between (that happens after the last point only), the window is live and uncut. -/
theorem before_4_next (c : Dev nD) (t : Fin cfg1.N) (h0 : ¬t.val = 0) (d) :
    (dat V c).before 4 t d = (outsAt V c (t.val - 1) (Nat.lt_of_le_of_lt (Nat.sub_le _ _) t.isLt)).1 := by
  have hN : t.val < 96 := lt_of_lt_of_eq t.isLt (show cfg1.N = 96 from N_1)
  rw [Dat.before_out_kept _ 4 rfl t h0 (Bool.eq_false_iff.mpr fun h => by have := (flush1_4 _).mp h; dsimp only at this; omega)
    (fun _ => rfl) (fun _ _ => rfl)]
  dsimp only [dat]
theorem before_5_next (c : Dev nD) (t : Fin cfg1.N) (h0 : ¬t.val = 0) (d) :
    (dat V c).before 5 t d = (outsAt V c (t.val - 1) (Nat.lt_of_le_of_lt (Nat.sub_le _ _) t.isLt)).2 := by
  have hN : t.val < 96 := lt_of_lt_of_eq t.isLt (show cfg1.N = 96 from N_1)
  rw [Dat.before_out_kept _ 5 rfl t h0 (Bool.eq_false_iff.mpr fun h => by have := (flush1_5 _).mp h; dsimp only at this; omega)
    (fun _ => rfl) (fun _ _ => rfl)]
  dsimp only [dat]

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t))

set_option maxHeartbeats 1600000 in
/-- The body at any point: the inputs' buffers hold their blocks; at the first point both output blocks are found at
    anything, afterwards at what the point before left; so the case's run applies; the invariant passes through unread;
    the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5]
  by_cases h0 : t.val = 0
  · rw [outsAt_first_1 V c t h0, outsAt_first_2 V c t h0]
    unfold outA_4 outA_5
    iintro ⟨HΦ, Ho, ⟨%d0, H0⟩, ⟨%d1, H1⟩, ⟨%d2, H2⟩, ⟨%d3, H3⟩, ⟨%d4, H4⟩, ⟨%d5, H5⟩⟩
    iapply ((runFirst c (grid1.coords t) _ _ _ _ _ _ _ _ _ _ _ _ ((hcondFirst t).mpr h0) (iblk V c 0 t) (iblk V c 1 t) (iblk V c 2 t) (iblk V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA_4 c _ _ _ _ _ _ _ _ _ _ _ _ _ _ _ _ _ _)
    unfold owns; iexists _; isplitr
    swap; · iexact H5
    ipureintro; exact View.read_writes_of_cover _ _ _ _ _ (coverA_5 c _ _ _ _ _ _ _ _ _ _ _ _ _ _ _ _ _ _)
  · rw [outsAt_next_1 V c t h0, outsAt_next_2 V c t h0]
    simp only [before_4_next V c t h0, before_5_next V c t h0]
    unfold outB_4 outB_5
    iintro ⟨HΦ, Ho, ⟨%d0, H0⟩, ⟨%d1, H1⟩, ⟨%d2, H2⟩, ⟨%d3, H3⟩, ⟨%d4, H4⟩, ⟨%d5, H5⟩⟩
    iapply ((runNext c (grid1.coords t) _ _ _ _ _ _ _ _ _ _ _ _ (fun h => h0 ((hcondFirst t).mp h)) (iblk V c 0 t) (iblk V c 1 t) (iblk V c 2 t) (iblk V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB_4 c _ _ _ _ _ _ _ _ _ _ _ _ _ _ _ _ _ _ _ _)
    unfold owns; iexists _; isplitr
    swap; · iexact H5
    ipureintro; exact View.read_writes_of_cover _ _ _ _ _ (coverB_5 c _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Reg1

end
-- ==== Proof.BK2Frame.lean ====
/- Region 2: at every grid point the body recomputes the linear layer on the tile, applies the per-channel scale and
   shift and tanh, and stores the whole output block, which is written back at every point. -/
import proofs.«147310_j32392643347009_1_alg».proof.Proof.Gen.Kernel.Launch
import proofs.«147310_j32392643347009_1_alg».proof.Proof.Gen.Kernel.Skeleton
import proofs.«147310_j32392643347009_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The input windows' staging buffers

An input window that leaves its block in place holds its block at every point, fetched there or not: where it is
not fetched its block index has not moved (the reciprocal masses move with the batch only, the parameters never). -/

theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take the whole buffer -/

abbrev r0 : Rect S1x4096x128 := Rect.unit (s := S1x4096x128) ![0, 0, 0] S1x4096x128.size inb_S1x4096x128_S1x4096x128_0_0_0
abbrev r1 : Rect S1x1x128 := Rect.unit (s := S1x1x128) ![0, 0, 0] S1x1x128.size inb_S1x1x128_S1x1x128_0_0_0
abbrev r2 : Rect S128x128 := Rect.unit (s := S128x128) ![0, 0] S128x128.size inb_S128x128_S128x128_0_0
abbrev r3 : Rect S128 := Rect.unit (s := S128) ![0] S128.size inb_S128_S128_0
abbrev r6 : Rect S1x4096x128 := r0

/-- What the output block's staging buffer holds after the body, from the six input blocks. -/
def out6 (x0 : Vec F S1x4096x128 .f32) (x1 : Vec F S1x1x128 .f32) (x2 : Vec F S128x128 .bf16) (x3 : Vec F S128 .f32) (x4 : Vec F S128 .f32) (x5 : Vec F S128 .f32) : Vec F S1x4096x128 .f32 :=
  View.canon [⟨r6, k2_pay1 (View.ld x0 r0) (View.ld x1 r1) (View.ld x2 r2) (View.ld x3 r3) (View.ld x4 r3) (View.ld x5 r3)⟩]

/-- The one store takes the whole buffer, so it covers it. -/
theorem cover6 (p0 : Vec F S1x4096x128 .f32) (y : S1x4096x128.Idx) :
    ∃ pc ∈ ([⟨r6, p0⟩] : List (View.Piece (Elt F) S1x4096x128 .f32)), y ∈ pc.1.set :=
  View.cover_of_tiled [⟨r6, p0⟩] S1x4096x128.size (by rfl) y

/-! ## The body's triple -/

set_option maxHeartbeats 1000000 in
/-- The body on whole staging memrefs, the six inputs' at read contents x0..x5 and the output's at anything, runs to the
    continuation holding the inputs' as they were and the output's at `out6` of them. The output buffer is loaded too,
    into a value nothing reads. -/
theorem sound_kernel (c : Dev nD) (E : Set ℕ) (i : grid2.Coords)
    (arg2 : Memref sig .tc .vmem S1x4096x128 .f32) (harg2 : arg2.IsWhole) (arg3 : Memref sig .tc .vmem S1x1x128 .f32) (harg3 : arg3.IsWhole)
    (arg4 : Memref sig .tc .vmem S128x128 .bf16) (harg4 : arg4.IsWhole) (arg5 : Memref sig .tc .vmem S128 .f32) (harg5 : arg5.IsWhole)
    (arg6 : Memref sig .tc .vmem S128 .f32) (harg6 : arg6.IsWhole) (arg7 : Memref sig .tc .vmem S128 .f32) (harg7 : arg7.IsWhole)
    (arg8 : Memref sig .tc .vmem S1x4096x128 .f32) (harg8 : arg8.IsWhole)
    (x0 : Vec F S1x4096x128 .f32) (x1 : Vec F S1x1x128 .f32) (x2 : Vec F S128x128 .bf16) (x3 : Vec F S128 .f32) (x4 : Vec F S128 .f32) (x5 : Vec F S128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out6 x0 x1 x2 x3 x4 x5)) -∗ K ⟨⟩))
      ⊢ wp frame (wpE (defs₀ (F := F)) Variants.none c none) E (cc2__final_kernel i arg2 harg2 arg3 harg3 arg4 harg4 arg5 harg5 arg6 harg6 arg7 harg7 arg8 harg8) K := by
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The region's proof data -/

/-- The proof data of region 2 on core c, at the region-entry contents V. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t) (iblk V c 4 t) (iblk V c 5 t)
  Φ _ := Pipeline.ΦA spec2 c
  q _ := fullShare
  owed _ := 0

theorem A_eq (c : Dev nD) (w : Fin cfg2.W) : (dat V c).A w = V c (Pipeline.arrRef spec2 w) := by
  dsimp only [dat]

/-- What the body leaves, window by window. -/
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = iblk V c 4 t := by dsimp only [dat]
theorem after5 (c : Dev nD) (t : Fin cfg2.N) : (dat V c).after 5 t = iblk V c 5 t := by dsimp only [dat]
theorem after6 (c : Dev nD) (t : Fin cfg2.N) :
    (dat V c).after 6 t = out6 (iblk V c 0 t) (iblk V c 1 t) (iblk V c 2 t) (iblk V c 3 t) (iblk V c 4 t) (iblk V c 5 t) := by dsimp only [dat]

/-- Each input's current staging buffer holds its block at every point. -/
theorem before0 (c : Dev nD) (t : Fin cfg2.N) (d) : (dat V c).before 0 t d = iblk V c 0 t :=
  before0_of V (dat V c) (A_eq V c 0) (after0 V c) t d
theorem before1 (c : Dev nD) (t : Fin cfg2.N) (d) : (dat V c).before 1 t d = iblk V c 1 t :=
  before1_of V (dat V c) (A_eq V c 1) (after1 V c) t d
theorem before2 (c : Dev nD) (t : Fin cfg2.N) (d) : (dat V c).before 2 t d = iblk V c 2 t :=
  before2_of V (dat V c) (A_eq V c 2) (after2 V c) t d
theorem before3 (c : Dev nD) (t : Fin cfg2.N) (d) : (dat V c).before 3 t d = iblk V c 3 t :=
  before3_of V (dat V c) (A_eq V c 3) (after3 V c) t d
theorem before4 (c : Dev nD) (t : Fin cfg2.N) (d) : (dat V c).before 4 t d = iblk V c 4 t :=
  before4_of V (dat V c) (A_eq V c 4) (after4 V c) t d
theorem before5 (c : Dev nD) (t : Fin cfg2.N) (d) : (dat V c).before 5 t d = iblk V c 5 t :=
  before5_of V (dat V c) (A_eq V c 5) (after5 V c) t d

/-! ## The body obligation, at a generic point -/

/-- What the body is called with at point t, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

/-- The body at any point: the inputs' memrefs hold their blocks, so the body's triple applies; the invariant and the
    core's debts pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W2, bigSep_W2]
  exact sound_body V c t

end Cert.Kernel.Reg2

end
-- ==== Proof.BRun.lean ====
/- The kernel program's run with the regions' proof data filled in: what each region leaves in its output arrays is
   what its write-backs leave (the proof data's `arrAt` after the last point); every other buffer is as the item before
   left it. From it: the frame (the arguments end as launched) and the result buffer's final contents. -/
import proofs.«147310_j32392643347009_1_alg».proof.Proof.BRunCond
import proofs.«147310_j32392643347009_1_alg».proof.Proof.BK0Frame
import proofs.«147310_j32392643347009_1_alg».proof.Proof.BK1Frame
import proofs.«147310_j32392643347009_1_alg».proof.Proof.BK2Frame
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
open Idealize.ShloMosaic.Pipeline (Seg HostSeg RegionSeg)

variable (m : (ℓ : Loc nD τ sig) → Buf (Elt F) ℓ) (ρ : Dev nD → PrngReg)

/-! ## What the regions leave, stage by stage -/

/-- Region 0 is entered at the contents after the first three host stretches. -/
abbrev E3 : (c : Dev nD) → (b : Ref sig .tc) → Buf (Elt F) ((c : Thread nD τ).loc b) := fun c b => V3 m c b
/-- After region 0: its arrays at what its write-backs leave, every other buffer as entered. -/
def o4 (c : Dev nD) : Valuation τ sig (Elt F) :=
  Pipeline.withArrays spec0 c (V3 m c) fun w => (Reg0.dat (E3 m) c).arrAt w cfg0.N
/-- The regions' results known so far: region 0's. -/
def outsA : Outs (F := F) := fun _ r c => o4 m c r
/-- Region 1 is entered at the contents after the host stretch that follows region 0. -/
abbrev E5 : (c : Dev nD) → (b : Ref sig .tc) → Buf (Elt F) ((c : Thread nD τ).loc b) := fun c b => V5 m (outsA m) c b
def o6 (c : Dev nD) : Valuation τ sig (Elt F) :=
  Pipeline.withArrays spec1 c (V5 m (outsA m) c) fun w => (Reg1.dat (E5 m) c).arrAt w cfg1.N
/-- Regions 0's and 1's results. -/
def outsB : Outs (F := F) := fun J r c => match J with | 4 => o4 m c r | _ => o6 m c r
/-- Region 2 is entered at the contents after the host stretch that follows region 1. -/
abbrev E7 : (c : Dev nD) → (b : Ref sig .tc) → Buf (Elt F) ((c : Thread nD τ).loc b) := fun c b => V7 m (outsB m) c b
def o8 (c : Dev nD) : Valuation τ sig (Elt F) :=
  Pipeline.withArrays spec2 c (V7 m (outsB m) c) fun w => (Reg2.dat (E7 m) c).arrAt w cfg2.N
/-- All three regions' results, by the item after which they are read. -/
def outs : Outs (F := F) := fun J r c => match J with | 4 => o4 m c r | 6 => o6 m c r | _ => o8 m c r

/-- The later stages do not change what the earlier valuations read. -/
theorem V4_outs (c : Dev nD) : V4 m (outs m) c = V4 m (outsA m) c := rfl
theorem V5_outs (c : Dev nD) : V5 m (outs m) c = V5 m (outsA m) c := rfl
theorem V6_outs (c : Dev nD) : V6 m (outs m) c = V6 m (outsB m) c := rfl
theorem V7_outs (c : Dev nD) : V7 m (outs m) c = V7 m (outsB m) c := rfl

/-! ## The proof data family and the thread state -/

/-- Every region's proof data, each at its region's entry contents (a literal match on the region). -/
def pdats : (p : Fin 3) → (c : Dev nD) → Dat τ (Elt F) Unit ℕ (UR sig nD τ) ℕ (cfgs p) c
  | ⟨0, _⟩ => fun c => Reg0.dat (E3 m) c
  | ⟨1, _⟩ => fun c => Reg1.dat (E5 m) c
  | ⟨2, _⟩ => fun c => Reg2.dat (E7 m) c

/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## Each region's exit contents -/

/-- An input window's array is never written: it holds its entry contents after every point. -/
theorem hF0 (c : Dev nD) : ∀ w : Fin cfg0.W, (Reg0.dat (E3 m) c).arrAt w cfg0.N = V4 m (outs m) c (Pipeline.arrRef spec0 w)
  | ⟨0, _⟩ => ((Reg0.dat (E3 m) c).arrAt_in 0 rfl _).trans ((Reg0.A_eq (E3 m) c 0).trans (V4_of m (outs m) c main_v3 (by decide)).symm)
  | ⟨1, _⟩ => by
    show _ = V4 m (outs m) c (Proc.devRef .tc main_v4)
    simp only [V4, Function.update_self]
    exact (Pipeline.withArrays_arr spec0 launch0.win.arr_inj c (V3 m c) (fun w => (Reg0.dat (E3 m) c).arrAt w cfg0.N) 1).symm
theorem hrest0 (c : Dev nD) : ∀ b, b ∉ Finset.univ.image (Pipeline.arrRef spec0) → V4 m (outs m) c b = E3 m c b := by
  intro b hb
  refine V4_of m (outs m) c b ?_
  intro h
  exact hb (Finset.mem_image.mpr ⟨1, Finset.mem_univ _, (List.mem_singleton.mp h).symm⟩)

theorem hF1 (c : Dev nD) : ∀ w : Fin cfg1.W, (Reg1.dat (E5 m) c).arrAt w cfg1.N = V6 m (outs m) c (Pipeline.arrRef spec1 w)
  | ⟨0, _⟩ => ((Reg1.dat (E5 m) c).arrAt_in 0 rfl _).trans ((Reg1.A_eq (E5 m) c 0).trans (V6_of m (outs m) c main_v3 (by decide)).symm)
  | ⟨1, _⟩ => ((Reg1.dat (E5 m) c).arrAt_in 1 rfl _).trans ((Reg1.A_eq (E5 m) c 1).trans (V6_of m (outs m) c main_v8 (by decide)).symm)
  | ⟨2, _⟩ => ((Reg1.dat (E5 m) c).arrAt_in 2 rfl _).trans ((Reg1.A_eq (E5 m) c 2).trans (V6_of m (outs m) c main_v9 (by decide)).symm)
  | ⟨3, _⟩ => ((Reg1.dat (E5 m) c).arrAt_in 3 rfl _).trans ((Reg1.A_eq (E5 m) c 3).trans (V6_of m (outs m) c main_arg3 (by decide)).symm)
  | ⟨4, _⟩ => by
    show _ = V6 m (outs m) c (Proc.devRef .tc main_v10_0)
    simp only [V6, Function.update_self, Function.update_of_ne (show (Proc.devRef .tc main_v10_0 : DevRef τ sig) ≠ Proc.devRef .tc main_v10_1 from StableHlo.devRef_ne_of_ne (by decide))]
    exact (Pipeline.withArrays_arr spec1 launch1.win.arr_inj c (V5 m (outsA m) c) (fun w => (Reg1.dat (E5 m) c).arrAt w cfg1.N) 4).symm
  | ⟨5, _⟩ => by
    show _ = V6 m (outs m) c (Proc.devRef .tc main_v10_1)
    simp only [V6, Function.update_self]
    exact (Pipeline.withArrays_arr spec1 launch1.win.arr_inj c (V5 m (outsA m) c) (fun w => (Reg1.dat (E5 m) c).arrAt w cfg1.N) 5).symm
theorem hrest1 (c : Dev nD) : ∀ b, b ∉ Finset.univ.image (Pipeline.arrRef spec1) → V6 m (outs m) c b = E5 m c b := by
  intro b hb
  refine V6_of m (outs m) c b ?_
  intro h
  rcases List.mem_cons.mp h with h | h
  · exact hb (Finset.mem_image.mpr ⟨4, Finset.mem_univ _, h.symm⟩)
  · exact hb (Finset.mem_image.mpr ⟨5, Finset.mem_univ _, (List.mem_singleton.mp h).symm⟩)

theorem hF2 (c : Dev nD) : ∀ w : Fin cfg2.W, (Reg2.dat (E7 m) c).arrAt w cfg2.N = V8 m (outs m) c (Pipeline.arrRef spec2 w)
  | ⟨0, _⟩ => ((Reg2.dat (E7 m) c).arrAt_in 0 rfl _).trans ((Reg2.A_eq (E7 m) c 0).trans (V8_of m (outs m) c main_v3 (by decide)).symm)
  | ⟨1, _⟩ => ((Reg2.dat (E7 m) c).arrAt_in 1 rfl _).trans ((Reg2.A_eq (E7 m) c 1).trans (V8_of m (outs m) c main_v8 (by decide)).symm)
  | ⟨2, _⟩ => ((Reg2.dat (E7 m) c).arrAt_in 2 rfl _).trans ((Reg2.A_eq (E7 m) c 2).trans (V8_of m (outs m) c main_v9 (by decide)).symm)
  | ⟨3, _⟩ => ((Reg2.dat (E7 m) c).arrAt_in 3 rfl _).trans ((Reg2.A_eq (E7 m) c 3).trans (V8_of m (outs m) c main_arg3 (by decide)).symm)
  | ⟨4, _⟩ => ((Reg2.dat (E7 m) c).arrAt_in 4 rfl _).trans ((Reg2.A_eq (E7 m) c 4).trans (V8_of m (outs m) c main_v20 (by decide)).symm)
  | ⟨5, _⟩ => ((Reg2.dat (E7 m) c).arrAt_in 5 rfl _).trans ((Reg2.A_eq (E7 m) c 5).trans (V8_of m (outs m) c main_v22 (by decide)).symm)
  | ⟨6, _⟩ => by
    show _ = V8 m (outs m) c (Proc.devRef .tc main_v23)
    simp only [V8, Function.update_self]
    exact (Pipeline.withArrays_arr spec2 launch2.win.arr_inj c (V7 m (outsB m) c) (fun w => (Reg2.dat (E7 m) c).arrAt w cfg2.N) 6).symm
theorem hrest2 (c : Dev nD) : ∀ b, b ∉ Finset.univ.image (Pipeline.arrRef spec2) → V8 m (outs m) c b = E7 m c b := by
  intro b hb
  refine V8_of m (outs m) c b ?_
  intro h
  exact hb (Finset.mem_image.mpr ⟨6, Finset.mem_univ _, (List.mem_singleton.mp h).symm⟩)

/-! ## The regions as segments -/

-- `iapply` of a library lemma stated over the pinned configuration unifies only when unification may unfold plain
-- definitions in a metavariable's type
set_option backward.isDefEq.respectTransparency.types false in
/-- Region 0 as a segment: entered from every unscoped buffer at the contents before it, left with them at the contents
    after it; its arrays split out of the unscoped buffers at entry and put back at exit; the generator register goes
    into the region's invariant and comes back; nothing owed; no semaphore of the kernel's own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Reg0.body_obligation (E3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := Pipeline.ΦA spec0 c) ?_ (Reg0.hin (E3 m) c)
    unfold Pipeline.ΦA
    iintro ⟨Hp, -, Hr⟩
    isplitl [Hr]; · iexact Hr
    iexact Hp
  hout c := by
    rw [Pipeline.ownSems0_none]
    refine BIBase.Entails.trans (Reg0.hout (E3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 as a segment: entered from every unscoped buffer at the contents before it, left with them at the contents
    after it; its arrays split out of the unscoped buffers at entry and put back at exit; the generator register goes
    into the region's invariant and comes back; nothing owed; no semaphore of the kernel's own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Reg1.body_obligation (E5 m) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [V5_outs m c]
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 2 as a segment: entered from every unscoped buffer at the contents before it, left with them at the contents
    after it; its arrays split out of the unscoped buffers at entry and put back at exit; the generator register goes
    into the region's invariant and comes back; nothing owed; no semaphore of the kernel's own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (Reg2.body_obligation (E7 m) c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [V7_outs m c]
    rw [Pipeline.ownSems0_none]
    have hsplit := Pipeline.arrays_of_unscopedBufs (p := 2) (pcfgs (F := F)) adm (pdats m) launch2.win launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E7 m c) (fun b => V8 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution of the kernel program terminates, and in every final memory each unscoped buffer holds
    the last valuation's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = V8 m (outs m) c b) :=
  run_cond m emb₁ () Variants.none L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => R c) : sProp 𝕄) :=
        bigSep_mono fun c _ => (show (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ R c from by
          iintro ⟨-, HO, -, Hp, -⟩
          isplitl [Hp]; · iexists _; iexact Hp
          iexists ∅; iexact HO)
      iintro ⟨H, -⟩
      imodintro
      iapply hmono
      iexact H)
    (fun c => by iintro ⟨-, HO⟩; iexact HO)
    (reg0 m) (fun c => .rfl) (fun c => .rfl)
    (reg1 m) (fun c => .rfl) (fun c => .rfl)
    (reg2 m) (fun c => .rfl) (fun c => .rfl)

/-- The frame: every argument array ends as launched (the generated conditional frame, at the same records). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (V8_main_arg0 m (outs m) c),
     (h c _ (mem_uc main_arg1 (by decide))).trans (V8_main_arg1 m (outs m) c),
     (h c _ (mem_uc main_arg2 (by decide))).trans (V8_main_arg2 m (outs m) c),
     (h c _ (mem_uc main_arg3 (by decide))).trans (V8_main_arg3 m (outs m) c),
     (h c _ (mem_uc main_arg4 (by decide))).trans (V8_main_arg4 m (outs m) c),
     (h c _ (mem_uc main_arg5 (by decide))).trans (V8_main_arg5 m (outs m) c)⟩) (run_all m ρ)

end Cert.Kernel.Run

end
-- ==== Proof.K0Runs.lean ====
/- Region 0 (the column sums of |x| over the edge axis, accumulated in a scratch row over the six
   edge tiles of a batch): what its three control cases share. The grid is (batch, edge tile) = 16 × 6,
   point t = 6·batch + tile. The body resets the scratch when tile = 0 and copies it to the output
   block when tile = 5; the output block (batch, 0, 0) is written back after tile 5 only. -/
import proofs.«147310_j32392643347009_1_alg».proof.Proof.Gen.KernelIdeal.Launch
import proofs.«147310_j32392643347009_1_alg».proof.Proof.Gen.KernelIdeal.Skeleton
import proofs.«147310_j32392643347009_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of core c's buffers when the region is entered: a parameter
variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the edge tile of x at every point. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- "tile = 0": the reset branch is taken. -/
abbrev condReset (i : grid0.Coords) : Prop := (Scalar.cmpi .ne (Scalar.extui (Scalar.cmpi .eq (BitVec.ofNat 32 (i 1).val) 0#32)) 0#32) = 1#1
theorem hcondReset : ∀ t : Fin cfg0.N, condReset (grid0.coords t) ↔ t.val % 6 = 0 :=
  (by decide +kernel : ∀ t : Fin grid0.N, condReset (grid0.coords t) ↔ t.val % 6 = 0)

/-- "tile = 5": the output branch is taken. -/
abbrev condOut (i : grid0.Coords) : Prop := k0_cond2 i = 1#1
theorem hcondOut : ∀ t : Fin cfg0.N, condOut (grid0.coords t) ↔ t.val % 6 = 5 :=
  (by decide +kernel : ∀ t : Fin grid0.N, condOut (grid0.coords t) ↔ t.val % 6 = 5)

/-- The input window is never idle; the output window is idle and not written back unless tile = 5. -/
theorem live0 : ∀ t : Fin cfg0.N, cfg0.idle 0 (grid0.coords t) = false := by decide +kernel
theorem idle1 : ∀ t : Fin cfg0.N, ¬condOut (grid0.coords t) → cfg0.idle 1 (grid0.coords t) = true := by decide +kernel
theorem noFlush1 : ∀ t : Fin cfg0.N, ¬condOut (grid0.coords t) → (cfg0.win 1).flush t = false := by decide +kernel
theorem live1 : ∀ t : Fin cfg0.N, condOut (grid0.coords t) → cfg0.idle 1 (grid0.coords t) = false := by decide +kernel

/-- The staging memrefs at a point, and the scratch row. -/
abbrev VO1 : View sig .tc .vmem S1x1x128 .f32 := (Memref.whole cc0_stg1_0 : Memref sig .tc .vmem S1x1x128 .f32).view
abbrev ms0 (t : Fin cfg0.N) : Memref sig .tc .vmem S1x4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x128 .f32 := win0_1.stage (cfg0.slots t 1)
abbrev hs1 (t : Fin cfg0.N) : (ms1 t).IsWhole := hstage0_1 ((cfg0.slots t 1).cast nbuf0_1)
abbrev scM : Memref sig .tc .vmem S128 .f32 := Memref.whole cc0_scratch0
abbrev VS : View sig .tc .vmem S128 .f32 := scM.view

/-- The scoped buffers of the other two regions, each whole at some contents: they ride through this region untouched. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f))

/-- The class invariant: the scratch row owned at some contents, the other regions' scoped buffers, the generator register. -/
theorem PhiA_eq (c : Dev nD) :
    (Pipeline.ΦA spec0 c : sProp 𝕄)
      = iprop(((∃ d, owns (c : Thread nD τ) scM fullShare d) ∗ others c) ∗ (∃ r, prngReg c r)) := by
  unfold Pipeline.ΦA others; rw [scopedRest0_eq]; simp only [scM, owns_whole]; try rfl

end Cert.KernelIdeal.Reg0

end
-- ==== Proof.K0RunA.lean ====
/- Region 0, the body when tile = 0: the scratch row is reset to zero, then the tile's column sums of |x|
   are added to it; the output block is not touched. -/
import proofs.«147310_j32392643347009_1_alg».proof.Proof.K0Runs

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body leaves in the scratch row when tile = 0 (last store first), with the body's triple: the tile of x
    and the output block are handed back as found, the scratch, found at anything, with those pieces written. -/
noncomputable def runReset (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : condReset i) (hc1 : ¬condOut i)
    (x0 : Vec F S1x4096x128 .f32) :
    Σ' (L1 : List (View.Piece (Elt F) S1x1x128 .f32)), { LS0 : List (View.Piece (Elt F) S128 .f32) //
      ∀ (xi1 : Vec F S1x1x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__denom_kernel i arg2 harg2 arg3 harg3 arg4 harg4) K } := by
  refine ⟨[], ?_, fun xi1 E K => ?run⟩
  case run =>
    simp only [cc0__denom_kernel_eq_skeleton]; unfold cc0__denom_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Reg0

end
-- ==== Proof.K0RunB.lean ====
/- Region 0, the body when 0 < tile < 5: the tile's column sums of |x| are added to the scratch row; the output block
   is not touched. -/
import proofs.«147310_j32392643347009_1_alg».proof.Proof.K0RunA

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body leaves in the scratch row in the middle of a batch, with the body's triple: the scratch is found at
    what the tile before left. -/
noncomputable def runAcc (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬condReset i) (hc1 : ¬condOut i)
    (x0 : Vec F S1x4096x128 .f32) (xs0 : Vec F S128 .f32) :
    Σ' (L1 : List (View.Piece (Elt F) S1x1x128 .f32)), { LS0 : List (View.Piece (Elt F) S128 .f32) //
      ∀ (xi1 : Vec F S1x1x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__denom_kernel i arg2 harg2 arg3 harg3 arg4 harg4) K } := by
  refine ⟨[], ?_, fun xi1 E K => ?run⟩
  case run =>
    simp only [cc0__denom_kernel_eq_skeleton]; unfold cc0__denom_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Reg0

end
-- ==== Proof.K0RunC.lean ====
/- Region 0, the body when tile = 5: the tile's column sums of |x| are added to the scratch row, and the row is
   stored into the output block. -/
import proofs.«147310_j32392643347009_1_alg».proof.Proof.K0RunB

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body leaves in the output block and in the scratch row at the last tile of a batch, with the body's triple. -/
noncomputable def runOut (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬condReset i) (hc1 : condOut i)
    (x0 : Vec F S1x4096x128 .f32) (xs0 : Vec F S128 .f32) :
    Σ' (L1 : List (View.Piece (Elt F) S1x1x128 .f32)), { LS0 : List (View.Piece (Elt F) S128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__denom_kernel i arg2 harg2 arg3 harg3 arg4 harg4) K } := by
  refine ⟨?_, ?_, fun E K => ?run⟩
  case run =>
    simp only [cc0__denom_kernel_eq_skeleton]; unfold cc0__denom_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Reg0

end
-- ==== Proof.K0Frame.lean ====
/- Region 0: what the scratch row and the output block hold after each grid point, the proof data, and the body's
   obligation at every point. After the point (batch b, tile k) the scratch row holds the column sums of |x| over tiles
   0..k of batch b; at tile 5 that row is stored into the output block (b, 0, ·), which is then written back. -/
import proofs.«147310_j32392643347009_1_alg».proof.Proof.K0RunC

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At tile 0 nothing is stored into the output block (the window is idle there and not written back): a placeholder
    that nothing consults. -/
def outA1 (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : condReset i) (hc1 : ¬condOut i)
    (x0 : Vec F S1x4096x128 .f32) : Vec F S1x1x128 .f32 :=
  VO1.read (Elt F) (VO1.writes (Elt F) VO1.junk (runReset c i arg2 harg2 arg3 harg3 arg4 harg4 hc0 hc1 x0).1)

/-- The pieces stored into the scratch row at tile 0 cover it. -/
theorem scoverA (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : condReset i) (hc1 : ¬condOut i)
    (x0 : Vec F S1x4096x128 .f32) (y : S128.Idx) :
    ∃ pc ∈ (runReset c i arg2 harg2 arg3 harg3 arg4 harg4 hc0 hc1 x0).2.1, y ∈ pc.1.set :=
  View.cover_of_tiledL (runReset c i arg2 harg2 arg3 harg3 arg4 harg4 hc0 hc1 x0).2.1 S128.size (by sl_kernel_rfl) y

/-- What tile 0 leaves in the scratch row: its pieces read back. -/
def soutA (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : condReset i) (hc1 : ¬condOut i)
    (x0 : Vec F S1x4096x128 .f32) : Vec F S128 .f32 :=
  VS.read (Elt F) (VS.writes (Elt F) VS.junk (runReset c i arg2 harg2 arg3 harg3 arg4 harg4 hc0 hc1 x0).2.1)

/-- At a tile strictly between the first and the last nothing is stored into the output block: a placeholder. -/
def outB1 (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬condReset i) (hc1 : ¬condOut i)
    (x0 : Vec F S1x4096x128 .f32) (xs0 : Vec F S128 .f32) : Vec F S1x1x128 .f32 :=
  VO1.read (Elt F) (VO1.writes (Elt F) VO1.junk (runAcc c i arg2 harg2 arg3 harg3 arg4 harg4 hc0 hc1 x0 xs0).1)

/-- The pieces stored into the scratch row at a middle tile cover it. -/
theorem scoverB (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬condReset i) (hc1 : ¬condOut i)
    (x0 : Vec F S1x4096x128 .f32) (xs0 : Vec F S128 .f32) (y : S128.Idx) :
    ∃ pc ∈ (runAcc c i arg2 harg2 arg3 harg3 arg4 harg4 hc0 hc1 x0 xs0).2.1, y ∈ pc.1.set :=
  View.cover_of_tiledL (runAcc c i arg2 harg2 arg3 harg3 arg4 harg4 hc0 hc1 x0 xs0).2.1 S128.size (by sl_kernel_rfl) y

/-- What a middle tile leaves in the scratch row. -/
def soutB (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬condReset i) (hc1 : ¬condOut i)
    (x0 : Vec F S1x4096x128 .f32) (xs0 : Vec F S128 .f32) : Vec F S128 .f32 :=
  VS.read (Elt F) (VS.writes (Elt F) VS.junk (runAcc c i arg2 harg2 arg3 harg3 arg4 harg4 hc0 hc1 x0 xs0).2.1)

/-- The pieces stored into the output block at tile 5 cover it. -/
theorem coverC1 (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬condReset i) (hc1 : condOut i)
    (x0 : Vec F S1x4096x128 .f32) (xs0 : Vec F S128 .f32) (y : S1x1x128.Idx) :
    ∃ pc ∈ (runOut c i arg2 harg2 arg3 harg3 arg4 harg4 hc0 hc1 x0 xs0).1, y ∈ pc.1.set :=
  View.cover_of_tiledL (runOut c i arg2 harg2 arg3 harg3 arg4 harg4 hc0 hc1 x0 xs0).1 S1x1x128.size (by sl_kernel_rfl) y

/-- What tile 5 leaves in the output block. -/
def outC1 (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬condReset i) (hc1 : condOut i)
    (x0 : Vec F S1x4096x128 .f32) (xs0 : Vec F S128 .f32) : Vec F S1x1x128 .f32 :=
  VO1.read (Elt F) (VO1.writes (Elt F) VO1.junk (runOut c i arg2 harg2 arg3 harg3 arg4 harg4 hc0 hc1 x0 xs0).1)

/-- The pieces stored into the scratch row at tile 5 cover it. -/
theorem scoverC (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬condReset i) (hc1 : condOut i)
    (x0 : Vec F S1x4096x128 .f32) (xs0 : Vec F S128 .f32) (y : S128.Idx) :
    ∃ pc ∈ (runOut c i arg2 harg2 arg3 harg3 arg4 harg4 hc0 hc1 x0 xs0).2.1, y ∈ pc.1.set :=
  View.cover_of_tiledL (runOut c i arg2 harg2 arg3 harg3 arg4 harg4 hc0 hc1 x0 xs0).2.1 S128.size (by sl_kernel_rfl) y

/-- What tile 5 leaves in the scratch row. -/
def soutC (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬condReset i) (hc1 : condOut i)
    (x0 : Vec F S1x4096x128 .f32) (xs0 : Vec F S128 .f32) : Vec F S128 .f32 :=
  VS.read (Elt F) (VS.writes (Elt F) VS.junk (runOut c i arg2 harg2 arg3 harg3 arg4 harg4 hc0 hc1 x0 xs0).2.1)

/-- What the output block's staging buffer (first component) and the scratch row (second) hold after the body at point n:
    the case n % 6 selects, run on the tile of x at n and, past tile 0, on what point n - 1 left in the scratch row. -/
def outsAt (c : Dev nD) : (n : ℕ) → n < cfg0.N → Vec F S1x1x128 .f32 × Vec F S128 .f32
  | 0, hn => (outA1 c (grid0.coords ⟨0, hn⟩) (ms0 ⟨0, hn⟩) (hs0 ⟨0, hn⟩) (ms1 ⟨0, hn⟩) (hs1 ⟨0, hn⟩) scM (Memref.isWhole_whole _) ((hcondReset ⟨0, hn⟩).mpr (Nat.zero_mod _)) (fun h => (fun h => by (try dsimp only at h); omega) ((hcondOut ⟨0, hn⟩).mp h)) (iblk V c 0 ⟨0, hn⟩), soutA c (grid0.coords ⟨0, hn⟩) (ms0 ⟨0, hn⟩) (hs0 ⟨0, hn⟩) (ms1 ⟨0, hn⟩) (hs1 ⟨0, hn⟩) scM (Memref.isWhole_whole _) ((hcondReset ⟨0, hn⟩).mpr (Nat.zero_mod _)) (fun h => (fun h => by (try dsimp only at h); omega) ((hcondOut ⟨0, hn⟩).mp h)) (iblk V c 0 ⟨0, hn⟩))
  | n + 1, hn =>
    if h0 : (n + 1) % 6 = 0 then
      if h1 : (n + 1) % 6 = 5 then
        False.elim (by omega)
      else
        (outA1 c (grid0.coords ⟨n + 1, hn⟩) (ms0 ⟨n + 1, hn⟩) (hs0 ⟨n + 1, hn⟩) (ms1 ⟨n + 1, hn⟩) (hs1 ⟨n + 1, hn⟩) scM (Memref.isWhole_whole _) ((hcondReset ⟨n + 1, hn⟩).mpr h0) (fun h => h1 ((hcondOut ⟨n + 1, hn⟩).mp h)) (iblk V c 0 ⟨n + 1, hn⟩), soutA c (grid0.coords ⟨n + 1, hn⟩) (ms0 ⟨n + 1, hn⟩) (hs0 ⟨n + 1, hn⟩) (ms1 ⟨n + 1, hn⟩) (hs1 ⟨n + 1, hn⟩) scM (Memref.isWhole_whole _) ((hcondReset ⟨n + 1, hn⟩).mpr h0) (fun h => h1 ((hcondOut ⟨n + 1, hn⟩).mp h)) (iblk V c 0 ⟨n + 1, hn⟩))
    else
      if h1 : (n + 1) % 6 = 5 then
        (outC1 c (grid0.coords ⟨n + 1, hn⟩) (ms0 ⟨n + 1, hn⟩) (hs0 ⟨n + 1, hn⟩) (ms1 ⟨n + 1, hn⟩) (hs1 ⟨n + 1, hn⟩) scM (Memref.isWhole_whole _) (fun h => h0 ((hcondReset ⟨n + 1, hn⟩).mp h)) ((hcondOut ⟨n + 1, hn⟩).mpr h1) (iblk V c 0 ⟨n + 1, hn⟩) (outsAt c n (Nat.lt_of_succ_lt hn)).2, soutC c (grid0.coords ⟨n + 1, hn⟩) (ms0 ⟨n + 1, hn⟩) (hs0 ⟨n + 1, hn⟩) (ms1 ⟨n + 1, hn⟩) (hs1 ⟨n + 1, hn⟩) scM (Memref.isWhole_whole _) (fun h => h0 ((hcondReset ⟨n + 1, hn⟩).mp h)) ((hcondOut ⟨n + 1, hn⟩).mpr h1) (iblk V c 0 ⟨n + 1, hn⟩) (outsAt c n (Nat.lt_of_succ_lt hn)).2)
      else
        (outB1 c (grid0.coords ⟨n + 1, hn⟩) (ms0 ⟨n + 1, hn⟩) (hs0 ⟨n + 1, hn⟩) (ms1 ⟨n + 1, hn⟩) (hs1 ⟨n + 1, hn⟩) scM (Memref.isWhole_whole _) (fun h => h0 ((hcondReset ⟨n + 1, hn⟩).mp h)) (fun h => h1 ((hcondOut ⟨n + 1, hn⟩).mp h)) (iblk V c 0 ⟨n + 1, hn⟩) (outsAt c n (Nat.lt_of_succ_lt hn)).2, soutB c (grid0.coords ⟨n + 1, hn⟩) (ms0 ⟨n + 1, hn⟩) (hs0 ⟨n + 1, hn⟩) (ms1 ⟨n + 1, hn⟩) (hs1 ⟨n + 1, hn⟩) scM (Memref.isWhole_whole _) (fun h => h0 ((hcondReset ⟨n + 1, hn⟩).mp h)) (fun h => h1 ((hcondOut ⟨n + 1, hn⟩).mp h)) (iblk V c 0 ⟨n + 1, hn⟩) (outsAt c n (Nat.lt_of_succ_lt hn)).2)

/-- outsAt at a point of tile 0. -/
theorem outsAt_A (c : Dev nD) (t : Fin cfg0.N) (h0 : t.val % 6 = 0) (h1 : ¬t.val % 6 = 5) :
    outsAt V c t.val t.isLt = (outA1 c (grid0.coords t) (ms0 t) (hs0 t) (ms1 t) (hs1 t) scM (Memref.isWhole_whole _) ((hcondReset t).mpr h0) (fun h => h1 ((hcondOut t).mp h)) (iblk V c 0 t), soutA c (grid0.coords t) (ms0 t) (hs0 t) (ms1 t) (hs1 t) scM (Memref.isWhole_whole _) ((hcondReset t).mpr h0) (fun h => h1 ((hcondOut t).mp h)) (iblk V c 0 t)) := by
  obtain ⟨n, hn⟩ := t
  cases n with
  | zero => exact rfl
  | succ n => exact (dif_pos h0).trans ((dif_neg h1).trans rfl)

/-- outsAt at a point of a middle tile: over what the point before left. -/
theorem outsAt_B (c : Dev nD) (t : Fin cfg0.N) (h0 : ¬t.val % 6 = 0) (h1 : ¬t.val % 6 = 5) :
    outsAt V c t.val t.isLt = (outB1 c (grid0.coords t) (ms0 t) (hs0 t) (ms1 t) (hs1 t) scM (Memref.isWhole_whole _) (fun h => h0 ((hcondReset t).mp h)) (fun h => h1 ((hcondOut t).mp h)) (iblk V c 0 t) (outsAt V c (t.val - 1) (Nat.lt_of_le_of_lt (Nat.sub_le _ _) t.isLt)).2, soutB c (grid0.coords t) (ms0 t) (hs0 t) (ms1 t) (hs1 t) scM (Memref.isWhole_whole _) (fun h => h0 ((hcondReset t).mp h)) (fun h => h1 ((hcondOut t).mp h)) (iblk V c 0 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- outsAt at a point of tile 5: over what the point before left. -/
theorem outsAt_C (c : Dev nD) (t : Fin cfg0.N) (h0 : ¬t.val % 6 = 0) (h1 : t.val % 6 = 5) :
    outsAt V c t.val t.isLt = (outC1 c (grid0.coords t) (ms0 t) (hs0 t) (ms1 t) (hs1 t) scM (Memref.isWhole_whole _) (fun h => h0 ((hcondReset t).mp h)) ((hcondOut t).mpr h1) (iblk V c 0 t) (outsAt V c (t.val - 1) (Nat.lt_of_le_of_lt (Nat.sub_le _ _) t.isLt)).2, soutC c (grid0.coords t) (ms0 t) (hs0 t) (ms1 t) (hs1 t) scM (Memref.isWhole_whole _) (fun h => h0 ((hcondReset t).mp h)) ((hcondOut t).mpr h1) (iblk V c 0 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before point n: before the first point the class's; afterwards the scratch row at what the
    point before left, the other regions' scoped buffers, the generator register. -/
def PhiS (c : Dev nD) : (n : ℕ) → n ≤ cfg0.N → sProp 𝕄
  | 0, _ => Pipeline.ΦA spec0 c
  | n + 1, hn => iprop((owns (c : Thread nD τ) scM fullShare ((outsAt V c n hn).2) ∗ others c) ∗ (∃ r, prngReg c r))

theorem PhiS_zero (c : Dev nD) (n : ℕ) (h : n ≤ cfg0.N) (hz : n = 0) : PhiS V c n h = Pipeline.ΦA spec0 c := by
  subst hz; rfl

/-- After point n (before point n + 1): the scratch row at that point's contents. -/
theorem PhiS_succ (c : Dev nD) (n : ℕ) (hn : n < cfg0.N) :
    PhiS V c (n + 1) hn = iprop((owns (c : Thread nD τ) scM fullShare ((outsAt V c n hn).2) ∗ others c) ∗ (∃ r, prngReg c r)) := rfl

/-- Before a point that is not the first: the scratch row at what the point before left. -/
theorem PhiS_pos (c : Dev nD) (n : ℕ) (h : n ≤ cfg0.N) (hz : n ≠ 0) :
    PhiS V c n h = iprop((owns (c : Thread nD τ) scM fullShare ((outsAt V c (n - 1) (by omega)).2) ∗ others c) ∗ (∃ r, prngReg c r)) := by
  cases n with
  | zero => exact absurd rfl hz
  | succ n => rfl

/-- The proof data of region 0 on core c, at the region-entry contents V. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

/-- The invariant at a point's start, restated at t.val. -/
theorem PhiS_castSucc (c : Dev nD) (t : Fin cfg0.N) :
    (dat V c).Φ t.castSucc = PhiS V c t.val (Nat.le_of_lt t.isLt) := by
  dsimp only [dat]; simp only [Fin.coe_castSucc]

/-- What the body leaves, window by window. -/
theorem after0 (c : Dev nD) (t : Fin cfg0.N) : (dat V c).after 0 t = iblk V c 0 t := by dsimp only [dat]
theorem after1 (c : Dev nD) (t : Fin cfg0.N) : (dat V c).after 1 t = (outsAt V c t.val t.isLt).1 := by dsimp only [dat]

/-- The input window's current staging buffer holds the tile of x at every point. -/
theorem before0 (c : Dev nD) (t : Fin cfg0.N) (d) : (dat V c).before 0 t d = iblk V c 0 t :=
  before0_of V (dat V c) (A_eq V c 0) (after0 V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point: the input window holds the tile of x; t % 6 says which case the point is in; the invariant hands
    the body the scratch row at what the point before left (at anything at the first point) and takes it back at this
    point's contents; the other regions' buffers and the generator register ride along; the core owes nothing. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0]
  rw [show (dat V c).owesAt () t.succ = (dat V c).owesAt () t.castSucc from rfl]
  rw [show (dat V c).Φ t.succ = PhiS V c (t.val + 1) t.isLt from rfl, PhiS_succ]
  have hN : t.val < 96 := lt_of_lt_of_eq t.isLt (show cfg0.N = 96 from N_0)
  by_cases h0 : t.val % 6 = 0
  · by_cases h1 : t.val % 6 = 5
    · exfalso; omega
    · rw [show (dat V c).leavesExact 0 t = owns (c : Thread nD τ) (ms0 t) fullShare ((dat V c).after 0 t) from by
      unfold Dat.leavesExact; rw [live0 t], after0]
      rw [Dat.leavesExact_idle (dat V c) 1 t (idle1 t (fun h => h1 ((hcondOut t).mp h))) (noFlush1 t (fun h => h1 ((hcondOut t).mp h)))]
      rw [outsAt_A V c t h0 h1]
      unfold soutA; (try dsimp only)
      by_cases hz : t.val = 0
      · rw [PhiS_castSucc V c t, PhiS_zero V c _ _ hz, PhiA_eq]
        iintro ⟨⟨⟨HS0, Hoth⟩, Hg⟩, Ho, ⟨%d0, H0⟩, ⟨%d1, H1⟩⟩
        iapply ((runReset c (grid0.coords t) _ _ _ _ _ _ ((hcondReset t).mpr h0) (fun h => h1 ((hcondOut t).mp h)) (iblk V c 0 t)).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA c _ _ _ _ _ _ _ _ _ _)
            iexact Hoth
          iexact Hg
        isplitl [Ho]; · iexact Ho
        isplitl [H0]; · iexact H0
        iexists _; iexact H1
      · rw [PhiS_castSucc V c t, PhiS_pos V c _ _ hz]
        iintro ⟨⟨⟨HS0, Hoth⟩, Hg⟩, Ho, ⟨%d0, H0⟩, ⟨%d1, H1⟩⟩
        iapply ((runReset c (grid0.coords t) _ _ _ _ _ _ ((hcondReset t).mpr h0) (fun h => h1 ((hcondOut t).mp h)) (iblk V c 0 t)).2.2 _ Set.univ _)
        isplitl [H0]; · iexact H0
        isplitl [H1]; · iexact H1
        isplitl [HS0]; · iexists _; iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA c _ _ _ _ _ _ _ _ _ _)
            iexact Hoth
          iexact Hg
        isplitl [Ho]; · iexact Ho
        isplitl [H0]; · iexact H0
        iexists _; iexact H1
  · by_cases h1 : t.val % 6 = 5
    · rw [show (dat V c).leavesExact 0 t = owns (c : Thread nD τ) (ms0 t) fullShare ((dat V c).after 0 t) from by
      unfold Dat.leavesExact; rw [live0 t], after0]
      rw [show (dat V c).leavesExact 1 t = owns (c : Thread nD τ) (ms1 t) fullShare ((dat V c).after 1 t) from by
      unfold Dat.leavesExact; rw [live1 t ((hcondOut t).mpr h1)], after1]
      rw [outsAt_C V c t h0 h1]
      unfold outC1 soutC; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩⟩
        iapply ((runOut c (grid0.coords t) _ _ _ _ _ _ (fun h => h0 ((hcondReset t).mp h)) ((hcondOut t).mpr h1) (iblk V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverC c _ _ _ _ _ _ _ _ _ _ _)
            iexact Hoth
          iexact Hg
        isplitl [Ho]; · iexact Ho
        isplitl [H0]; · iexact H0
        unfold owns; iexists _; isplitr
        swap; · iexact H1
        ipureintro; exact View.read_writes_of_cover _ _ _ _ _ (coverC1 c _ _ _ _ _ _ _ _ _ _ _)
    · rw [show (dat V c).leavesExact 0 t = owns (c : Thread nD τ) (ms0 t) fullShare ((dat V c).after 0 t) from by
      unfold Dat.leavesExact; rw [live0 t], after0]
      rw [Dat.leavesExact_idle (dat V c) 1 t (idle1 t (fun h => h1 ((hcondOut t).mp h))) (noFlush1 t (fun h => h1 ((hcondOut t).mp h)))]
      rw [outsAt_B V c t h0 h1]
      unfold soutB; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩⟩
        iapply ((runAcc c (grid0.coords t) _ _ _ _ _ _ (fun h => h0 ((hcondReset t).mp h)) (fun h => h1 ((hcondOut t).mp h)) (iblk V c 0 t) _).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverB c _ _ _ _ _ _ _ _ _ _ _)
            iexact Hoth
          iexact Hg
        isplitl [Ho]; · iexact Ho
        isplitl [H0]; · iexact H0
        iexists _; iexact H1

theorem body_obligation (c : Dev nD) : BodyObligation (dat (F := F) V c) (defs₀ (F := F)) Variants.none () Set.univ := fun t => by
  rw [bigSep_W0, bigSep_W0]
  exact sound_body V c t

/-- What the launch hands the region is the invariant before the first point; after the last point the invariant gives it back. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the scratch row's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS0, Hoth⟩, Hg⟩
  isplitl [HS0 Hoth]
  · isplitl [HS0]
    · iexists _; iexact HS0
    iexact Hoth
  iexact Hg

theorem hout (c : Dev nD) : (dat V c).Φ (Fin.last cfg0.N) ⊢ Pipeline.ΦA spec0 c :=
  Phi_out V c _ (by rw [Fin.val_last]; have : cfg0.N = 96 := N_0; omega)

end Cert.KernelIdeal.Reg0

end
-- ==== Proof.K1Runs.lean ====
/- Region 1 (the sums of y and of y² over all rows, accumulated in the two output blocks over the 96 grid points):
   what its two control cases share. The grid is (batch, edge tile) = 16 × 6, point t = 6·batch + tile. The body zeroes
   both output blocks at the first point (batch = 0 and tile = 0), then at every point adds the tile's column sums of y and
   of y·y to them; both output blocks have the constant index 0 and are written back after the last point only. -/
import proofs.«147310_j32392643347009_1_alg».proof.Proof.Gen.KernelIdeal.Launch
import proofs.«147310_j32392643347009_1_alg».proof.Proof.Gen.KernelIdeal.Skeleton
import proofs.«147310_j32392643347009_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of core c's buffers when the region is entered: a parameter
variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not: the tile of x is fetched at
    every point, the batch's reciprocal column masses when the batch moves, the weights and the bias at the first point
    only; unfetched, the block index has not moved. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- "batch = 0 and tile = 0": the branch that zeroes the two output blocks is taken. -/
abbrev condFirst (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcondFirst : ∀ t : Fin cfg1.N, condFirst (grid1.coords t) ↔ t.val = 0 :=
  (by decide +kernel : ∀ t : Fin grid1.N, condFirst (grid1.coords t) ↔ t.val = 0)

/-- One staging buffer of each output window, through which its contents are stated. -/
abbrev VO4 : View sig .tc .vmem S128 .f32 := (Memref.whole cc1_stg4_0 : Memref sig .tc .vmem S128 .f32).view
abbrev VO5 : View sig .tc .vmem S128 .f32 := (Memref.whole cc1_stg5_0 : Memref sig .tc .vmem S128 .f32).view
/-- The staging memrefs at a point, and their wholeness. -/
abbrev ms0 (t : Fin cfg1.N) : Memref sig .tc .vmem S1x4096x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S128x128 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S128 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S128 .f32 := win1_5.stage (cfg1.slots t 5)
abbrev hs5 (t : Fin cfg1.N) : (ms5 t).IsWhole := hstage1_5 ((cfg1.slots t 5).cast nbuf1_5)

/-- The scoped buffers of the other two regions, each whole at some contents: they ride through this region untouched. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f))

/-- The class invariant: the other regions' scoped buffers, the generator register. -/
theorem PhiA_eq (c : Dev nD) :
    (Pipeline.ΦA spec1 c : sProp 𝕄) = iprop(others c ∗ (∃ r, prngReg c r)) := by
  unfold Pipeline.ΦA others; rw [scopedRest1_eq]

end Cert.KernelIdeal.Reg1

end
-- ==== Proof.K1RunA.lean ====
/- Region 1, the body at the first point (batch = 0 and tile = 0): both output blocks, found at anything, are zeroed,
   then the tile's column sums of y and of y·y are added to them. -/
import proofs.«147310_j32392643347009_1_alg».proof.Proof.K1Runs

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body leaves in the two output blocks at the first point (last store first), with the body's triple: the
    four inputs are handed back as found, each output block, found at anything, with its pieces written. -/
noncomputable def runFirst (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : condFirst i)
    (x0 : Vec F S1x4096x128 .f32) (x1 : Vec F S1x1x128 .f32) (x2 : Vec F S128x128 .bf16) (x3 : Vec F S128 .f32) :
    Σ' (L4 : List (View.Piece (Elt F) S128 .f32)), { L5 : List (View.Piece (Elt F) S128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1__stats_kernel i arg2 harg2 arg3 harg3 arg4 harg4 arg5 harg5 arg6 harg6 arg7 harg7) K } := by
  refine ⟨?_, ?_, fun E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.KernelIdeal.Reg1

end
-- ==== Proof.K1RunB.lean ====
/- Region 1, the body at a point after the first: both output blocks, found at what the point before left, have the
   tile's column sums of y and of y·y added to them. -/
import proofs.«147310_j32392643347009_1_alg».proof.Proof.K1RunA

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body leaves in the two output blocks at a point after the first (last store first), with the body's
    triple: the four inputs are handed back as found, each output block, found at its running contents, with its pieces
    written. -/
noncomputable def runNext (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : ¬condFirst i)
    (x0 : Vec F S1x4096x128 .f32) (x1 : Vec F S1x1x128 .f32) (x2 : Vec F S128x128 .bf16) (x3 : Vec F S128 .f32) (xo4 : Vec F S128 .f32) (xo5 : Vec F S128 .f32) :
    Σ' (L4 : List (View.Piece (Elt F) S128 .f32)), { L5 : List (View.Piece (Elt F) S128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1__stats_kernel i arg2 harg2 arg3 harg3 arg4 harg4 arg5 harg5 arg6 harg6 arg7 harg7) K } := by
  refine ⟨?_, ?_, fun E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.KernelIdeal.Reg1

end
-- ==== Proof.K1Frame.lean ====
/- Region 1: the sums of y and of y² over all rows, accumulated in the two output blocks themselves over the 96 grid
   points (both blocks have the constant index 0, are zeroed at the first point and written back after the last): what
   each case leaves in each output block, what the blocks hold after each grid point, the proof data, and the body's
   obligation at every point. -/
import proofs.«147310_j32392643347009_1_alg».proof.Proof.K1RunB

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in each output block -/

/-- At the first point the pieces found for the running sum of y tile its block, so they cover it. -/
theorem coverA_4 (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : condFirst i)
    (x0 : Vec F S1x4096x128 .f32) (x1 : Vec F S1x1x128 .f32) (x2 : Vec F S128x128 .bf16) (x3 : Vec F S128 .f32) (y : S128.Idx) :
    ∃ pc ∈ (runFirst c i arg2 harg2 arg3 harg3 arg4 harg4 arg5 harg5 arg6 harg6 arg7 harg7 hc0 x0 x1 x2 x3).1, y ∈ pc.1.set :=
  View.cover_of_tiledL (runFirst c i arg2 harg2 arg3 harg3 arg4 harg4 arg5 harg5 arg6 harg6 arg7 harg7 hc0 x0 x1 x2 x3).1 S128.size (by sl_kernel_rfl) y
/-- Likewise the pieces found for the running sum of y². -/
theorem coverA_5 (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : condFirst i)
    (x0 : Vec F S1x4096x128 .f32) (x1 : Vec F S1x1x128 .f32) (x2 : Vec F S128x128 .bf16) (x3 : Vec F S128 .f32) (y : S128.Idx) :
    ∃ pc ∈ (runFirst c i arg2 harg2 arg3 harg3 arg4 harg4 arg5 harg5 arg6 harg6 arg7 harg7 hc0 x0 x1 x2 x3).2.1, y ∈ pc.1.set :=
  View.cover_of_tiledL (runFirst c i arg2 harg2 arg3 harg3 arg4 harg4 arg5 harg5 arg6 harg6 arg7 harg7 hc0 x0 x1 x2 x3).2.1 S128.size (by sl_kernel_rfl) y

/-- What the first point leaves in the block of the running sum of y: its pieces read back over junk. -/
def outA_4 (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : condFirst i)
    (x0 : Vec F S1x4096x128 .f32) (x1 : Vec F S1x1x128 .f32) (x2 : Vec F S128x128 .bf16) (x3 : Vec F S128 .f32) : Vec F S128 .f32 :=
  VO4.read (Elt F) (VO4.writes (Elt F) VO4.junk (runFirst c i arg2 harg2 arg3 harg3 arg4 harg4 arg5 harg5 arg6 harg6 arg7 harg7 hc0 x0 x1 x2 x3).1)
/-- What the first point leaves in the block of the running sum of y². -/
def outA_5 (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : condFirst i)
    (x0 : Vec F S1x4096x128 .f32) (x1 : Vec F S1x1x128 .f32) (x2 : Vec F S128x128 .bf16) (x3 : Vec F S128 .f32) : Vec F S128 .f32 :=
  VO5.read (Elt F) (VO5.writes (Elt F) VO5.junk (runFirst c i arg2 harg2 arg3 harg3 arg4 harg4 arg5 harg5 arg6 harg6 arg7 harg7 hc0 x0 x1 x2 x3).2.1)

/-- At a later point the pieces found for the running sum of y tile its block, so they cover it. -/
theorem coverB_4 (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : ¬condFirst i)
    (x0 : Vec F S1x4096x128 .f32) (x1 : Vec F S1x1x128 .f32) (x2 : Vec F S128x128 .bf16) (x3 : Vec F S128 .f32) (xo4 : Vec F S128 .f32) (xo5 : Vec F S128 .f32) (y : S128.Idx) :
    ∃ pc ∈ (runNext c i arg2 harg2 arg3 harg3 arg4 harg4 arg5 harg5 arg6 harg6 arg7 harg7 hc0 x0 x1 x2 x3 xo4 xo5).1, y ∈ pc.1.set :=
  View.cover_of_tiledL (runNext c i arg2 harg2 arg3 harg3 arg4 harg4 arg5 harg5 arg6 harg6 arg7 harg7 hc0 x0 x1 x2 x3 xo4 xo5).1 S128.size (by sl_kernel_rfl) y
/-- Likewise the pieces found for the running sum of y². -/
theorem coverB_5 (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : ¬condFirst i)
    (x0 : Vec F S1x4096x128 .f32) (x1 : Vec F S1x1x128 .f32) (x2 : Vec F S128x128 .bf16) (x3 : Vec F S128 .f32) (xo4 : Vec F S128 .f32) (xo5 : Vec F S128 .f32) (y : S128.Idx) :
    ∃ pc ∈ (runNext c i arg2 harg2 arg3 harg3 arg4 harg4 arg5 harg5 arg6 harg6 arg7 harg7 hc0 x0 x1 x2 x3 xo4 xo5).2.1, y ∈ pc.1.set :=
  View.cover_of_tiledL (runNext c i arg2 harg2 arg3 harg3 arg4 harg4 arg5 harg5 arg6 harg6 arg7 harg7 hc0 x0 x1 x2 x3 xo4 xo5).2.1 S128.size (by sl_kernel_rfl) y

/-- What a later point leaves in the block of the running sum of y, found at xo4. -/
def outB_4 (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : ¬condFirst i)
    (x0 : Vec F S1x4096x128 .f32) (x1 : Vec F S1x1x128 .f32) (x2 : Vec F S128x128 .bf16) (x3 : Vec F S128 .f32) (xo4 : Vec F S128 .f32) (xo5 : Vec F S128 .f32) : Vec F S128 .f32 :=
  VO4.read (Elt F) (VO4.writes (Elt F) VO4.junk (runNext c i arg2 harg2 arg3 harg3 arg4 harg4 arg5 harg5 arg6 harg6 arg7 harg7 hc0 x0 x1 x2 x3 xo4 xo5).1)
/-- What a later point leaves in the block of the running sum of y², found at xo5. -/
def outB_5 (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : ¬condFirst i)
    (x0 : Vec F S1x4096x128 .f32) (x1 : Vec F S1x1x128 .f32) (x2 : Vec F S128x128 .bf16) (x3 : Vec F S128 .f32) (xo4 : Vec F S128 .f32) (xo5 : Vec F S128 .f32) : Vec F S128 .f32 :=
  VO5.read (Elt F) (VO5.writes (Elt F) VO5.junk (runNext c i arg2 harg2 arg3 harg3 arg4 harg4 arg5 harg5 arg6 harg6 arg7 harg7 hc0 x0 x1 x2 x3 xo4 xo5).2.1)

/-! ## What the output blocks hold after each point -/

/-- What the two output blocks' staging buffers (the running sum of y, the running sum of y²) hold after the body at point n. -/
def outsAt (c : Dev nD) : (n : ℕ) → n < cfg1.N → Vec F S128 .f32 × Vec F S128 .f32
  | 0, hn =>
    (outA_4 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcondFirst ⟨0, hn⟩).mpr rfl) (iblk V c 0 ⟨0, hn⟩) (iblk V c 1 ⟨0, hn⟩) (iblk V c 2 ⟨0, hn⟩) (iblk V c 3 ⟨0, hn⟩),
     outA_5 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcondFirst ⟨0, hn⟩).mpr rfl) (iblk V c 0 ⟨0, hn⟩) (iblk V c 1 ⟨0, hn⟩) (iblk V c 2 ⟨0, hn⟩) (iblk V c 3 ⟨0, hn⟩))
  | n + 1, hn =>
    (outB_4 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => Nat.succ_ne_zero n ((hcondFirst ⟨n + 1, hn⟩).mp h)) (iblk V c 0 ⟨n + 1, hn⟩) (iblk V c 1 ⟨n + 1, hn⟩) (iblk V c 2 ⟨n + 1, hn⟩) (iblk V c 3 ⟨n + 1, hn⟩)
       (outsAt c n (Nat.lt_of_succ_lt hn)).1 (outsAt c n (Nat.lt_of_succ_lt hn)).2,
     outB_5 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => Nat.succ_ne_zero n ((hcondFirst ⟨n + 1, hn⟩).mp h)) (iblk V c 0 ⟨n + 1, hn⟩) (iblk V c 1 ⟨n + 1, hn⟩) (iblk V c 2 ⟨n + 1, hn⟩) (iblk V c 3 ⟨n + 1, hn⟩)
       (outsAt c n (Nat.lt_of_succ_lt hn)).1 (outsAt c n (Nat.lt_of_succ_lt hn)).2)

/-- At the first point: what the zeroing case leaves. -/
theorem outsAt_first (c : Dev nD) (t : Fin cfg1.N) (h0 : t.val = 0) :
    outsAt V c t.val t.isLt
      = (outA_4 c (grid1.coords t) (ms0 t) (hs0 t) (ms1 t) (hs1 t) (ms2 t) (hs2 t) (ms3 t) (hs3 t) (ms4 t) (hs4 t) (ms5 t) (hs5 t) ((hcondFirst t).mpr h0) (iblk V c 0 t) (iblk V c 1 t) (iblk V c 2 t) (iblk V c 3 t),
         outA_5 c (grid1.coords t) (ms0 t) (hs0 t) (ms1 t) (hs1 t) (ms2 t) (hs2 t) (ms3 t) (hs3 t) (ms4 t) (hs4 t) (ms5 t) (hs5 t) ((hcondFirst t).mpr h0) (iblk V c 0 t) (iblk V c 1 t) (iblk V c 2 t) (iblk V c 3 t)) := by
  obtain ⟨n, hn⟩ := t
  cases n with
  | zero => exact rfl
  | succ n => exact absurd h0 (Nat.succ_ne_zero n)

/-- At a later point: what the accumulating case leaves, over what the point before left. -/
theorem outsAt_next (c : Dev nD) (t : Fin cfg1.N) (h0 : ¬t.val = 0) :
    outsAt V c t.val t.isLt
      = (outB_4 c (grid1.coords t) (ms0 t) (hs0 t) (ms1 t) (hs1 t) (ms2 t) (hs2 t) (ms3 t) (hs3 t) (ms4 t) (hs4 t) (ms5 t) (hs5 t) (fun h => h0 ((hcondFirst t).mp h)) (iblk V c 0 t) (iblk V c 1 t) (iblk V c 2 t) (iblk V c 3 t)
           (outsAt V c (t.val - 1) (Nat.lt_of_le_of_lt (Nat.sub_le _ _) t.isLt)).1 (outsAt V c (t.val - 1) (Nat.lt_of_le_of_lt (Nat.sub_le _ _) t.isLt)).2,
         outB_5 c (grid1.coords t) (ms0 t) (hs0 t) (ms1 t) (hs1 t) (ms2 t) (hs2 t) (ms3 t) (hs3 t) (ms4 t) (hs4 t) (ms5 t) (hs5 t) (fun h => h0 ((hcondFirst t).mp h)) (iblk V c 0 t) (iblk V c 1 t) (iblk V c 2 t) (iblk V c 3 t)
           (outsAt V c (t.val - 1) (Nat.lt_of_le_of_lt (Nat.sub_le _ _) t.isLt)).1 (outsAt V c (t.val - 1) (Nat.lt_of_le_of_lt (Nat.sub_le _ _) t.isLt)).2) := by
  obtain ⟨n, hn⟩ := t
  cases n with
  | zero => exact absurd rfl h0
  | succ n => exact rfl

/-- The same, output block by output block. -/
theorem outsAt_first_1 (c : Dev nD) (t : Fin cfg1.N) (h0 : t.val = 0) :
    (outsAt V c t.val t.isLt).1 = outA_4 c (grid1.coords t) (ms0 t) (hs0 t) (ms1 t) (hs1 t) (ms2 t) (hs2 t) (ms3 t) (hs3 t) (ms4 t) (hs4 t) (ms5 t) (hs5 t) ((hcondFirst t).mpr h0) (iblk V c 0 t) (iblk V c 1 t) (iblk V c 2 t) (iblk V c 3 t) := by
  rw [outsAt_first V c t h0]
theorem outsAt_first_2 (c : Dev nD) (t : Fin cfg1.N) (h0 : t.val = 0) :
    (outsAt V c t.val t.isLt).2 = outA_5 c (grid1.coords t) (ms0 t) (hs0 t) (ms1 t) (hs1 t) (ms2 t) (hs2 t) (ms3 t) (hs3 t) (ms4 t) (hs4 t) (ms5 t) (hs5 t) ((hcondFirst t).mpr h0) (iblk V c 0 t) (iblk V c 1 t) (iblk V c 2 t) (iblk V c 3 t) := by
  rw [outsAt_first V c t h0]
theorem outsAt_next_1 (c : Dev nD) (t : Fin cfg1.N) (h0 : ¬t.val = 0) :
    (outsAt V c t.val t.isLt).1 = outB_4 c (grid1.coords t) (ms0 t) (hs0 t) (ms1 t) (hs1 t) (ms2 t) (hs2 t) (ms3 t) (hs3 t) (ms4 t) (hs4 t) (ms5 t) (hs5 t) (fun h => h0 ((hcondFirst t).mp h)) (iblk V c 0 t) (iblk V c 1 t) (iblk V c 2 t) (iblk V c 3 t)
      (outsAt V c (t.val - 1) (Nat.lt_of_le_of_lt (Nat.sub_le _ _) t.isLt)).1 (outsAt V c (t.val - 1) (Nat.lt_of_le_of_lt (Nat.sub_le _ _) t.isLt)).2 := by
  rw [outsAt_next V c t h0]
theorem outsAt_next_2 (c : Dev nD) (t : Fin cfg1.N) (h0 : ¬t.val = 0) :
    (outsAt V c t.val t.isLt).2 = outB_5 c (grid1.coords t) (ms0 t) (hs0 t) (ms1 t) (hs1 t) (ms2 t) (hs2 t) (ms3 t) (hs3 t) (ms4 t) (hs4 t) (ms5 t) (hs5 t) (fun h => h0 ((hcondFirst t).mp h)) (iblk V c 0 t) (iblk V c 1 t) (iblk V c 2 t) (iblk V c 3 t)
      (outsAt V c (t.val - 1) (Nat.lt_of_le_of_lt (Nat.sub_le _ _) t.isLt)).1 (outsAt V c (t.val - 1) (Nat.lt_of_le_of_lt (Nat.sub_le _ _) t.isLt)).2 := by
  rw [outsAt_next V c t h0]

/-! ## The proof data -/

/-- The proof data of region 1 on core c, at the region-entry contents V. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2
  Φ _ := Pipeline.ΦA spec1 c
  q _ := fullShare
  owed _ := 0

theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]
theorem after_5 (c : Dev nD) (t : Fin cfg1.N) : (dat V c).after 5 t = (outsAt V c t.val t.isLt).2 := by dsimp only [dat]

/-- Each input's current staging buffer holds its block at every point, fetched there or not. -/
theorem before_0 (c : Dev nD) (t : Fin cfg1.N) (d) : (dat V c).before 0 t d = iblk V c 0 t :=
  before0_of V (dat V c) (A_eq V c 0) (after_0 V c) t d
theorem before_1 (c : Dev nD) (t : Fin cfg1.N) (d) : (dat V c).before 1 t d = iblk V c 1 t :=
  before1_of V (dat V c) (A_eq V c 1) (after_1 V c) t d
theorem before_2 (c : Dev nD) (t : Fin cfg1.N) (d) : (dat V c).before 2 t d = iblk V c 2 t :=
  before2_of V (dat V c) (A_eq V c 2) (after_2 V c) t d
theorem before_3 (c : Dev nD) (t : Fin cfg1.N) (d) : (dat V c).before 3 t d = iblk V c 3 t :=
  before3_of V (dat V c) (A_eq V c 3) (after_3 V c) t d

/-- At a point after the first each output block's staging buffer holds what the body left at the point before: the
    buffer was not written back between (that happens after the last point only), the window is live and uncut. -/
theorem before_4_next (c : Dev nD) (t : Fin cfg1.N) (h0 : ¬t.val = 0) (d) :
    (dat V c).before 4 t d = (outsAt V c (t.val - 1) (Nat.lt_of_le_of_lt (Nat.sub_le _ _) t.isLt)).1 := by
  have hN : t.val < 96 := lt_of_lt_of_eq t.isLt (show cfg1.N = 96 from N_1)
  rw [Dat.before_out_kept _ 4 rfl t h0 (Bool.eq_false_iff.mpr fun h => by have := (flush1_4 _).mp h; dsimp only at this; omega)
    (fun _ => rfl) (fun _ _ => rfl)]
  dsimp only [dat]
theorem before_5_next (c : Dev nD) (t : Fin cfg1.N) (h0 : ¬t.val = 0) (d) :
    (dat V c).before 5 t d = (outsAt V c (t.val - 1) (Nat.lt_of_le_of_lt (Nat.sub_le _ _) t.isLt)).2 := by
  have hN : t.val < 96 := lt_of_lt_of_eq t.isLt (show cfg1.N = 96 from N_1)
  rw [Dat.before_out_kept _ 5 rfl t h0 (Bool.eq_false_iff.mpr fun h => by have := (flush1_5 _).mp h; dsimp only at this; omega)
    (fun _ => rfl) (fun _ _ => rfl)]
  dsimp only [dat]

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t))

set_option maxHeartbeats 1600000 in
/-- The body at any point: the inputs' buffers hold their blocks; at the first point both output blocks are found at
    anything, afterwards at what the point before left; so the case's run applies; the invariant passes through unread;
    the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5]
  by_cases h0 : t.val = 0
  · rw [outsAt_first_1 V c t h0, outsAt_first_2 V c t h0]
    unfold outA_4 outA_5
    iintro ⟨HΦ, Ho, ⟨%d0, H0⟩, ⟨%d1, H1⟩, ⟨%d2, H2⟩, ⟨%d3, H3⟩, ⟨%d4, H4⟩, ⟨%d5, H5⟩⟩
    iapply ((runFirst c (grid1.coords t) _ _ _ _ _ _ _ _ _ _ _ _ ((hcondFirst t).mpr h0) (iblk V c 0 t) (iblk V c 1 t) (iblk V c 2 t) (iblk V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA_4 c _ _ _ _ _ _ _ _ _ _ _ _ _ _ _ _ _ _)
    unfold owns; iexists _; isplitr
    swap; · iexact H5
    ipureintro; exact View.read_writes_of_cover _ _ _ _ _ (coverA_5 c _ _ _ _ _ _ _ _ _ _ _ _ _ _ _ _ _ _)
  · rw [outsAt_next_1 V c t h0, outsAt_next_2 V c t h0]
    simp only [before_4_next V c t h0, before_5_next V c t h0]
    unfold outB_4 outB_5
    iintro ⟨HΦ, Ho, ⟨%d0, H0⟩, ⟨%d1, H1⟩, ⟨%d2, H2⟩, ⟨%d3, H3⟩, ⟨%d4, H4⟩, ⟨%d5, H5⟩⟩
    iapply ((runNext c (grid1.coords t) _ _ _ _ _ _ _ _ _ _ _ _ (fun h => h0 ((hcondFirst t).mp h)) (iblk V c 0 t) (iblk V c 1 t) (iblk V c 2 t) (iblk V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB_4 c _ _ _ _ _ _ _ _ _ _ _ _ _ _ _ _ _ _ _ _)
    unfold owns; iexists _; isplitr
    swap; · iexact H5
    ipureintro; exact View.read_writes_of_cover _ _ _ _ _ (coverB_5 c _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Reg1

end
-- ==== Proof.K2Frame.lean ====
/- Region 2: at every grid point the body recomputes the linear layer on the tile, applies the per-channel scale and
   shift and tanh, and stores the whole output block, which is written back at every point. -/
import proofs.«147310_j32392643347009_1_alg».proof.Proof.Gen.KernelIdeal.Launch
import proofs.«147310_j32392643347009_1_alg».proof.Proof.Gen.KernelIdeal.Skeleton
import proofs.«147310_j32392643347009_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The input windows' staging buffers

An input window that leaves its block in place holds its block at every point, fetched there or not: where it is
not fetched its block index has not moved (the reciprocal masses move with the batch only, the parameters never). -/

theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take the whole buffer -/

abbrev r0 : Rect S1x4096x128 := Rect.unit (s := S1x4096x128) ![0, 0, 0] S1x4096x128.size inb_S1x4096x128_S1x4096x128_0_0_0
abbrev r1 : Rect S1x1x128 := Rect.unit (s := S1x1x128) ![0, 0, 0] S1x1x128.size inb_S1x1x128_S1x1x128_0_0_0
abbrev r2 : Rect S128x128 := Rect.unit (s := S128x128) ![0, 0] S128x128.size inb_S128x128_S128x128_0_0
abbrev r3 : Rect S128 := Rect.unit (s := S128) ![0] S128.size inb_S128_S128_0
abbrev r6 : Rect S1x4096x128 := r0

/-- What the output block's staging buffer holds after the body, from the six input blocks. -/
def out6 (x0 : Vec F S1x4096x128 .f32) (x1 : Vec F S1x1x128 .f32) (x2 : Vec F S128x128 .bf16) (x3 : Vec F S128 .f32) (x4 : Vec F S128 .f32) (x5 : Vec F S128 .f32) : Vec F S1x4096x128 .f32 :=
  View.canon [⟨r6, k2_pay1 (View.ld x0 r0) (View.ld x1 r1) (View.ld x2 r2) (View.ld x3 r3) (View.ld x4 r3) (View.ld x5 r3)⟩]

/-- The one store takes the whole buffer, so it covers it. -/
theorem cover6 (p0 : Vec F S1x4096x128 .f32) (y : S1x4096x128.Idx) :
    ∃ pc ∈ ([⟨r6, p0⟩] : List (View.Piece (Elt F) S1x4096x128 .f32)), y ∈ pc.1.set :=
  View.cover_of_tiled [⟨r6, p0⟩] S1x4096x128.size (by rfl) y

/-! ## The body's triple -/

set_option maxHeartbeats 1000000 in
/-- The body on whole staging memrefs, the six inputs' at read contents x0..x5 and the output's at anything, runs to the
    continuation holding the inputs' as they were and the output's at `out6` of them. The output buffer is loaded too,
    into a value nothing reads. -/
theorem sound_kernel (c : Dev nD) (E : Set ℕ) (i : grid2.Coords)
    (arg2 : Memref sig .tc .vmem S1x4096x128 .f32) (harg2 : arg2.IsWhole) (arg3 : Memref sig .tc .vmem S1x1x128 .f32) (harg3 : arg3.IsWhole)
    (arg4 : Memref sig .tc .vmem S128x128 .bf16) (harg4 : arg4.IsWhole) (arg5 : Memref sig .tc .vmem S128 .f32) (harg5 : arg5.IsWhole)
    (arg6 : Memref sig .tc .vmem S128 .f32) (harg6 : arg6.IsWhole) (arg7 : Memref sig .tc .vmem S128 .f32) (harg7 : arg7.IsWhole)
    (arg8 : Memref sig .tc .vmem S1x4096x128 .f32) (harg8 : arg8.IsWhole)
    (x0 : Vec F S1x4096x128 .f32) (x1 : Vec F S1x1x128 .f32) (x2 : Vec F S128x128 .bf16) (x3 : Vec F S128 .f32) (x4 : Vec F S128 .f32) (x5 : Vec F S128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out6 x0 x1 x2 x3 x4 x5)) -∗ K ⟨⟩))
      ⊢ wp frame (wpE (defs₀ (F := F)) Variants.none c none) E (cc2__final_kernel i arg2 harg2 arg3 harg3 arg4 harg4 arg5 harg5 arg6 harg6 arg7 harg7 arg8 harg8) K := by
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The region's proof data -/

/-- The proof data of region 2 on core c, at the region-entry contents V. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t) (iblk V c 4 t) (iblk V c 5 t)
  Φ _ := Pipeline.ΦA spec2 c
  q _ := fullShare
  owed _ := 0

theorem A_eq (c : Dev nD) (w : Fin cfg2.W) : (dat V c).A w = V c (Pipeline.arrRef spec2 w) := by
  dsimp only [dat]

/-- What the body leaves, window by window. -/
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = iblk V c 4 t := by dsimp only [dat]
theorem after5 (c : Dev nD) (t : Fin cfg2.N) : (dat V c).after 5 t = iblk V c 5 t := by dsimp only [dat]
theorem after6 (c : Dev nD) (t : Fin cfg2.N) :
    (dat V c).after 6 t = out6 (iblk V c 0 t) (iblk V c 1 t) (iblk V c 2 t) (iblk V c 3 t) (iblk V c 4 t) (iblk V c 5 t) := by dsimp only [dat]

/-- Each input's current staging buffer holds its block at every point. -/
theorem before0 (c : Dev nD) (t : Fin cfg2.N) (d) : (dat V c).before 0 t d = iblk V c 0 t :=
  before0_of V (dat V c) (A_eq V c 0) (after0 V c) t d
theorem before1 (c : Dev nD) (t : Fin cfg2.N) (d) : (dat V c).before 1 t d = iblk V c 1 t :=
  before1_of V (dat V c) (A_eq V c 1) (after1 V c) t d
theorem before2 (c : Dev nD) (t : Fin cfg2.N) (d) : (dat V c).before 2 t d = iblk V c 2 t :=
  before2_of V (dat V c) (A_eq V c 2) (after2 V c) t d
theorem before3 (c : Dev nD) (t : Fin cfg2.N) (d) : (dat V c).before 3 t d = iblk V c 3 t :=
  before3_of V (dat V c) (A_eq V c 3) (after3 V c) t d
theorem before4 (c : Dev nD) (t : Fin cfg2.N) (d) : (dat V c).before 4 t d = iblk V c 4 t :=
  before4_of V (dat V c) (A_eq V c 4) (after4 V c) t d
theorem before5 (c : Dev nD) (t : Fin cfg2.N) (d) : (dat V c).before 5 t d = iblk V c 5 t :=
  before5_of V (dat V c) (A_eq V c 5) (after5 V c) t d

/-! ## The body obligation, at a generic point -/

/-- What the body is called with at point t, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

/-- The body at any point: the inputs' memrefs hold their blocks, so the body's triple applies; the invariant and the
    core's debts pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W2, bigSep_W2]
  exact sound_body V c t

end Cert.KernelIdeal.Reg2

end
-- ==== Proof.Run.lean ====
/- The kernel program's run with the regions' proof data filled in: what each region leaves in its output arrays is
   what its write-backs leave (the proof data's `arrAt` after the last point); every other buffer is as the item before
   left it. From it: the frame (the arguments end as launched) and the result buffer's final contents. -/
import proofs.«147310_j32392643347009_1_alg».proof.Proof.RunCond
import proofs.«147310_j32392643347009_1_alg».proof.Proof.K0Frame
import proofs.«147310_j32392643347009_1_alg».proof.Proof.K1Frame
import proofs.«147310_j32392643347009_1_alg».proof.Proof.K2Frame
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.Pipeline (Seg HostSeg RegionSeg)

variable (m : (ℓ : Loc nD τ sig) → Buf (Elt F) ℓ) (ρ : Dev nD → PrngReg)

/-! ## What the regions leave, stage by stage -/

/-- Region 0 is entered at the contents after the first three host stretches. -/
abbrev E3 : (c : Dev nD) → (b : Ref sig .tc) → Buf (Elt F) ((c : Thread nD τ).loc b) := fun c b => V3 m c b
/-- After region 0: its arrays at what its write-backs leave, every other buffer as entered. -/
def o4 (c : Dev nD) : Valuation τ sig (Elt F) :=
  Pipeline.withArrays spec0 c (V3 m c) fun w => (Reg0.dat (E3 m) c).arrAt w cfg0.N
/-- The regions' results known so far: region 0's. -/
def outsA : Outs (F := F) := fun _ r c => o4 m c r
/-- Region 1 is entered at the contents after the host stretch that follows region 0. -/
abbrev E5 : (c : Dev nD) → (b : Ref sig .tc) → Buf (Elt F) ((c : Thread nD τ).loc b) := fun c b => V5 m (outsA m) c b
def o6 (c : Dev nD) : Valuation τ sig (Elt F) :=
  Pipeline.withArrays spec1 c (V5 m (outsA m) c) fun w => (Reg1.dat (E5 m) c).arrAt w cfg1.N
/-- Regions 0's and 1's results. -/
def outsB : Outs (F := F) := fun J r c => match J with | 4 => o4 m c r | _ => o6 m c r
/-- Region 2 is entered at the contents after the host stretch that follows region 1. -/
abbrev E7 : (c : Dev nD) → (b : Ref sig .tc) → Buf (Elt F) ((c : Thread nD τ).loc b) := fun c b => V7 m (outsB m) c b
def o8 (c : Dev nD) : Valuation τ sig (Elt F) :=
  Pipeline.withArrays spec2 c (V7 m (outsB m) c) fun w => (Reg2.dat (E7 m) c).arrAt w cfg2.N
/-- All three regions' results, by the item after which they are read. -/
def outs : Outs (F := F) := fun J r c => match J with | 4 => o4 m c r | 6 => o6 m c r | _ => o8 m c r

/-- The later stages do not change what the earlier valuations read. -/
theorem V4_outs (c : Dev nD) : V4 m (outs m) c = V4 m (outsA m) c := rfl
theorem V5_outs (c : Dev nD) : V5 m (outs m) c = V5 m (outsA m) c := rfl
theorem V6_outs (c : Dev nD) : V6 m (outs m) c = V6 m (outsB m) c := rfl
theorem V7_outs (c : Dev nD) : V7 m (outs m) c = V7 m (outsB m) c := rfl

/-! ## The proof data family and the thread state -/

/-- Every region's proof data, each at its region's entry contents (a literal match on the region). -/
def pdats : (p : Fin 3) → (c : Dev nD) → Dat τ (Elt F) Unit ℕ (UR sig nD τ) ℕ (cfgs p) c
  | ⟨0, _⟩ => fun c => Reg0.dat (E3 m) c
  | ⟨1, _⟩ => fun c => Reg1.dat (E5 m) c
  | ⟨2, _⟩ => fun c => Reg2.dat (E7 m) c

/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## Each region's exit contents -/

/-- An input window's array is never written: it holds its entry contents after every point. -/
theorem hF0 (c : Dev nD) : ∀ w : Fin cfg0.W, (Reg0.dat (E3 m) c).arrAt w cfg0.N = V4 m (outs m) c (Pipeline.arrRef spec0 w)
  | ⟨0, _⟩ => ((Reg0.dat (E3 m) c).arrAt_in 0 rfl _).trans ((Reg0.A_eq (E3 m) c 0).trans (V4_of m (outs m) c main_v3 (by decide)).symm)
  | ⟨1, _⟩ => by
    show _ = V4 m (outs m) c (Proc.devRef .tc main_v4)
    simp only [V4, Function.update_self]
    exact (Pipeline.withArrays_arr spec0 launch0.win.arr_inj c (V3 m c) (fun w => (Reg0.dat (E3 m) c).arrAt w cfg0.N) 1).symm
theorem hrest0 (c : Dev nD) : ∀ b, b ∉ Finset.univ.image (Pipeline.arrRef spec0) → V4 m (outs m) c b = E3 m c b := by
  intro b hb
  refine V4_of m (outs m) c b ?_
  intro h
  exact hb (Finset.mem_image.mpr ⟨1, Finset.mem_univ _, (List.mem_singleton.mp h).symm⟩)

theorem hF1 (c : Dev nD) : ∀ w : Fin cfg1.W, (Reg1.dat (E5 m) c).arrAt w cfg1.N = V6 m (outs m) c (Pipeline.arrRef spec1 w)
  | ⟨0, _⟩ => ((Reg1.dat (E5 m) c).arrAt_in 0 rfl _).trans ((Reg1.A_eq (E5 m) c 0).trans (V6_of m (outs m) c main_v3 (by decide)).symm)
  | ⟨1, _⟩ => ((Reg1.dat (E5 m) c).arrAt_in 1 rfl _).trans ((Reg1.A_eq (E5 m) c 1).trans (V6_of m (outs m) c main_v8 (by decide)).symm)
  | ⟨2, _⟩ => ((Reg1.dat (E5 m) c).arrAt_in 2 rfl _).trans ((Reg1.A_eq (E5 m) c 2).trans (V6_of m (outs m) c main_v9 (by decide)).symm)
  | ⟨3, _⟩ => ((Reg1.dat (E5 m) c).arrAt_in 3 rfl _).trans ((Reg1.A_eq (E5 m) c 3).trans (V6_of m (outs m) c main_arg3 (by decide)).symm)
  | ⟨4, _⟩ => by
    show _ = V6 m (outs m) c (Proc.devRef .tc main_v10_0)
    simp only [V6, Function.update_self, Function.update_of_ne (show (Proc.devRef .tc main_v10_0 : DevRef τ sig) ≠ Proc.devRef .tc main_v10_1 from StableHlo.devRef_ne_of_ne (by decide))]
    exact (Pipeline.withArrays_arr spec1 launch1.win.arr_inj c (V5 m (outsA m) c) (fun w => (Reg1.dat (E5 m) c).arrAt w cfg1.N) 4).symm
  | ⟨5, _⟩ => by
    show _ = V6 m (outs m) c (Proc.devRef .tc main_v10_1)
    simp only [V6, Function.update_self]
    exact (Pipeline.withArrays_arr spec1 launch1.win.arr_inj c (V5 m (outsA m) c) (fun w => (Reg1.dat (E5 m) c).arrAt w cfg1.N) 5).symm
theorem hrest1 (c : Dev nD) : ∀ b, b ∉ Finset.univ.image (Pipeline.arrRef spec1) → V6 m (outs m) c b = E5 m c b := by
  intro b hb
  refine V6_of m (outs m) c b ?_
  intro h
  rcases List.mem_cons.mp h with h | h
  · exact hb (Finset.mem_image.mpr ⟨4, Finset.mem_univ _, h.symm⟩)
  · exact hb (Finset.mem_image.mpr ⟨5, Finset.mem_univ _, (List.mem_singleton.mp h).symm⟩)

theorem hF2 (c : Dev nD) : ∀ w : Fin cfg2.W, (Reg2.dat (E7 m) c).arrAt w cfg2.N = V8 m (outs m) c (Pipeline.arrRef spec2 w)
  | ⟨0, _⟩ => ((Reg2.dat (E7 m) c).arrAt_in 0 rfl _).trans ((Reg2.A_eq (E7 m) c 0).trans (V8_of m (outs m) c main_v3 (by decide)).symm)
  | ⟨1, _⟩ => ((Reg2.dat (E7 m) c).arrAt_in 1 rfl _).trans ((Reg2.A_eq (E7 m) c 1).trans (V8_of m (outs m) c main_v8 (by decide)).symm)
  | ⟨2, _⟩ => ((Reg2.dat (E7 m) c).arrAt_in 2 rfl _).trans ((Reg2.A_eq (E7 m) c 2).trans (V8_of m (outs m) c main_v9 (by decide)).symm)
  | ⟨3, _⟩ => ((Reg2.dat (E7 m) c).arrAt_in 3 rfl _).trans ((Reg2.A_eq (E7 m) c 3).trans (V8_of m (outs m) c main_arg3 (by decide)).symm)
  | ⟨4, _⟩ => ((Reg2.dat (E7 m) c).arrAt_in 4 rfl _).trans ((Reg2.A_eq (E7 m) c 4).trans (V8_of m (outs m) c main_v20 (by decide)).symm)
  | ⟨5, _⟩ => ((Reg2.dat (E7 m) c).arrAt_in 5 rfl _).trans ((Reg2.A_eq (E7 m) c 5).trans (V8_of m (outs m) c main_v22 (by decide)).symm)
  | ⟨6, _⟩ => by
    show _ = V8 m (outs m) c (Proc.devRef .tc main_v23)
    simp only [V8, Function.update_self]
    exact (Pipeline.withArrays_arr spec2 launch2.win.arr_inj c (V7 m (outsB m) c) (fun w => (Reg2.dat (E7 m) c).arrAt w cfg2.N) 6).symm
theorem hrest2 (c : Dev nD) : ∀ b, b ∉ Finset.univ.image (Pipeline.arrRef spec2) → V8 m (outs m) c b = E7 m c b := by
  intro b hb
  refine V8_of m (outs m) c b ?_
  intro h
  exact hb (Finset.mem_image.mpr ⟨6, Finset.mem_univ _, (List.mem_singleton.mp h).symm⟩)

/-! ## The regions as segments -/

-- `iapply` of a library lemma stated over the pinned configuration unifies only when unification may unfold plain
-- definitions in a metavariable's type
set_option backward.isDefEq.respectTransparency.types false in
/-- Region 0 as a segment: entered from every unscoped buffer at the contents before it, left with them at the contents
    after it; its arrays split out of the unscoped buffers at entry and put back at exit; the generator register goes
    into the region's invariant and comes back; nothing owed; no semaphore of the kernel's own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Reg0.body_obligation (E3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := Pipeline.ΦA spec0 c) ?_ (Reg0.hin (E3 m) c)
    unfold Pipeline.ΦA
    iintro ⟨Hp, -, Hr⟩
    isplitl [Hr]; · iexact Hr
    iexact Hp
  hout c := by
    rw [Pipeline.ownSems0_none]
    refine BIBase.Entails.trans (Reg0.hout (E3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 as a segment: entered from every unscoped buffer at the contents before it, left with them at the contents
    after it; its arrays split out of the unscoped buffers at entry and put back at exit; the generator register goes
    into the region's invariant and comes back; nothing owed; no semaphore of the kernel's own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Reg1.body_obligation (E5 m) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [V5_outs m c]
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 2 as a segment: entered from every unscoped buffer at the contents before it, left with them at the contents
    after it; its arrays split out of the unscoped buffers at entry and put back at exit; the generator register goes
    into the region's invariant and comes back; nothing owed; no semaphore of the kernel's own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (Reg2.body_obligation (E7 m) c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [V7_outs m c]
    rw [Pipeline.ownSems0_none]
    have hsplit := Pipeline.arrays_of_unscopedBufs (p := 2) (pcfgs (F := F)) adm (pdats m) launch2.win launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E7 m c) (fun b => V8 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution of the kernel program terminates, and in every final memory each unscoped buffer holds
    the last valuation's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = V8 m (outs m) c b) :=
  run_cond m emb₁ () Variants.none L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => R c) : sProp 𝕄) :=
        bigSep_mono fun c _ => (show (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ R c from by
          iintro ⟨-, HO, -, Hp, -⟩
          isplitl [Hp]; · iexists _; iexact Hp
          iexists ∅; iexact HO)
      iintro ⟨H, -⟩
      imodintro
      iapply hmono
      iexact H)
    (fun c => by iintro ⟨-, HO⟩; iexact HO)
    (reg0 m) (fun c => .rfl) (fun c => .rfl)
    (reg1 m) (fun c => .rfl) (fun c => .rfl)
    (reg2 m) (fun c => .rfl) (fun c => .rfl)

/-- The frame: every argument array ends as launched (the generated conditional frame, at the same records). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (V8_main_arg0 m (outs m) c),
     (h c _ (mem_uc main_arg1 (by decide))).trans (V8_main_arg1 m (outs m) c),
     (h c _ (mem_uc main_arg2 (by decide))).trans (V8_main_arg2 m (outs m) c),
     (h c _ (mem_uc main_arg3 (by decide))).trans (V8_main_arg3 m (outs m) c),
     (h c _ (mem_uc main_arg4 (by decide))).trans (V8_main_arg4 m (outs m) c),
     (h c _ (mem_uc main_arg5 (by decide))).trans (V8_main_arg5 m (outs m) c)⟩) (run_all m ρ)

end Cert.KernelIdeal.Run

end
-- ==== Proof.Spec.lean ====
/- The two programs as pure functions over the extended reals, index by index.

   x[b,e,f] is the gathered edge-pair feature (any extended real: a row gathered out of range is -∞ in every entry),
   W, bias, γ, β the layer's parameters. Both sides compute, per batch b and channel f, the L1 mass
   d[b,f] = max(Σ_e |x[b,e,f]|, ε₁) of a column, then y[b,e,c] = Σ_f (x[b,e,f] / d[b,f]) · W[f,c] + bias[c], its mean μ[c]
   and variance v[c] over all (b,e), and tanh of the normalized value. The kernel multiplies by the reciprocal 1/d
   where the reference divides, computes the variance as E[y²] - μ², and folds the normalization into one scale and
   one shift per channel; it adds up the edge axis tile by tile (6 tiles of 4096 rows per batch, 96 tiles in all). -/
import Idealize.ShloMosaic.PureOps.Ideal
import Idealize.ShloMosaic.Lib.ValueIdx

noncomputable section

open scoped BigOperators

namespace Cert.Spec

open Idealize.ShloMosaic

/-- ε₁ = 1e-12 as the f32 the programs hold, ε₂ = 1e-5 likewise, the count 16·24576 = 393216, and one. -/
abbrev eps1 : EReal := Ideal.ofBits .f32 0x2B8CBCCC#32
abbrev eps2 : EReal := Ideal.ofBits .f32 0x3727C5AC#32
abbrev cnt : EReal := Ideal.ofBits .f32 0x48C00000#32
abbrev one : EReal := Ideal.ofBits .f32 0x3F800000#32

abbrev X3 : Type := Fin 16 → Fin 24576 → Fin 128 → EReal
abbrev D2 : Type := Fin 16 → Fin 128 → EReal
abbrev M2 : Type := Fin 128 → Fin 128 → EReal
abbrev R1 : Type := Fin 128 → EReal

/-- Row r of edge tile k. -/
def tile (k : Fin 6) (r : Fin 4096) : Fin 24576 := ⟨4096 * k.val + r.val, by omega⟩
/-- Grid point t = 6·batch + tile: its batch and its tile. -/
def ptB (t : Fin 96) : Fin 16 := ⟨t.val / 6, by omega⟩
def ptK (t : Fin 96) : Fin 6 := ⟨t.val % 6, by omega⟩

def absE (a : EReal) : EReal := max a (-a)

/-! ## The kernel's side -/

/-- Region 0: a column's L1 mass, added up tile by tile. -/
def denomK (x : X3) : D2 := fun b f => ∑ k : Fin 6, ∑ r : Fin 4096, absE (x b (tile k r) f)
/-- The host's reciprocal of the clamped mass. -/
def invK (d : D2) : D2 := fun b f => Ideal.div one (max (d b f) eps1)
/-- The linear layer on the rescaled features. -/
def yK (x : X3) (iv : D2) (w : M2) (bias : R1) : X3 := fun b e c => (∑ f : Fin 128, (x b e f * iv b f) * w f c) + bias c
/-- Region 1: the sums of y and of y² over all rows, added up tile by tile. -/
def sumK (y : X3) : R1 := fun c => ∑ t : Fin 96, ∑ r : Fin 4096, y (ptB t) (tile (ptK t) r) c
def sumSqK (y : X3) : R1 := fun c => ∑ t : Fin 96, ∑ r : Fin 4096, y (ptB t) (tile (ptK t) r) c * y (ptB t) (tile (ptK t) r) c
/-- The host's statistics, scale and shift. -/
def meanK (s : R1) : R1 := fun c => Ideal.div (s c) cnt
def varK (s s2 : R1) : R1 := fun c => Ideal.div (s2 c) cnt - meanK s c * meanK s c
def scaleK (g s s2 : R1) : R1 := fun c => g c * Ideal.rsqrt (varK s s2 c + eps2)
def shiftK (g bt s s2 : R1) : R1 := fun c => bt c - meanK s c * scaleK g s s2 c
/-- Region 2: the output. -/
def outK (y : X3) (sc sh : R1) : X3 := fun b e c => Ideal.tanh (y b e c * sc c + sh c)

/-- The kernel's result as one function of x and the parameters. -/
def kernelOut (x : X3) (w : M2) (bias g bt : R1) : X3 :=
  let y := yK x (invK (denomK x)) w bias
  outK y (scaleK g (sumK y) (sumSqK y)) (shiftK g bt (sumK y) (sumSqK y))

/-! ## The reference's side -/

def denomR (x : X3) : D2 := fun b f => ∑ e : Fin 24576, absE (x b e f)
def yR (x : X3) (w : M2) (bias : R1) : X3 :=
  fun b e c => (∑ f : Fin 128, Ideal.div (x b e f) (max (denomR x b f) eps1) * w f c) + bias c
def meanR (y : X3) : R1 := fun c => Ideal.div (∑ b : Fin 16, ∑ e : Fin 24576, y b e c) cnt
def varR (y : X3) : R1 := fun c => Ideal.div (∑ b : Fin 16, ∑ e : Fin 24576, (y b e c - meanR y c) * (y b e c - meanR y c)) cnt
def refOut (x : X3) (w : M2) (bias g bt : R1) : X3 :=
  let y := yR x w bias
  fun b e c => Ideal.tanh (((y b e c - meanR y c) * Ideal.rsqrt (varR y c + eps2)) * g c + bt c)

/-! ## Between arrays and their coordinates -/

open Idealize.ShloMosaic.ValueIdx

/-- An array of rank 3, 2 or 1 as a function of its coordinates, and back. -/
def curry3 {n0 n1 n2 : Nat} (a : (⟨3, ![n0, n1, n2]⟩ : Shape).Idx → EReal) : Fin n0 → Fin n1 → Fin n2 → EReal := fun i j k => a (ix3 i j k)
def curry2 {n0 n1 : Nat} (a : (⟨2, ![n0, n1]⟩ : Shape).Idx → EReal) : Fin n0 → Fin n1 → EReal := fun i j => a (ix2 i j)
def curry1 {n : Nat} (a : (⟨1, ![n]⟩ : Shape).Idx → EReal) : Fin n → EReal := fun i => a (ix1 i)
def arr3 {n0 n1 n2 : Nat} (g : Fin n0 → Fin n1 → Fin n2 → EReal) : (⟨3, ![n0, n1, n2]⟩ : Shape).Idx → EReal := fun j => g (j 0) (j 1) (j 2)
def arr1 {n : Nat} (g : Fin n → EReal) : (⟨1, ![n]⟩ : Shape).Idx → EReal := fun j => g (j 0)
/-- The [16,1,128] arrays between the regions, read at (b, 0, f). -/
def curryD (a : (⟨3, ![16, 1, 128]⟩ : Shape).Idx → EReal) : D2 := fun b f => a (ix3 b 0 f)
def arrD (d : D2) : (⟨3, ![16, 1, 128]⟩ : Shape).Idx → EReal := fun j => d (j 0) (j 2)

end Cert.Spec

end
-- ==== Proof.K0Value.lean ====
/- Region 0's value at the exact reals: after the region the output array holds, at (b, 0, f), the L1 mass of column (b, f)
   of x added up tile by tile. -/
import proofs.«147310_j32392643347009_1_alg».proof.Proof.K0Frame
import proofs.«147310_j32392643347009_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## What each case leaves, as the body's payloads -/

section pieces
variable {F : FTy → Type} [FloatOps F]

theorem hz1 : (![0] : Fin 1 → Nat) = fun _ => 0 := funext fun a => by fin_cases a <;> rfl
theorem hz3 : (![0, 0, 0] : Fin 3 → Nat) = fun _ => 0 := funext fun a => by fin_cases a <;> rfl

/-- Tile 0: the scratch row is reset to zero and the tile's column sums are added to that zero row. -/
theorem soutA_eq (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : Reg0.condReset i) (hc1 : ¬Reg0.condOut i) (x0 : Vec F S1x4096x128 .f32) :
    Reg0.soutA c i arg2 harg2 arg3 harg3 arg4 harg4 hc0 hc1 x0 = k0_pay2 (k0_pay1 (F := F)) x0 := by
  unfold Reg0.soutA
  rw [View.read_writes_eq_canon _ _ _ (Reg0.scoverA c i arg2 harg2 arg3 harg3 arg4 harg4 hc0 hc1 x0)]
  unfold Reg0.runReset
  dsimp only
  sl_unfold_words
  rw [View.canon_cons_unit_zero (S := S128) hz1, View.readCov_unit_zero (S := S128) _ hz1]
  simp only [View.readAt_eq_ld, harg2.read_unread, View.ld_unit_zero (S := S1x4096x128) hz3]

/-- A middle tile: the tile's column sums are added to what the scratch row held. -/
theorem soutB_eq (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬Reg0.condReset i) (hc1 : ¬Reg0.condOut i) (x0 : Vec F S1x4096x128 .f32) (xs0 : Vec F S128 .f32) :
    Reg0.soutB c i arg2 harg2 arg3 harg3 arg4 harg4 hc0 hc1 x0 xs0 = k0_pay2 xs0 x0 := by
  unfold Reg0.soutB
  rw [View.read_writes_eq_canon _ _ _ (Reg0.scoverB c i arg2 harg2 arg3 harg3 arg4 harg4 hc0 hc1 x0 xs0)]
  unfold Reg0.runAcc
  dsimp only
  sl_unfold_words
  rw [View.canon_unit_zero hz1]
  simp only [View.readAt_eq_ld, harg2.read_unread, harg4.read_unread, View.ld_unit_zero (S := S128) hz1, View.ld_unit_zero (S := S1x4096x128) hz3]

/-- Tile 5, the scratch row: as at a middle tile. -/
theorem soutC_eq (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬Reg0.condReset i) (hc1 : Reg0.condOut i) (x0 : Vec F S1x4096x128 .f32) (xs0 : Vec F S128 .f32) :
    Reg0.soutC c i arg2 harg2 arg3 harg3 arg4 harg4 hc0 hc1 x0 xs0 = k0_pay2 xs0 x0 := by
  unfold Reg0.soutC
  rw [View.read_writes_eq_canon _ _ _ (Reg0.scoverC c i arg2 harg2 arg3 harg3 arg4 harg4 hc0 hc1 x0 xs0)]
  unfold Reg0.runOut
  dsimp only
  sl_unfold_words
  rw [View.canon_unit_zero hz1]
  simp only [View.readAt_eq_ld, harg2.read_unread, harg4.read_unread, View.ld_unit_zero (S := S128) hz1, View.ld_unit_zero (S := S1x4096x128) hz3]

/-- Tile 5, the output block: the scratch row just stored, recast to [1, 1, 128]. -/
theorem outC1_eq (c : Dev nD) (i : grid0.Coords) (arg2 : Memref sig .tc .vmem S1x4096x128 .f32) (harg2 : arg2.IsWhole) (arg3 : Memref sig .tc .vmem S1x1x128 .f32) (harg3 : arg3.IsWhole) (arg4 : Memref sig .tc .vmem S128 .f32) (harg4 : arg4.IsWhole) (hc0 : ¬Reg0.condReset i) (hc1 : Reg0.condOut i) (x0 : Vec F S1x4096x128 .f32) (xs0 : Vec F S128 .f32) :
    Reg0.outC1 c i arg2 harg2 arg3 harg3 arg4 harg4 hc0 hc1 x0 xs0 = k0_pay3 (k0_pay2 xs0 x0) := by
  unfold Reg0.outC1
  rw [View.read_writes_eq_canon _ _ _ (Reg0.coverC1 c i arg2 harg2 arg3 harg3 arg4 harg4 hc0 hc1 x0 xs0)]
  unfold Reg0.runOut
  dsimp only
  sl_unfold_words
  rw [View.canon_unit_zero hz3, View.readCov_unit_zero (S := S128) _ hz1]
  simp only [View.readAt_eq_ld, harg2.read_unread, harg4.read_unread, View.ld_unit_zero (S := S128) hz1, View.ld_unit_zero (S := S1x4096x128) hz3]

end pieces

/-! ## The payloads at an index, over the extended reals -/

/-- The reset's row is zero. -/
theorem pay1_apply (f : Fin 128) : (k0_pay1 (F := Ideal)) (ix1 f) = 0 := by
  unfold k0_pay1
  refine (congrFun (shapeCast_self _ _) (ix1 f)).trans ?_
  exact Ideal.ofBits_zero_f32

/-- A sum over the rows of a [4096, 128] block, at lane f. -/
theorem laneSum_apply (v : FVec Ideal S4096x128 .f32) (f : Fin 128) :
    multiReduction .add [0] S128 v 0x00000000#32 reduces_S4096x128_S128 (.inl rfl) rfl (ix1 f) = ∑ r : Fin 4096, v (ix2 r f) := by
  refine (Ideal.multiReduction_add_single v 0x00000000#32 reduces_S4096x128_S128 (.inl rfl) rfl (ix1 f)).trans ?_
  refine Finset.sum_congr rfl fun r _ => congrArg v ?_
  funext a
  match a with
  | ⟨0, _⟩ => rfl
  | ⟨1, _⟩ => rfl

/-- The accumulation: the row found plus, lane by lane, the sum of |x| over the tile's 4096 rows. -/
theorem pay2_apply (v3 : Vec Ideal S128 .f32) (v4 : Vec Ideal S1x4096x128 .f32) (f : Fin 128) :
    k0_pay2 v3 v4 (ix1 f) = v3 (ix1 f) + ∑ r : Fin 4096, Spec.absE (v4 (ix3 (0 : Fin 1) r f)) := by
  unfold k0_pay2
  refine (congrFun (shapeCast_self _ _) (ix1 f)).trans ?_
  refine congrArg (v3 (ix1 f) + ·) ?_
  refine (laneSum_apply _ f).trans ?_
  refine Finset.sum_congr rfl fun r _ => ?_
  show max (shapeCast S4096x128 v4 shapeCasts_S1x4096x128_S4096x128 (ix2 r f)) (-(shapeCast S4096x128 v4 shapeCasts_S1x4096x128_S4096x128 (ix2 r f))) = _
  rw [shapeCast_1ab_ab_apply]
  rfl

/-- The output block's payload is the scratch row, lane by lane. -/
theorem pay3_apply (v : Vec Ideal S128 .f32) (u0 u1 : Fin 1) (f : Fin 128) : k0_pay3 v (ix3 u0 u1 f) = v (ix1 f) := by
  unfold k0_pay3
  refine shapeCast_apply v _ _ _ ?_
  have h0 : u0.val = 0 := by omega
  have h1 : u1.val = 0 := by omega
  rw [Shape.rowMajor_val_one, Shape.rowMajor_val_three]
  show f.val = (u0.val * 1 + u1.val) * 128 + f.val
  rw [h0, h1]; omega

/-! ## The blocks of x and of the output, by coordinates -/

variable (V : (c : Dev nD) → (b : Ref sig .tc) → Buf (Elt Ideal) ((c : Thread nD τ).loc b))

/-- x as the region finds it, by coordinates. -/
abbrev xs (c : Dev nD) : Spec.X3 := Spec.curry3 (n0 := 16) (n1 := 24576) (n2 := 128) (V c main_v3)

/-- The tile of x at point t. -/
abbrev xblk (c : Dev nD) (t : Fin cfg0.N) : Vec Ideal S1x4096x128 .f32 := Reg0.iblk V c 0 t

/-- Point t = 6·batch + tile reads block (batch, tile, 0) of x and owns block (batch, 0, 0) of the output. -/
theorem idx_in : ∀ t : Fin cfg0.N, win0_0.index t (0 : Fin 3) = t.val / 6 ∧ win0_0.index t (1 : Fin 3) = t.val % 6 ∧ win0_0.index t (2 : Fin 3) = 0 :=
  (by decide +kernel : ∀ t : Fin grid0.N, _)
theorem idx_out : ∀ t : Fin cfg0.N, win0_1.index t (0 : Fin 3) = t.val / 6 ∧ win0_1.index t (1 : Fin 3) = 0 ∧ win0_1.index t (2 : Fin 3) = 0 :=
  (by decide +kernel : ∀ t : Fin grid0.N, _)

/-- The batch and the tile of a point. -/
def bOf (n : ℕ) (h : n < cfg0.N) : Fin 16 := ⟨n / 6, by have : cfg0.N = 96 := N_0; omega⟩
def kOf (n : ℕ) : Fin 6 := ⟨n % 6, Nat.mod_lt _ (by decide)⟩

/-- Row r, lane f of the tile at point t is x at (batch, 4096·tile + r, f). -/
theorem xblk_apply (c : Dev nD) (t : Fin cfg0.N) (r : Fin 4096) (f : Fin 128) :
    xblk V c t (ix3 (0 : Fin 1) r f) = xs V c (bOf t.val t.isLt) (Spec.tile (kOf t.val) r) f := by
  obtain ⟨e0, e1, e2⟩ := idx_in t
  unfold xblk Reg0.iblk
  rw [View.read_apply]
  show V c main_v3 _ = V c main_v3 _
  refine congrArg (V c main_v3) ?_
  funext a
  apply Fin.ext
  match a with
  | ⟨0, _⟩ => show win0_0.index t (0 : Fin 3) * 1 + 1 * 0 = t.val / 6; omega
  | ⟨1, _⟩ => show win0_0.index t (1 : Fin 3) * 4096 + 1 * r.val = 4096 * (t.val % 6) + r.val; omega
  | ⟨2, _⟩ => show win0_0.index t (2 : Fin 3) * 128 + 1 * f.val = f.val; omega

/-! ## The scratch row after each point -/

/-- Column (b, f)'s mass over tile k (nothing past the sixth tile), and over the tiles up to k. -/
def tileMass (x : Spec.X3) (b : Fin 16) (k : ℕ) (f : Fin 128) : EReal :=
  if h : k < 6 then ∑ r : Fin 4096, Spec.absE (x b (Spec.tile ⟨k, h⟩ r) f) else 0
def upTo (x : Spec.X3) (b : Fin 16) (k : ℕ) (f : Fin 128) : EReal := ∑ j ∈ Finset.range (k + 1), tileMass x b j f

theorem tileMass_kOf (x : Spec.X3) (b : Fin 16) (n : ℕ) (f : Fin 128) :
    tileMass x b (n % 6) f = ∑ r : Fin 4096, Spec.absE (x b (Spec.tile (kOf n) r) f) := by
  unfold tileMass kOf
  rw [dif_pos (Nat.mod_lt _ (by decide))]

theorem upTo_zero (x : Spec.X3) (b : Fin 16) (f : Fin 128) : upTo x b 0 f = tileMass x b 0 f := by
  unfold upTo
  rw [Finset.sum_range_one]

theorem upTo_succ (x : Spec.X3) (b : Fin 16) (k : ℕ) (f : Fin 128) : upTo x b (k + 1) f = upTo x b k f + tileMass x b (k + 1) f :=
  Finset.sum_range_succ _ _

/-- All six tiles: the column's whole mass. -/
theorem upTo_five (x : Spec.X3) (b : Fin 16) (f : Fin 128) : upTo x b 5 f = Spec.denomK x b f := by
  unfold upTo Spec.denomK
  show ∑ j ∈ Finset.range 6, tileMass x b j f = _
  rw [Finset.sum_range]
  refine Finset.sum_congr rfl fun j _ => ?_
  unfold tileMass
  rw [dif_pos j.isLt]

/-- The tile at point t adds, to lane f, tile (t mod 6)'s share of column (batch, f). -/
theorem tile_sum (c : Dev nD) (t : Fin cfg0.N) (f : Fin 128) :
    ∑ r : Fin 4096, Spec.absE (xblk V c t (ix3 (0 : Fin 1) r f)) = tileMass (xs V c) (bOf t.val t.isLt) (t.val % 6) f := by
  rw [tileMass_kOf]
  exact Finset.sum_congr rfl fun r _ => congrArg Spec.absE (xblk_apply V c t r f)

/-- After a point of tile 0 the scratch row holds that tile's column sums: the reset's zero row drops out. -/
theorem scratch_first (c : Dev nD) (t : Fin cfg0.N) (h0 : t.val % 6 = 0) (f : Fin 128) :
    (Reg0.outsAt V c t.val t.isLt).2 (ix1 f) = ∑ r : Fin 4096, Spec.absE (xblk V c t (ix3 (0 : Fin 1) r f)) := by
  have h1 : ¬t.val % 6 = 5 := by omega
  rw [Reg0.outsAt_A V c t h0 h1]
  dsimp only
  refine (congrFun (soutA_eq (F := Ideal) c (grid0.coords t) (Reg0.ms0 t) (Reg0.hs0 t) (Reg0.ms1 t) (Reg0.hs1 t) Reg0.scM (Memref.isWhole_whole _) ((Reg0.hcondReset t).mpr h0) (fun h => h1 ((Reg0.hcondOut t).mp h)) (xblk V c t)) (ix1 f)).trans ?_
  refine (pay2_apply (k0_pay1 (F := Ideal)) (xblk V c t) f).trans ?_
  rw [pay1_apply, zero_add]

/-- After a later point it holds what the point before left plus the tile's column sums. -/
theorem scratch_next (c : Dev nD) (t : Fin cfg0.N) (h0 : ¬t.val % 6 = 0) (f : Fin 128) :
    (Reg0.outsAt V c t.val t.isLt).2 (ix1 f)
      = (Reg0.outsAt V c (t.val - 1) (Nat.lt_of_le_of_lt (Nat.sub_le _ _) t.isLt)).2 (ix1 f) + ∑ r : Fin 4096, Spec.absE (xblk V c t (ix3 (0 : Fin 1) r f)) := by
  by_cases h1 : t.val % 6 = 5
  · rw [Reg0.outsAt_C V c t h0 h1]
    dsimp only
    refine (congrFun (soutC_eq (F := Ideal) c (grid0.coords t) (Reg0.ms0 t) (Reg0.hs0 t) (Reg0.ms1 t) (Reg0.hs1 t) Reg0.scM (Memref.isWhole_whole _) (fun h => h0 ((Reg0.hcondReset t).mp h)) ((Reg0.hcondOut t).mpr h1) (xblk V c t) (Reg0.outsAt V c (t.val - 1) (Nat.lt_of_le_of_lt (Nat.sub_le _ _) t.isLt)).2) (ix1 f)).trans ?_
    exact pay2_apply (Reg0.outsAt V c (t.val - 1) (Nat.lt_of_le_of_lt (Nat.sub_le _ _) t.isLt)).2 (xblk V c t) f
  · rw [Reg0.outsAt_B V c t h0 h1]
    dsimp only
    refine (congrFun (soutB_eq (F := Ideal) c (grid0.coords t) (Reg0.ms0 t) (Reg0.hs0 t) (Reg0.ms1 t) (Reg0.hs1 t) Reg0.scM (Memref.isWhole_whole _) (fun h => h0 ((Reg0.hcondReset t).mp h)) (fun h => h1 ((Reg0.hcondOut t).mp h)) (xblk V c t) (Reg0.outsAt V c (t.val - 1) (Nat.lt_of_le_of_lt (Nat.sub_le _ _) t.isLt)).2) (ix1 f)).trans ?_
    exact pay2_apply (Reg0.outsAt V c (t.val - 1) (Nat.lt_of_le_of_lt (Nat.sub_le _ _) t.isLt)).2 (xblk V c t) f

/-- THE INVARIANT: after point n = 6·b + k the scratch row holds, at lane f, column (b, f)'s mass over tiles 0..k. -/
theorem scratch_eq (c : Dev nD) : ∀ (n : ℕ) (h : n < cfg0.N) (f : Fin 128),
    (Reg0.outsAt V c n h).2 (ix1 f) = upTo (xs V c) (bOf n h) (n % 6) f
  | 0, h, f => by
    refine (scratch_first V c ⟨0, h⟩ rfl f).trans ?_
    rw [tile_sum V c ⟨0, h⟩ f]
    exact (upTo_zero _ _ _).symm
  | n + 1, h, f => by
    by_cases h0 : (n + 1) % 6 = 0
    · refine (scratch_first V c ⟨n + 1, h⟩ h0 f).trans ?_
      rw [tile_sum V c ⟨n + 1, h⟩ f]
      show tileMass (xs V c) (bOf (n + 1) h) ((n + 1) % 6) f = upTo (xs V c) (bOf (n + 1) h) ((n + 1) % 6) f
      rw [h0]
      exact (upTo_zero _ _ _).symm
    · refine (scratch_next V c ⟨n + 1, h⟩ h0 f).trans ?_
      rw [tile_sum V c ⟨n + 1, h⟩ f]
      show (Reg0.outsAt V c n (Nat.lt_of_succ_lt h)).2 (ix1 f) + tileMass (xs V c) (bOf (n + 1) h) ((n + 1) % 6) f = upTo (xs V c) (bOf (n + 1) h) ((n + 1) % 6) f
      rw [scratch_eq c n (Nat.lt_of_succ_lt h) f]
      have hb : bOf (n + 1) h = bOf n (Nat.lt_of_succ_lt h) := Fin.ext (by show (n + 1) / 6 = n / 6; omega)
      have hk : (n + 1) % 6 = n % 6 + 1 := by omega
      rw [hb, hk]
      exact (upTo_succ _ _ _ _).symm

/-- At a point of tile 5 the output block holds, at (0, 0, f), the scratch row just completed at lane f. -/
theorem out_last (c : Dev nD) (t : Fin cfg0.N) (h1 : t.val % 6 = 5) (u0 u1 : Fin 1) (f : Fin 128) :
    (Reg0.outsAt V c t.val t.isLt).1 (ix3 u0 u1 f) = (Reg0.outsAt V c t.val t.isLt).2 (ix1 f) := by
  have h0 : ¬t.val % 6 = 0 := by omega
  rw [Reg0.outsAt_C V c t h0 h1]
  dsimp only
  refine (congrFun (outC1_eq (F := Ideal) c (grid0.coords t) (Reg0.ms0 t) (Reg0.hs0 t) (Reg0.ms1 t) (Reg0.hs1 t) Reg0.scM (Memref.isWhole_whole _) (fun h => h0 ((Reg0.hcondReset t).mp h)) ((Reg0.hcondOut t).mpr h1) (xblk V c t) (Reg0.outsAt V c (t.val - 1) (Nat.lt_of_le_of_lt (Nat.sub_le _ _) t.isLt)).2) (ix3 u0 u1 f)).trans ?_
  refine (pay3_apply _ u0 u1 f).trans ?_
  exact (congrFun (soutC_eq (F := Ideal) c (grid0.coords t) (Reg0.ms0 t) (Reg0.hs0 t) (Reg0.ms1 t) (Reg0.hs1 t) Reg0.scM (Memref.isWhole_whole _) (fun h => h0 ((Reg0.hcondReset t).mp h)) ((Reg0.hcondOut t).mpr h1) (xblk V c t) (Reg0.outsAt V c (t.val - 1) (Nat.lt_of_le_of_lt (Nat.sub_le _ _) t.isLt)).2) (ix1 f)).symm

/-! ## From the blocks to the array -/

/-- The region's result: at (b, 0, f) the mass of column (b, f) of x. -/
abbrev colMass (c : Dev nD) : (⟨3, ![16, 1, 128]⟩ : Shape).Idx → EReal := Spec.arrD (Spec.denomK (xs V c))

/-- What a point of tile 5 writes back is its block of that result. -/
theorem flushed_eq (c : Dev nD) (t : Fin cfg0.N) (hf : (cfg0.win 1).flush t = true) :
    (Reg0.dat V c).flushed 1 t = ((cfg0.win 1).blk t).view.read (Elt Ideal) (colMass V c) := by
  have h1 : t.val % 6 = 5 := (flush0_1 t).mp hf
  obtain ⟨e0, e1, e2⟩ := idx_out t
  show (cfg0.win 1).cut (grid0.coords t) ((Reg0.dat V c).after 1 t) = _
  rw [Reg0.after1]
  refine funext fun (j : S1x1x128.Idx) => ?_
  obtain ⟨u0, u1, f, rfl⟩ : ∃ (u0 u1 : Fin 1) (f : Fin 128), j = ix3 u0 u1 f := ⟨j 0, j 1, j 2, eq_ix3 j⟩
  show (Reg0.outsAt V c t.val t.isLt).1 (ix3 u0 u1 f) = colMass V c (((cfg0.win 1).blk t).view.emb (ix3 u0 u1 f))
  rw [out_last V c t h1 u0 u1 f, scratch_eq V c t.val t.isLt f, h1, upTo_five]
  show Spec.denomK (xs V c) (bOf t.val t.isLt) f
    = Spec.denomK (xs V c) ((((cfg0.win 1).blk t).view.emb (ix3 u0 u1 f)) 0) ((((cfg0.win 1).blk t).view.emb (ix3 u0 u1 f)) 2)
  have hu0 : u0.val = 0 := by omega
  have hb : bOf t.val t.isLt = (((cfg0.win 1).blk t).view.emb (ix3 u0 u1 f)) 0 :=
    Fin.ext (by show t.val / 6 = win0_1.index t (0 : Fin 3) * 1 + 1 * u0.val; omega)
  have hl : f = (((cfg0.win 1).blk t).view.emb (ix3 u0 u1 f)) 2 :=
    Fin.ext (by show f.val = win0_1.index t (2 : Fin 3) * 128 + 1 * f.val; omega)
  rw [← hb, ← hl]

/-- An index of the output array is in point t's block iff each coordinate is in the block's range on its axis. -/
theorem mem_blk (t : Fin cfg0.N) (i : S16x1x128.Idx) :
    i ∈ ((cfg0.win 1).blk t).view.set ↔ ∀ a : Fin 3, win0_1.index t a * S1x1x128.size a ≤ (i a).val ∧ (i a).val < win0_1.index t a * S1x1x128.size a + S1x1x128.size a := by
  show i ∈ ((View.whole main_v4).slice (win0_1.rect t)).set ↔ _
  rw [View.set_slice_whole, Rect.mem_set_unit]
  exact Iff.rfl

/-- Row (b, 0, ·) of the output is written back by the last tile's point of batch b, so the blocks written back fill the array:
    after the region it holds the column masses. -/
theorem denom (c : Dev nD) :
    (Reg0.dat V c).arrAt 1 cfg0.N = Spec.arrD (Spec.denomK (Spec.curry3 (n0 := 16) (n1 := 24576) (n2 := 128) (V c main_v3))) :=
  (Reg0.dat V c).arrAt_eq_of_cover 1 (colMass V c) (flushed_eq V c) fun (i : S16x1x128.Idx) => by
    have hi0 : (i 0).val < 16 := (i 0).isLt
    have hi1 : (i 1).val < 1 := (i 1).isLt
    have hi2 : (i 2).val < 128 := (i 2).isLt
    have hN : cfg0.N = 96 := N_0
    have ht : 6 * (i 0).val + 5 < cfg0.N := by omega
    obtain ⟨e0, e1, e2⟩ := idx_out ⟨6 * (i 0).val + 5, ht⟩
    refine ⟨⟨6 * (i 0).val + 5, ht⟩, (flush0_1 _).mpr (by show (6 * (i 0).val + 5) % 6 = 5; omega), ?_⟩
    rw [mem_blk]
    intro a
    match a with
    | ⟨0, _⟩ =>
      show win0_1.index ⟨6 * (i 0).val + 5, ht⟩ (0 : Fin 3) * 1 ≤ (i 0).val ∧ (i 0).val < win0_1.index ⟨6 * (i 0).val + 5, ht⟩ (0 : Fin 3) * 1 + 1
      have : (6 * (i 0).val + 5) / 6 = (i 0).val := by omega
      rw [e0]; dsimp only; omega
    | ⟨1, _⟩ =>
      show win0_1.index ⟨6 * (i 0).val + 5, ht⟩ (1 : Fin 3) * 1 ≤ (i 1).val ∧ (i 1).val < win0_1.index ⟨6 * (i 0).val + 5, ht⟩ (1 : Fin 3) * 1 + 1
      rw [e1]; omega
    | ⟨2, _⟩ =>
      show win0_1.index ⟨6 * (i 0).val + 5, ht⟩ (2 : Fin 3) * 128 ≤ (i 2).val ∧ (i 2).val < win0_1.index ⟨6 * (i 0).val + 5, ht⟩ (2 : Fin 3) * 128 + 128
      rw [e2]; omega

end Cert.KernelIdeal.Reg0Value

end
-- ==== Proof.K1Value.lean ====
/- Region 1's value at the exact reals: after the region the two output arrays hold the sums of y and of y² over all
   rows, added up tile by tile, where y is the linear layer on the rescaled features as the region finds them. -/
import proofs.«147310_j32392643347009_1_alg».proof.Proof.K1Frame
import proofs.«147310_j32392643347009_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

/-! ## What each case's found pieces leave: the body's payloads of the blocks -/

section Pieces

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A point after the first leaves, in the block of the running sum of y found at xo4, xo4 plus the tile's column sums of y. -/
theorem outB_4_eq (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : ¬Reg1.condFirst i)
    (x0 : Vec F S1x4096x128 .f32) (x1 : Vec F S1x1x128 .f32) (x2 : Vec F S128x128 .bf16) (x3 : Vec F S128 .f32) (xo4 : Vec F S128 .f32) (xo5 : Vec F S128 .f32) :
    Reg1.outB_4 c i arg2 harg2 arg3 harg3 arg4 harg4 arg5 harg5 arg6 harg6 arg7 harg7 hc0 x0 x1 x2 x3 xo4 xo5 = k1_pay4 x0 x1 x2 x3 xo4 := by
  unfold Reg1.outB_4
  rw [View.read_writes_eq_canon _ _ _ (Reg1.coverB_4 c i arg2 harg2 arg3 harg3 arg4 harg4 arg5 harg5 arg6 harg6 arg7 harg7 hc0 x0 x1 x2 x3 xo4 xo5)]
  unfold Reg1.runNext
  dsimp only
  sl_unfold_words
  rw [View.canon_unit_zero hz1]
  simp only [View.readAt_eq_ld, harg2.read_unread, harg3.read_unread, harg4.read_unread, harg5.read_unread, harg6.read_unread, harg7.read_unread,
    View.ld_unit_zero (S := S1x4096x128) hz3, View.ld_unit_zero (S := S1x1x128) hz3, View.ld_unit_zero (S := S128x128) hz2, View.ld_unit_zero (S := S128) hz1]

/-- Likewise in the block of the running sum of y², found at xo5. -/
theorem outB_5_eq (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : ¬Reg1.condFirst i)
    (x0 : Vec F S1x4096x128 .f32) (x1 : Vec F S1x1x128 .f32) (x2 : Vec F S128x128 .bf16) (x3 : Vec F S128 .f32) (xo4 : Vec F S128 .f32) (xo5 : Vec F S128 .f32) :
    Reg1.outB_5 c i arg2 harg2 arg3 harg3 arg4 harg4 arg5 harg5 arg6 harg6 arg7 harg7 hc0 x0 x1 x2 x3 xo4 xo5 = k1_pay5 x0 x1 x2 x3 xo5 := by
  unfold Reg1.outB_5
  rw [View.read_writes_eq_canon _ _ _ (Reg1.coverB_5 c i arg2 harg2 arg3 harg3 arg4 harg4 arg5 harg5 arg6 harg6 arg7 harg7 hc0 x0 x1 x2 x3 xo4 xo5)]
  unfold Reg1.runNext
  dsimp only
  sl_unfold_words
  rw [View.canon_unit_zero hz1]
  simp only [View.readAt_eq_ld, harg2.read_unread, harg3.read_unread, harg4.read_unread, harg5.read_unread, harg6.read_unread, harg7.read_unread,
    View.ld_unit_zero (S := S1x4096x128) hz3, View.ld_unit_zero (S := S1x1x128) hz3, View.ld_unit_zero (S := S128x128) hz2, View.ld_unit_zero (S := S128) hz1]

/-- The first point zeroes the block of the running sum of y, reads the zeros back, and leaves them plus the tile's column sums of y. -/
theorem outA_4_eq (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : Reg1.condFirst i)
    (x0 : Vec F S1x4096x128 .f32) (x1 : Vec F S1x1x128 .f32) (x2 : Vec F S128x128 .bf16) (x3 : Vec F S128 .f32) :
    Reg1.outA_4 c i arg2 harg2 arg3 harg3 arg4 harg4 arg5 harg5 arg6 harg6 arg7 harg7 hc0 x0 x1 x2 x3 = k1_pay4 x0 x1 x2 x3 (k1_pay1 (F := F)) := by
  unfold Reg1.outA_4
  rw [View.read_writes_eq_canon _ _ _ (Reg1.coverA_4 c i arg2 harg2 arg3 harg3 arg4 harg4 arg5 harg5 arg6 harg6 arg7 harg7 hc0 x0 x1 x2 x3)]
  unfold Reg1.runFirst
  dsimp only
  sl_unfold_words
  rw [View.canon_cons_unit_zero (S := S128) hz1, View.readCov_unit_zero (S := S128) _ hz1]
  simp only [View.readAt_eq_ld, harg2.read_unread, harg3.read_unread, harg4.read_unread, harg5.read_unread,
    View.ld_unit_zero (S := S1x4096x128) hz3, View.ld_unit_zero (S := S1x1x128) hz3, View.ld_unit_zero (S := S128x128) hz2, View.ld_unit_zero (S := S128) hz1]

/-- Likewise the block of the running sum of y². -/
theorem outA_5_eq (c : Dev nD) (i : grid1.Coords) (arg2 : Memref sig .tc .vmem S1x4096x128 .f32) (harg2 : arg2.IsWhole) (arg3 : Memref sig .tc .vmem S1x1x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (hc0 : Reg1.condFirst i)
    (x0 : Vec F S1x4096x128 .f32) (x1 : Vec F S1x1x128 .f32) (x2 : Vec F S128x128 .bf16) (x3 : Vec F S128 .f32) :
    Reg1.outA_5 c i arg2 harg2 arg3 harg3 arg4 harg4 arg5 harg5 arg6 harg6 arg7 harg7 hc0 x0 x1 x2 x3 = k1_pay5 x0 x1 x2 x3 (k1_pay2 (F := F)) := by
  unfold Reg1.outA_5
  rw [View.read_writes_eq_canon _ _ _ (Reg1.coverA_5 c i arg2 harg2 arg3 harg3 arg4 harg4 arg5 harg5 arg6 harg6 arg7 harg7 hc0 x0 x1 x2 x3)]
  unfold Reg1.runFirst
  dsimp only
  sl_unfold_words
  rw [View.canon_cons_unit_zero (S := S128) hz1, View.readCov_unit_zero (S := S128) _ hz1]
  simp only [View.readAt_eq_ld, harg2.read_unread, harg3.read_unread, harg4.read_unread, harg5.read_unread,
    View.ld_unit_zero (S := S1x4096x128) hz3, View.ld_unit_zero (S := S1x1x128) hz3, View.ld_unit_zero (S := S128x128) hz2, View.ld_unit_zero (S := S128) hz1]

end Pieces

/-! ## The body's arithmetic at an index, over the extended reals -/

/-- A [1, 1, a] array cast to [a] reads, at i, the operand at (0, 0, i). -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.add_zero, Nat.zero_add])

/-- The matrix unit's operand indices: row r of the left operand against column col of the right, along the one contracted axis. -/
theorem lhs_dot_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_dot_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_dot_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_dot_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The matrix product into the zero accumulator, at (r, col): the sum over the contracted axis of the products. -/
theorem matmul_zero_apply (l : FVec Ideal S4096x128 .bf16) (w : FVec Ideal S128x128 .bf16) (r : Fin 4096) (col : Fin 128) :
    matmul dot_S4096x128_S128x128_S4096x128_1_0_0_1_n_n none l w (constant (F := Ideal) S4096x128 .f32 0x00000000#32) (ix2 r col)
      = ∑ f : Fin 128, l (ix2 r f) * w (ix2 f col) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r col) ((contrEquiv1 dot_S4096x128_S128x128_S4096x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S4096x128_S128x128_S4096x128_1_0_0_1_n_n.rhsIdx (ix2 r col) ((contrEquiv1 dot_S4096x128_S128x128_S4096x128_1_0_0_1_n_n 128 rfl rfl).symm k) = ix2 k col := funext fun a => Fin.ext (by
    match a with
    | ⟨0, _⟩ => exact (rhs_dot_0 _ _).trans hk
    | ⟨1, _⟩ => exact rhs_dot_1 _ _)
  rw [el, er]

/-- A column sum of a [4096, 128] block, at column col: the sum over the rows. -/
theorem colsum_apply (src : FVec Ideal S4096x128 .f32) (hφ : FKind.Formats .f32)
    (hacc : (0x00000000#32 : BitVec 32) = FKind.add.neutral .f32 hφ) (col : Fin 128) :
    multiReduction .add [0] S128 src 0x00000000#32 reduces_S4096x128_S128 hφ hacc (ix1 col) = ∑ r : Fin 4096, src (ix2 r col) := by
  refine (Ideal.multiReduction_add_single src 0x00000000#32 reduces_S4096x128_S128 hφ hacc (ix1 col)).trans ?_
  refine Finset.sum_congr rfl fun r _ => congrArg src ?_
  funext a
  match a with
  | ⟨0, _⟩ => rfl
  | ⟨1, _⟩ => rfl

/-- y on a tile, at (r, col): the rescaled features' row r times the weights' column col, plus the bias. -/
theorem pay3_apply (x0 : FVec Ideal S1x4096x128 .f32) (x1 : FVec Ideal S1x1x128 .f32) (x2 : FVec Ideal S128x128 .bf16) (x3 : FVec Ideal S128 .f32)
    (r : Fin 4096) (col : Fin 128) :
    k1_pay3 (F := Ideal) x0 x1 x2 x3 (ix2 r col)
      = (∑ f : Fin 128, (x0 (ix3 (0 : Fin 1) r f) * x1 (ix3 (0 : Fin 1) (0 : Fin 1) f)) * x2 (ix2 f col)) + x3 (ix1 col) := by
  unfold k1_pay3
  refine (addf_apply _ _ _).trans ?_
  refine congrArg₂ (· + ·) ?_ ?_
  · refine (matmul_zero_apply _ _ r col).trans ?_
    refine Finset.sum_congr rfl fun f _ => ?_
    refine congrArg₂ (· * ·) ?_ ?_
    · refine (truncf_apply (ψ := .bf16) (φ := .f32) _ bitsLt_bf16_f32 (ix2 r f)).trans ?_
      refine (mulf_apply _ _ _).trans ?_
      refine congrArg₂ (· * ·) ?_ ?_
      · exact shapeCast_1ab_ab_apply x0 _ r f
      · refine (broadcastTo_1b_ab_apply _ _ r f).trans ?_
        refine (shapeCast_a_1a_apply _ _ (0 : Fin 1) f).trans ?_
        exact shapeCast_11a_a_apply x1 _ f
    · exact congrFun (shapeCast_self x2 _) (ix2 f col)
  · refine (broadcastTo_1b_ab_apply _ _ r col).trans ?_
    exact shapeCast_a_1a_apply x3 _ (0 : Fin 1) col

/-! ## The accumulating payloads at an index -/

/-- The zero block the first point stores reads 0 everywhere. -/
theorem pay1_apply (col : Fin 128) : (k1_pay1 (F := Ideal)) (ix1 col) = 0 := by
  unfold k1_pay1
  exact Ideal.ofBits_zero_f32
theorem pay2_apply (col : Fin 128) : (k1_pay2 (F := Ideal)) (ix1 col) = 0 := by
  unfold k1_pay2
  exact Ideal.ofBits_zero_f32

/-- The running sum of y after a point, at column col: what it held plus the tile's column sum of y. -/
theorem pay4_apply (x0 : FVec Ideal S1x4096x128 .f32) (x1 : FVec Ideal S1x1x128 .f32) (x2 : FVec Ideal S128x128 .bf16) (x3 : FVec Ideal S128 .f32)
    (acc : FVec Ideal S128 .f32) (col : Fin 128) :
    k1_pay4 (F := Ideal) x0 x1 x2 x3 acc (ix1 col) = acc (ix1 col) + ∑ r : Fin 4096, k1_pay3 (F := Ideal) x0 x1 x2 x3 (ix2 r col) := by
  unfold k1_pay4
  refine (addf_apply _ _ _).trans ?_
  refine congrArg₂ (· + ·) ?_ ?_
  · exact congrFun (shapeCast_self acc _) (ix1 col)
  · exact colsum_apply _ _ _ col

/-- The running sum of y² likewise. -/
theorem pay5_apply (x0 : FVec Ideal S1x4096x128 .f32) (x1 : FVec Ideal S1x1x128 .f32) (x2 : FVec Ideal S128x128 .bf16) (x3 : FVec Ideal S128 .f32)
    (acc : FVec Ideal S128 .f32) (col : Fin 128) :
    k1_pay5 (F := Ideal) x0 x1 x2 x3 acc (ix1 col)
      = acc (ix1 col) + ∑ r : Fin 4096, k1_pay3 (F := Ideal) x0 x1 x2 x3 (ix2 r col) * k1_pay3 (F := Ideal) x0 x1 x2 x3 (ix2 r col) := by
  unfold k1_pay5
  refine (addf_apply _ _ _).trans ?_
  refine congrArg₂ (· + ·) ?_ ?_
  · exact congrFun (shapeCast_self acc _) (ix1 col)
  · refine (colsum_apply _ _ _ col).trans ?_
    exact Finset.sum_congr rfl fun r _ => mulf_apply _ _ _

/-! ## The input blocks as parts of their arrays -/

variable (V : (c : Dev nD) → (b : Ref sig .tc) → Buf (Elt Ideal) ((c : Thread nD τ).loc b))

/-- A grid point as a number below 96. -/
def pt (t : Fin cfg1.N) : Fin 96 := ⟨t.val, lt_of_lt_of_eq t.isLt N_1⟩

/-- The printed index maps, decided over the grid: the tile of x is block (batch, tile, 0), the reciprocal masses' block
    (batch, 0, 0), every other block has index 0. -/
theorem idx_facts : ∀ t : Fin cfg1.N, win1_0.index t (0 : Fin 3) = t.val / 6 ∧ win1_0.index t (1 : Fin 3) = t.val % 6 ∧ win1_0.index t (2 : Fin 3) = 0
    ∧ win1_1.index t (0 : Fin 3) = t.val / 6 ∧ win1_1.index t (1 : Fin 3) = 0 ∧ win1_1.index t (2 : Fin 3) = 0
    ∧ win1_2.index t (0 : Fin 2) = 0 ∧ win1_2.index t (1 : Fin 2) = 0
    ∧ win1_3.index t (0 : Fin 1) = 0 :=
  (by decide +kernel : ∀ t : Fin grid1.N, _)

/-- Row r, feature f of the tile of x at point t is x at (batch, 4096·tile + r, f). -/
theorem xblk_apply (c : Dev nD) (t : Fin cfg1.N) (r : Fin 4096) (f : Fin 128) :
    (Reg1.iblk V c 0 t : FVec Ideal S1x4096x128 .f32) (ix3 (0 : Fin 1) r f)
      = (V c main_v3 : FVec Ideal S16x24576x128 .f32) (ix3 (Spec.ptB (pt t)) (Spec.tile (Spec.ptK (pt t)) r) f) := by
  obtain ⟨e0, e1, e2, -⟩ := idx_facts t
  unfold Reg1.iblk
  rw [View.read_apply]
  show V c main_v3 _ = V c main_v3 _
  congr 1
  funext a
  apply Fin.ext
  match a with
  | ⟨0, _⟩ => show win1_0.index t 0 * 1 + 1 * 0 = t.val / 6; rw [e0]; omega
  | ⟨1, _⟩ => show win1_0.index t 1 * 4096 + 1 * r.val = 4096 * (t.val % 6) + r.val; rw [e1]; omega
  | ⟨2, _⟩ => show win1_0.index t 2 * 128 + 1 * f.val = f.val; rw [e2]; omega

/-- Feature f of the reciprocal masses' block at point t is the array at (batch, 0, f). -/
theorem ivblk_apply (c : Dev nD) (t : Fin cfg1.N) (f : Fin 128) :
    (Reg1.iblk V c 1 t : FVec Ideal S1x1x128 .f32) (ix3 (0 : Fin 1) (0 : Fin 1) f)
      = (V c main_v8 : FVec Ideal S16x1x128 .f32) (ix3 (Spec.ptB (pt t)) (0 : Fin 1) f) := by
  obtain ⟨-, -, -, e0, e1, e2, -⟩ := idx_facts t
  unfold Reg1.iblk
  rw [View.read_apply]
  show V c main_v8 _ = V c main_v8 _
  congr 1
  funext a
  apply Fin.ext
  match a with
  | ⟨0, _⟩ => show win1_1.index t 0 * 1 + 1 * 0 = t.val / 6; rw [e0]; omega
  | ⟨1, _⟩ => show win1_1.index t 1 * 1 + 1 * 0 = 0; rw [e1]
  | ⟨2, _⟩ => show win1_1.index t 2 * 128 + 1 * f.val = f.val; rw [e2]; omega

/-- The weights' block is the whole array. -/
theorem wblk_apply (c : Dev nD) (t : Fin cfg1.N) (f : Fin 128) (col : Fin 128) :
    (Reg1.iblk V c 2 t : FVec Ideal S128x128 .bf16) (ix2 f col) = (V c main_v9 : FVec Ideal S128x128 .bf16) (ix2 f col) := by
  obtain ⟨-, -, -, -, -, -, e0, e1, -⟩ := idx_facts t
  unfold Reg1.iblk
  rw [View.read_apply]
  show V c main_v9 _ = V c main_v9 _
  congr 1
  funext a
  apply Fin.ext
  match a with
  | ⟨0, _⟩ => show win1_2.index t 0 * 128 + 1 * f.val = f.val; rw [e0]; omega
  | ⟨1, _⟩ => show win1_2.index t 1 * 128 + 1 * col.val = col.val; rw [e1]; omega

/-- The bias's block is the whole array. -/
theorem bblk_apply (c : Dev nD) (t : Fin cfg1.N) (col : Fin 128) :
    (Reg1.iblk V c 3 t : FVec Ideal S128 .f32) (ix1 col) = (V c main_arg3 : FVec Ideal S128 .f32) (ix1 col) := by
  obtain ⟨-, -, -, -, -, -, -, -, e0⟩ := idx_facts t
  unfold Reg1.iblk
  rw [View.read_apply]
  show V c main_arg3 _ = V c main_arg3 _
  congr 1
  funext a
  apply Fin.ext
  match a with
  | ⟨0, _⟩ => show win1_3.index t 0 * 128 + 1 * col.val = col.val; rw [e0]; omega

/-! ## The specification's y on a tile -/

/-- y of the arrays as the region finds them. -/
def ySpec (c : Dev nD) : Spec.X3 :=
  Spec.yK (Spec.curry3 (n0 := 16) (n1 := 24576) (n2 := 128) (V c main_v3)) (Spec.curryD (V c main_v8)) (Spec.curry2 (n0 := 128) (n1 := 128) (V c main_v9)) (Spec.curry1 (n := 128) (V c main_arg3))

/-- The body's y at point t, row r, column col is the specification's y at (batch, 4096·tile + r, col). -/
theorem pay3_blocks (c : Dev nD) (t : Fin cfg1.N) (r : Fin 4096) (col : Fin 128) :
    k1_pay3 (F := Ideal) (Reg1.iblk V c 0 t) (Reg1.iblk V c 1 t) (Reg1.iblk V c 2 t) (Reg1.iblk V c 3 t) (ix2 r col)
      = ySpec V c (Spec.ptB (pt t)) (Spec.tile (Spec.ptK (pt t)) r) col := by
  refine (pay3_apply (Reg1.iblk V c 0 t) (Reg1.iblk V c 1 t) (Reg1.iblk V c 2 t) (Reg1.iblk V c 3 t) r col).trans ?_
  unfold ySpec Spec.yK Spec.curry3 Spec.curryD Spec.curry2 Spec.curry1
  refine congrArg₂ (· + ·) ?_ (bblk_apply V c t col)
  refine Finset.sum_congr rfl fun f _ => ?_
  exact congrArg₂ (· * ·) (congrArg₂ (· * ·) (xblk_apply V c t r f) (ivblk_apply V c t f)) (wblk_apply V c t f col)

/-! ## The running sums, point by point -/

/-- What point k adds to the running sum of y at column col (nothing past the grid), and to the running sum of y². -/
def ptSum (c : Dev nD) (k : ℕ) (col : Fin 128) : EReal :=
  if h : k < 96 then ∑ r : Fin 4096, ySpec V c (Spec.ptB ⟨k, h⟩) (Spec.tile (Spec.ptK ⟨k, h⟩) r) col else 0
def ptSumSq (c : Dev nD) (k : ℕ) (col : Fin 128) : EReal :=
  if h : k < 96 then ∑ r : Fin 4096, ySpec V c (Spec.ptB ⟨k, h⟩) (Spec.tile (Spec.ptK ⟨k, h⟩) r) col * ySpec V c (Spec.ptB ⟨k, h⟩) (Spec.tile (Spec.ptK ⟨k, h⟩) r) col else 0

/-- The tile's column sum of the body's y at point t is what the point adds. -/
theorem tile_sum (c : Dev nD) (t : Fin cfg1.N) (col : Fin 128) :
    ∑ r : Fin 4096, k1_pay3 (F := Ideal) (Reg1.iblk V c 0 t) (Reg1.iblk V c 1 t) (Reg1.iblk V c 2 t) (Reg1.iblk V c 3 t) (ix2 r col) = ptSum V c t.val col := by
  unfold ptSum
  rw [dif_pos (lt_of_lt_of_eq t.isLt N_1)]
  exact Finset.sum_congr rfl fun r _ => pay3_blocks V c t r col
theorem tile_sumSq (c : Dev nD) (t : Fin cfg1.N) (col : Fin 128) :
    ∑ r : Fin 4096, k1_pay3 (F := Ideal) (Reg1.iblk V c 0 t) (Reg1.iblk V c 1 t) (Reg1.iblk V c 2 t) (Reg1.iblk V c 3 t) (ix2 r col) * k1_pay3 (F := Ideal) (Reg1.iblk V c 0 t) (Reg1.iblk V c 1 t) (Reg1.iblk V c 2 t) (Reg1.iblk V c 3 t) (ix2 r col)
      = ptSumSq V c t.val col := by
  unfold ptSumSq
  rw [dif_pos (lt_of_lt_of_eq t.isLt N_1)]
  exact Finset.sum_congr rfl fun r _ => congrArg₂ (· * ·) (pay3_blocks V c t r col) (pay3_blocks V c t r col)

/-- After point n the first output block holds the sum of y over the tiles of points 0..n, the second that of y². -/
theorem outsAt_eq (c : Dev nD) : ∀ (n : ℕ) (hn : n < cfg1.N) (col : Fin 128),
    (Reg1.outsAt V c n hn).1 (ix1 col) = ∑ k ∈ Finset.range (n + 1), ptSum V c k col
    ∧ (Reg1.outsAt V c n hn).2 (ix1 col) = ∑ k ∈ Finset.range (n + 1), ptSumSq V c k col
  | 0, hn, col => by
    constructor
    · rw [Reg1.outsAt_first_1 V c ⟨0, hn⟩ rfl, outA_4_eq]
      refine (pay4_apply (Reg1.iblk V c 0 ⟨0, hn⟩) (Reg1.iblk V c 1 ⟨0, hn⟩) (Reg1.iblk V c 2 ⟨0, hn⟩) (Reg1.iblk V c 3 ⟨0, hn⟩) (k1_pay1 (F := Ideal)) col).trans ?_
      rw [pay1_apply, zero_add, tile_sum V c ⟨0, hn⟩ col, Finset.sum_range_one]
    · rw [Reg1.outsAt_first_2 V c ⟨0, hn⟩ rfl, outA_5_eq]
      refine (pay5_apply (Reg1.iblk V c 0 ⟨0, hn⟩) (Reg1.iblk V c 1 ⟨0, hn⟩) (Reg1.iblk V c 2 ⟨0, hn⟩) (Reg1.iblk V c 3 ⟨0, hn⟩) (k1_pay2 (F := Ideal)) col).trans ?_
      rw [pay2_apply, zero_add, tile_sumSq V c ⟨0, hn⟩ col, Finset.sum_range_one]
  | n + 1, hn, col => by
    have ih := outsAt_eq c n (Nat.lt_of_succ_lt hn) col
    constructor
    · rw [Reg1.outsAt_next_1 V c ⟨n + 1, hn⟩ (Nat.succ_ne_zero n), outB_4_eq]
      refine (pay4_apply (Reg1.iblk V c 0 ⟨n + 1, hn⟩) (Reg1.iblk V c 1 ⟨n + 1, hn⟩) (Reg1.iblk V c 2 ⟨n + 1, hn⟩) (Reg1.iblk V c 3 ⟨n + 1, hn⟩) _ col).trans ?_
      rw [tile_sum V c ⟨n + 1, hn⟩ col, Finset.sum_range_succ _ (n + 1)]
      exact congrArg (· + ptSum V c (n + 1) col) ih.1
    · rw [Reg1.outsAt_next_2 V c ⟨n + 1, hn⟩ (Nat.succ_ne_zero n), outB_5_eq]
      refine (pay5_apply (Reg1.iblk V c 0 ⟨n + 1, hn⟩) (Reg1.iblk V c 1 ⟨n + 1, hn⟩) (Reg1.iblk V c 2 ⟨n + 1, hn⟩) (Reg1.iblk V c 3 ⟨n + 1, hn⟩) _ col).trans ?_
      rw [tile_sumSq V c ⟨n + 1, hn⟩ col, Finset.sum_range_succ _ (n + 1)]
      exact congrArg (· + ptSumSq V c (n + 1) col) ih.2

/-- Over the whole grid the points' additions are the specification's sums. -/
theorem sum_ptSum (c : Dev nD) (col : Fin 128) : ∑ k ∈ Finset.range 96, ptSum V c k col = Spec.sumK (ySpec V c) col := by
  unfold Spec.sumK
  rw [← Fin.sum_univ_eq_sum_range (fun k => ptSum V c k col) 96]
  refine Finset.sum_congr rfl fun t _ => ?_
  unfold ptSum
  rw [dif_pos t.isLt]
theorem sum_ptSumSq (c : Dev nD) (col : Fin 128) : ∑ k ∈ Finset.range 96, ptSumSq V c k col = Spec.sumSqK (ySpec V c) col := by
  unfold Spec.sumSqK
  rw [← Fin.sum_univ_eq_sum_range (fun k => ptSumSq V c k col) 96]
  refine Finset.sum_congr rfl fun t _ => ?_
  unfold ptSumSq
  rw [dif_pos t.isLt]

/-! ## From the blocks to the arrays -/

/-- The last point. -/
def tLast : Fin cfg1.N := ⟨95, by rw [show cfg1.N = 96 from N_1]; decide⟩

/-- After the last point the two output blocks hold the specification's sums. -/
theorem after_last (c : Dev nD) :
    (Reg1.outsAt V c tLast.val tLast.isLt).1 = Spec.arr1 (Spec.sumK (ySpec V c))
    ∧ (Reg1.outsAt V c tLast.val tLast.isLt).2 = Spec.arr1 (Spec.sumSqK (ySpec V c)) := by
  constructor
  · funext j
    obtain ⟨col, rfl⟩ : ∃ col : Fin 128, j = ix1 col := ⟨j 0, eq_ix1 j⟩
    refine ((outsAt_eq V c 95 tLast.isLt col).1).trans ?_
    exact sum_ptSum V c col
  · funext j
    obtain ⟨col, rfl⟩ : ∃ col : Fin 128, j = ix1 col := ⟨j 0, eq_ix1 j⟩
    refine ((outsAt_eq V c 95 tLast.isLt col).2).trans ?_
    exact sum_ptSumSq V c col

/-- The one write-back of each output block, after the last point, writes the block's contents: the block is the array. -/
theorem flushed4_eq (c : Dev nD) (t : Fin cfg1.N) (hf : (cfg1.win 4).flush t = true) :
    (Reg1.dat V c).flushed 4 t = ((cfg1.win 4).blk t).view.read (Elt Ideal) (Spec.arr1 (Spec.sumK (ySpec V c))) := by
  have hN : cfg1.N = 96 := N_1
  have h95 : t.val = 95 := by have := (flush1_4 t).mp hf; have := t.isLt; omega
  obtain rfl : t = tLast := Fin.ext h95
  show (cfg1.win 4).cut (grid1.coords tLast) ((Reg1.dat V c).after 4 tLast) = _
  rw [Reg1.after_4, (after_last V c).1]
  have hz' : (fun a => win1_4.index tLast a * main_v10_0.ty.shape.size a) = fun _ => 0 := funext fun a => by fin_cases a; decide +kernel
  exact (Memref.read_access_unit_zero (Elt Ideal) main_v10_0 hz' (fun a => by rw [congrFun hz' a]; simp) (Spec.arr1 (Spec.sumK (ySpec V c)))).symm
theorem flushed5_eq (c : Dev nD) (t : Fin cfg1.N) (hf : (cfg1.win 5).flush t = true) :
    (Reg1.dat V c).flushed 5 t = ((cfg1.win 5).blk t).view.read (Elt Ideal) (Spec.arr1 (Spec.sumSqK (ySpec V c))) := by
  have hN : cfg1.N = 96 := N_1
  have h95 : t.val = 95 := by have := (flush1_5 t).mp hf; have := t.isLt; omega
  obtain rfl : t = tLast := Fin.ext h95
  show (cfg1.win 5).cut (grid1.coords tLast) ((Reg1.dat V c).after 5 tLast) = _
  rw [Reg1.after_5, (after_last V c).2]
  have hz' : (fun a => win1_5.index tLast a * main_v10_1.ty.shape.size a) = fun _ => 0 := funext fun a => by fin_cases a; decide +kernel
  exact (Memref.read_access_unit_zero (Elt Ideal) main_v10_1 hz' (fun a => by rw [congrFun hz' a]; simp) (Spec.arr1 (Spec.sumSqK (ySpec V c)))).symm

/-- The last point's block covers each output array. -/
theorem cover4 (i : S128.Idx) : ∃ t : Fin cfg1.N, (cfg1.win 4).flush t = true ∧ i ∈ ((cfg1.win 4).blk t).view.set :=
  ⟨tLast, (flush1_4 tLast).mpr rfl, by
    show i ∈ ((View.whole main_v10_0).slice (win1_4.rect tLast)).set
    rw [View.set_slice_whole, Rect.mem_set_unit]
    intro a
    have h0 : (i 0 : Nat) < 128 := (i 0).isLt
    match a with
    | ⟨0, _⟩ => show win1_4.index tLast 0 * win1_4.size 0 ≤ (i 0 : Nat) ∧ (i 0 : Nat) < win1_4.index tLast 0 * win1_4.size 0 + win1_4.xsize (grid1.coords tLast) 0
                rw [show win1_4.index tLast 0 * win1_4.size 0 = 0 from by decide +kernel, show win1_4.xsize (grid1.coords tLast) 0 = 128 from by decide +kernel]; omega⟩
theorem cover5 (i : S128.Idx) : ∃ t : Fin cfg1.N, (cfg1.win 5).flush t = true ∧ i ∈ ((cfg1.win 5).blk t).view.set :=
  ⟨tLast, (flush1_5 tLast).mpr rfl, by
    show i ∈ ((View.whole main_v10_1).slice (win1_5.rect tLast)).set
    rw [View.set_slice_whole, Rect.mem_set_unit]
    intro a
    have h0 : (i 0 : Nat) < 128 := (i 0).isLt
    match a with
    | ⟨0, _⟩ => show win1_5.index tLast 0 * win1_5.size 0 ≤ (i 0 : Nat) ∧ (i 0 : Nat) < win1_5.index tLast 0 * win1_5.size 0 + win1_5.xsize (grid1.coords tLast) 0
                rw [show win1_5.index tLast 0 * win1_5.size 0 = 0 from by decide +kernel, show win1_5.xsize (grid1.coords tLast) 0 = 128 from by decide +kernel]; omega⟩

theorem sums (c : Dev nD) :
    (Reg1.dat V c).arrAt 4 cfg1.N = Spec.arr1 (Spec.sumK (Spec.yK (Spec.curry3 (n0 := 16) (n1 := 24576) (n2 := 128) (V c main_v3)) (Spec.curryD (V c main_v8)) (Spec.curry2 (n0 := 128) (n1 := 128) (V c main_v9)) (Spec.curry1 (n := 128) (V c main_arg3))))
    ∧ (Reg1.dat V c).arrAt 5 cfg1.N = Spec.arr1 (Spec.sumSqK (Spec.yK (Spec.curry3 (n0 := 16) (n1 := 24576) (n2 := 128) (V c main_v3)) (Spec.curryD (V c main_v8)) (Spec.curry2 (n0 := 128) (n1 := 128) (V c main_v9)) (Spec.curry1 (n := 128) (V c main_arg3)))) :=
  ⟨(Reg1.dat V c).arrAt_eq_of_cover 4 (Spec.arr1 (Spec.sumK (ySpec V c))) (flushed4_eq V c) cover4,
   (Reg1.dat V c).arrAt_eq_of_cover 5 (Spec.arr1 (Spec.sumSqK (ySpec V c))) (flushed5_eq V c) cover5⟩

end Cert.KernelIdeal.Reg1Value

end
-- ==== Proof.K2Value.lean ====
/- Region 2's value at the exact reals: after the region the output array holds tanh (y · scale + shift), y the linear
   layer on the rescaled features as the region finds them. -/
import proofs.«147310_j32392643347009_1_alg».proof.Proof.K2Frame
import proofs.«147310_j32392643347009_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-! ## Layout -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A [1, 1, a] array cast to [a] reads, at i, the operand at (0, 0, i). -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- A row [a] laid over p rows: cast to [1, a], broadcast to [p, a]; at (r, c) it reads the row at c. -/
theorem row_apply {α : Type} (v : (⟨1, ![128]⟩ : Shape).Idx → α) (r : Fin 4096) (c : Fin 128) :
    broadcastTo S4096x128 (shapeCast S1x128 v shapeCasts_S128_S1x128) broadcasts_S1x128_S4096x128 (ix2 r c) = v (ix1 c) :=
  (broadcastTo_1b_ab_apply _ _ r c).trans (shapeCast_a_1a_apply v _ 0 c)

/-! ## The matrix product -/

theorem lhs_mm_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_mm_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_mm_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_mm_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The product into the zero accumulator, at (r, c): the sum over the 128 features of row r times column c. -/
theorem matmul_at (l : FVec Ideal S4096x128 .bf16) (w : FVec Ideal S128x128 .bf16) (r : Fin 4096) (c : Fin 128) :
    matmul dot_S4096x128_S128x128_S4096x128_1_0_0_1_n_n none l w (constant (F := Ideal) S4096x128 .f32 0x00000000#32) (ix2 r c)
      = ∑ k : Fin 128, l (ix2 r k) * w (ix2 k c) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r c) ((contrEquiv1 dot_S4096x128_S128x128_S4096x128_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S4096x128_S128x128_S4096x128_1_0_0_1_n_n.rhsIdx (ix2 r c) ((contrEquiv1 dot_S4096x128_S128x128_S4096x128_1_0_0_1_n_n 128 rfl rfl).symm k) = ix2 k c := funext fun a => Fin.ext (by
    match a with
    | ⟨0, _⟩ => exact (rhs_mm_0 _ _).trans hk
    | ⟨1, _⟩ => exact rhs_mm_1 _ _)
  rw [el, er]

/-! ## The body's payload at an index -/

/-- At (0, r, c) the stored value is tanh of the linear layer's row r, column c, scaled and shifted per channel. -/
theorem pay_apply (x0 : Vec Ideal S1x4096x128 .f32) (x1 : Vec Ideal S1x1x128 .f32) (x2 : Vec Ideal S128x128 .bf16)
    (x3 : Vec Ideal S128 .f32) (x4 : Vec Ideal S128 .f32) (x5 : Vec Ideal S128 .f32) (u : Fin 1) (r : Fin 4096) (c : Fin 128) :
    k2_pay1 (F := Ideal) x0 x1 x2 x3 x4 x5 (ix3 u r c)
      = Ideal.tanh (((∑ f : Fin 128, (x0 (ix3 (0 : Fin 1) r f) * x1 (ix3 (0 : Fin 1) (0 : Fin 1) f)) * x2 (ix2 f c)) + x3 (ix1 c)) * x4 (ix1 c) + x5 (ix1 c)) := by
  unfold k2_pay1
  refine (shapeCast_ab_1ab_apply _ _ u r c).trans ?_
  show Ideal.tanh ((matmul (F := Ideal) dot_S4096x128_S128x128_S4096x128_1_0_0_1_n_n none _ _ _ (ix2 r c) + broadcastTo S4096x128 (shapeCast S1x128 x3 shapeCasts_S128_S1x128) broadcasts_S1x128_S4096x128 (ix2 r c))
      * broadcastTo S4096x128 (shapeCast S1x128 (shapeCast S128 x4 shapeCasts_S128_S128) shapeCasts_S128_S1x128) broadcasts_S1x128_S4096x128 (ix2 r c)
      + broadcastTo S4096x128 (shapeCast S1x128 (shapeCast S128 x5 shapeCasts_S128_S128) shapeCasts_S128_S1x128) broadcasts_S1x128_S4096x128 (ix2 r c)) = _
  rw [row_apply, shapeCast_self, shapeCast_self, row_apply, row_apply, shapeCast_self, matmul_at]
  refine congrArg (fun s => Ideal.tanh ((s + x3 (ix1 c)) * x4 (ix1 c) + x5 (ix1 c))) (Finset.sum_congr rfl fun f _ => ?_)
  show (shapeCast S4096x128 x0 shapeCasts_S1x4096x128_S4096x128 (ix2 r f)
      * broadcastTo S4096x128 (shapeCast S1x128 (shapeCast S128 x1 shapeCasts_S1x1x128_S128) shapeCasts_S128_S1x128) broadcasts_S1x128_S4096x128 (ix2 r f)) * x2 (ix2 f c) = _
  rw [row_apply, shapeCast_1ab_ab_apply, shapeCast_11a_a_apply]

/-! ## From blocks to the array -/

/-- What the output array holds after the region, index by index. -/
abbrev G (c : Dev nD) : Vec Ideal S16x24576x128 .f32 :=
  Spec.arr3 (Spec.outK (Spec.yK (Spec.curry3 (n0 := 16) (n1 := 24576) (n2 := 128) (V c main_v3)) (Spec.curryD (V c main_v8)) (Spec.curry2 (n0 := 128) (n1 := 128) (V c main_v9)) (Spec.curry1 (n := 128) (V c main_arg3))) (Spec.curry1 (n := 128) (V c main_v20)) (Spec.curry1 (n := 128) (V c main_v22)))

/-- The block indices at point t = 6·batch + tile: the feature and output blocks sit at (batch, tile, 0), the reciprocal
    masses at (batch, 0, 0), the parameters at zero. -/
theorem idx_facts : ∀ t : Fin cfg2.N,
    win2_0.index t (0 : Fin 3) = t.val / 6 ∧ win2_0.index t (1 : Fin 3) = t.val % 6 ∧ win2_0.index t (2 : Fin 3) = 0
    ∧ win2_1.index t (0 : Fin 3) = t.val / 6 ∧ win2_1.index t (1 : Fin 3) = 0 ∧ win2_1.index t (2 : Fin 3) = 0
    ∧ win2_2.index t (0 : Fin 2) = 0 ∧ win2_2.index t (1 : Fin 2) = 0
    ∧ win2_3.index t (0 : Fin 1) = 0 ∧ win2_4.index t (0 : Fin 1) = 0 ∧ win2_5.index t (0 : Fin 1) = 0
    ∧ win2_6.index t (0 : Fin 3) = t.val / 6 ∧ win2_6.index t (1 : Fin 3) = t.val % 6 ∧ win2_6.index t (2 : Fin 3) = 0 :=
  (by decide +kernel : ∀ t : Fin grid2.N, _)

/-- The feature block at point t is rows 4096·tile … of batch's slab. -/
theorem iblk0_apply (c : Dev nD) (t : Fin cfg2.N) (b : Fin 16) (k : Fin 6) (hb : b.val = t.val / 6) (hk : k.val = t.val % 6)
    (u : Fin 1) (r : Fin 4096) (f : Fin 128) :
    (Reg2.iblk V c 0 t : Vec Ideal S1x4096x128 .f32) (ix3 u r f) = (V c main_v3 : Vec Ideal S16x24576x128 .f32) (ix3 b (Spec.tile k r) f) := by
  obtain ⟨e0, e1, e2, -⟩ := idx_facts t
  unfold Reg2.iblk
  rw [View.read_apply]
  show V c main_v3 _ = V c main_v3 _
  congr 1
  funext a
  apply Fin.ext
  match a with
  | ⟨0, _⟩ => show win2_0.index t (0 : Fin 3) * 1 + 1 * u.val = b.val; rw [e0, hb]; omega
  | ⟨1, _⟩ => show win2_0.index t (1 : Fin 3) * 4096 + 1 * r.val = 4096 * k.val + r.val; rw [e1, hk]; omega
  | ⟨2, _⟩ => show win2_0.index t (2 : Fin 3) * 128 + 1 * f.val = f.val; rw [e2]; omega

/-- The reciprocal masses' block at point t is batch's row. -/
theorem iblk1_apply (c : Dev nD) (t : Fin cfg2.N) (b : Fin 16) (hb : b.val = t.val / 6) (u v : Fin 1) (f : Fin 128) :
    (Reg2.iblk V c 1 t : Vec Ideal S1x1x128 .f32) (ix3 u v f) = (V c main_v8 : Vec Ideal S16x1x128 .f32) (ix3 b (0 : Fin 1) f) := by
  obtain ⟨-, -, -, e0, e1, e2, -⟩ := idx_facts t
  unfold Reg2.iblk
  rw [View.read_apply]
  show V c main_v8 _ = V c main_v8 _
  congr 1
  funext a
  apply Fin.ext
  match a with
  | ⟨0, _⟩ => show win2_1.index t (0 : Fin 3) * 1 + 1 * u.val = b.val; rw [e0, hb]; omega
  | ⟨1, _⟩ => show win2_1.index t (1 : Fin 3) * 1 + 1 * v.val = 0; rw [e1]; omega
  | ⟨2, _⟩ => show win2_1.index t (2 : Fin 3) * 128 + 1 * f.val = f.val; rw [e2]; omega

/-- The parameters' blocks are their whole arrays at every point. -/
theorem iblk2_apply (c : Dev nD) (t : Fin cfg2.N) (f cc : Fin 128) :
    (Reg2.iblk V c 2 t : Vec Ideal S128x128 .bf16) (ix2 f cc) = (V c main_v9 : Vec Ideal S128x128 .bf16) (ix2 f cc) := by
  obtain ⟨-, -, -, -, -, -, e0, e1, -⟩ := idx_facts t
  unfold Reg2.iblk
  rw [View.read_apply]
  show V c main_v9 _ = V c main_v9 _
  congr 1
  funext a
  apply Fin.ext
  match a with
  | ⟨0, _⟩ => show win2_2.index t (0 : Fin 2) * 128 + 1 * f.val = f.val; rw [e0]; omega
  | ⟨1, _⟩ => show win2_2.index t (1 : Fin 2) * 128 + 1 * cc.val = cc.val; rw [e1]; omega

theorem iblk3_apply (c : Dev nD) (t : Fin cfg2.N) (cc : Fin 128) :
    (Reg2.iblk V c 3 t : Vec Ideal S128 .f32) (ix1 cc) = (V c main_arg3 : Vec Ideal S128 .f32) (ix1 cc) := by
  obtain ⟨-, -, -, -, -, -, -, -, e0, -⟩ := idx_facts t
  unfold Reg2.iblk
  rw [View.read_apply]
  show V c main_arg3 _ = V c main_arg3 _
  congr 1
  funext a
  apply Fin.ext
  match a with
  | ⟨0, _⟩ => show win2_3.index t (0 : Fin 1) * 128 + 1 * cc.val = cc.val; rw [e0]; omega

theorem iblk4_apply (c : Dev nD) (t : Fin cfg2.N) (cc : Fin 128) :
    (Reg2.iblk V c 4 t : Vec Ideal S128 .f32) (ix1 cc) = (V c main_v20 : Vec Ideal S128 .f32) (ix1 cc) := by
  obtain ⟨-, -, -, -, -, -, -, -, -, e0, -⟩ := idx_facts t
  unfold Reg2.iblk
  rw [View.read_apply]
  show V c main_v20 _ = V c main_v20 _
  congr 1
  funext a
  apply Fin.ext
  match a with
  | ⟨0, _⟩ => show win2_4.index t (0 : Fin 1) * 128 + 1 * cc.val = cc.val; rw [e0]; omega

theorem iblk5_apply (c : Dev nD) (t : Fin cfg2.N) (cc : Fin 128) :
    (Reg2.iblk V c 5 t : Vec Ideal S128 .f32) (ix1 cc) = (V c main_v22 : Vec Ideal S128 .f32) (ix1 cc) := by
  obtain ⟨-, -, -, -, -, -, -, -, -, -, e0, -⟩ := idx_facts t
  unfold Reg2.iblk
  rw [View.read_apply]
  show V c main_v22 _ = V c main_v22 _
  congr 1
  funext a
  apply Fin.ext
  match a with
  | ⟨0, _⟩ => show win2_5.index t (0 : Fin 1) * 128 + 1 * cc.val = cc.val; rw [e0]; omega

/-- The payload of blocks that are the tile (b, k) of the arrays is the output function on that tile. -/
theorem pay_block (X : Vec Ideal S16x24576x128 .f32) (Dn : Vec Ideal S16x1x128 .f32) (W : Vec Ideal S128x128 .bf16)
    (B : Vec Ideal S128 .f32) (Sc : Vec Ideal S128 .f32) (Sh : Vec Ideal S128 .f32)
    (x0 : Vec Ideal S1x4096x128 .f32) (x1 : Vec Ideal S1x1x128 .f32) (x2 : Vec Ideal S128x128 .bf16)
    (x3 : Vec Ideal S128 .f32) (x4 : Vec Ideal S128 .f32) (x5 : Vec Ideal S128 .f32) (b : Fin 16) (k : Fin 6)
    (h0 : ∀ (r : Fin 4096) (f : Fin 128), x0 (ix3 (0 : Fin 1) r f) = X (ix3 b (Spec.tile k r) f))
    (h1 : ∀ f : Fin 128, x1 (ix3 (0 : Fin 1) (0 : Fin 1) f) = Dn (ix3 b (0 : Fin 1) f))
    (h2 : ∀ f cc : Fin 128, x2 (ix2 f cc) = W (ix2 f cc))
    (h3 : ∀ cc : Fin 128, x3 (ix1 cc) = B (ix1 cc)) (h4 : ∀ cc : Fin 128, x4 (ix1 cc) = Sc (ix1 cc))
    (h5 : ∀ cc : Fin 128, x5 (ix1 cc) = Sh (ix1 cc)) (u : Fin 1) (r : Fin 4096) (cc : Fin 128) :
    k2_pay1 (F := Ideal) x0 x1 x2 x3 x4 x5 (ix3 u r cc)
      = Spec.arr3 (Spec.outK (Spec.yK (Spec.curry3 (n0 := 16) (n1 := 24576) (n2 := 128) X) (Spec.curryD Dn) (Spec.curry2 (n0 := 128) (n1 := 128) W) (Spec.curry1 (n := 128) B)) (Spec.curry1 (n := 128) Sc) (Spec.curry1 (n := 128) Sh)) (ix3 b (Spec.tile k r) cc) := by
  rw [pay_apply, h3, h4, h5]
  show _ = Ideal.tanh (((∑ f : Fin 128, (X (ix3 b (Spec.tile k r) f) * Dn (ix3 b (0 : Fin 1) f)) * W (ix2 f cc)) + B (ix1 cc)) * Sc (ix1 cc) + Sh (ix1 cc))
  refine congrArg (fun s => Ideal.tanh ((s + B (ix1 cc)) * Sc (ix1 cc) + Sh (ix1 cc))) (Finset.sum_congr rfl fun f _ => ?_)
  rw [h0, h1, h2]

/-- What point t writes back is block t of the output function. -/
theorem flushed_eq (c : Dev nD) (t : Fin cfg2.N) :
    (Reg2.dat V c).flushed 6 t = ((cfg2.win 6).blk t).view.read (Elt Ideal) (G V c) := by
  have hN : cfg2.N = 96 := N_2
  have ht : t.val < 96 := lt_of_lt_of_eq t.isLt hN
  obtain ⟨-, -, -, -, -, -, -, -, -, -, -, e0, e1, e2⟩ := idx_facts t
  show (cfg2.win 6).cut (grid2.coords t) ((Reg2.dat V c).after 6 t) = _
  rw [Reg2.after6]
  unfold Reg2.out6
  rw [View.canon_unit_zero hz3]
  simp only [View.ld_unit_zero (S := S1x4096x128) hz3, View.ld_unit_zero (S := S1x1x128) hz3, View.ld_unit_zero (S := S128x128) hz2, View.ld_unit_zero (S := S128) hz1]
  refine funext fun (j : S1x4096x128.Idx) => ?_
  obtain ⟨u, r, cc, rfl⟩ : ∃ (u : Fin 1) (r : Fin 4096) (cc : Fin 128), j = ix3 u r cc := ⟨j 0, j 1, j 2, eq_ix3 j⟩
  have hemb : ((cfg2.win 6).blk t).view.emb (ix3 u r cc) = ix3 (⟨t.val / 6, by omega⟩ : Fin 16) (Spec.tile (⟨t.val % 6, by omega⟩ : Fin 6) r) cc := by
    funext a
    apply Fin.ext
    match a with
    | ⟨0, _⟩ => show win2_6.index t (0 : Fin 3) * 1 + 1 * u.val = t.val / 6; rw [e0]; omega
    | ⟨1, _⟩ => show win2_6.index t (1 : Fin 3) * 4096 + 1 * r.val = 4096 * (t.val % 6) + r.val; rw [e1]; omega
    | ⟨2, _⟩ => show win2_6.index t (2 : Fin 3) * 128 + 1 * cc.val = cc.val; rw [e2]; omega
  show k2_pay1 (F := Ideal) (Reg2.iblk V c 0 t) (Reg2.iblk V c 1 t) (Reg2.iblk V c 2 t) (Reg2.iblk V c 3 t) (Reg2.iblk V c 4 t) (Reg2.iblk V c 5 t) (ix3 u r cc)
    = G V c (((cfg2.win 6).blk t).view.emb (ix3 u r cc))
  rw [hemb]
  exact pay_block (V c main_v3) (V c main_v8) (V c main_v9) (V c main_arg3) (V c main_v20) (V c main_v22)
    (Reg2.iblk V c 0 t) (Reg2.iblk V c 1 t) (Reg2.iblk V c 2 t) (Reg2.iblk V c 3 t) (Reg2.iblk V c 4 t) (Reg2.iblk V c 5 t)
    (⟨t.val / 6, by omega⟩ : Fin 16) (⟨t.val % 6, by omega⟩ : Fin 6)
    (fun r f => iblk0_apply V c t _ _ rfl rfl 0 r f) (fun f => iblk1_apply V c t _ rfl 0 0 f) (fun f cc => iblk2_apply V c t f cc)
    (fun cc => iblk3_apply V c t cc) (fun cc => iblk4_apply V c t cc) (fun cc => iblk5_apply V c t cc) u r cc

/-- An index of the array is in point t's block iff each coordinate is in the block's range on its axis. -/
theorem mem_blk (t : Fin cfg2.N) (i : S16x24576x128.Idx) :
    i ∈ ((cfg2.win 6).blk t).view.set ↔ ∀ a : Fin 3, win2_6.index t a * S1x4096x128.size a ≤ (i a).val ∧ (i a).val < win2_6.index t a * S1x4096x128.size a + S1x4096x128.size a := by
  show i ∈ ((View.whole main_v23).slice (win2_6.rect t)).set ↔ _
  rw [View.set_slice_whole, Rect.mem_set_unit]
  exact Iff.rfl

/-- Every index (b, e, c) of the output is in the block of the point 6·b + e / 4096, and every point writes back. -/
theorem cover (i : S16x24576x128.Idx) : ∃ t : Fin cfg2.N, (cfg2.win 6).flush t = true ∧ i ∈ ((cfg2.win 6).blk t).view.set := by
  have h0 : (i 0).val < 16 := (i 0).isLt
  have h1 : (i 1).val < 24576 := (i 1).isLt
  have h2 : (i 2).val < 128 := (i 2).isLt
  have hN : cfg2.N = 96 := N_2
  obtain ⟨t, ht⟩ : ∃ t : Fin cfg2.N, t.val = 6 * (i 0).val + (i 1).val / 4096 := ⟨⟨6 * (i 0).val + (i 1).val / 4096, by rw [hN]; omega⟩, rfl⟩
  obtain ⟨-, -, -, -, -, -, -, -, -, -, -, e0, e1, e2⟩ := idx_facts t
  refine ⟨t, flush2_6 t, ?_⟩
  rw [mem_blk]
  intro a
  match a with
  | ⟨0, _⟩ => show win2_6.index t (0 : Fin 3) * 1 ≤ (i 0).val ∧ (i 0).val < win2_6.index t (0 : Fin 3) * 1 + 1; rw [e0, ht]; omega
  | ⟨1, _⟩ => show win2_6.index t (1 : Fin 3) * 4096 ≤ (i 1).val ∧ (i 1).val < win2_6.index t (1 : Fin 3) * 4096 + 4096; rw [e1, ht]; omega
  | ⟨2, _⟩ => show win2_6.index t (2 : Fin 3) * 128 ≤ (i 2).val ∧ (i 2).val < win2_6.index t (2 : Fin 3) * 128 + 128; rw [e2]; omega

/-! ## The region's value -/

theorem out (c : Dev nD) :
    (Reg2.dat V c).arrAt 6 cfg2.N = Spec.arr3 (Spec.outK (Spec.yK (Spec.curry3 (n0 := 16) (n1 := 24576) (n2 := 128) (V c main_v3)) (Spec.curryD (V c main_v8)) (Spec.curry2 (n0 := 128) (n1 := 128) (V c main_v9)) (Spec.curry1 (n := 128) (V c main_arg3))) (Spec.curry1 (n := 128) (V c main_v20)) (Spec.curry1 (n := 128) (V c main_v22))) := by
  exact (Reg2.dat V c).arrAt_eq_of_cover 6 (G V c) (fun t _ => flushed_eq V c t) cover

end Cert.KernelIdeal.Reg2Value

end
-- ==== Proof.RefStages.lean ====
/- The reference's @main as a few pure functions of its arguments, stage by stage: the gathered edge-pair features
   x (a row whose index is out of range after wrapping is filled with the NaN pattern), the linear layer y on the
   L1-normalized features, its mean and variance over batch and edge, and the normalized, squashed output. -/
import proofs.«147310_j32392643347009_1_alg».proof.Proof.Gen.ReferenceIdeal
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The flattened index pairs as a column [16, 49152, 1]. -/
def idxOf (a1 : IVec S16x24576x2 32) : IVec S16x49152x1 32 :=
  broadcastInDim S16x49152x1 ![0, 1] bcast_S16x49152_S16x49152x1_0_1 (shapeCast _ a1 shapeCasts_S16x24576x2_S16x49152)

/-- A negative index wrapped once by the axis length 2048. -/
def wrapOf (i : IVec S16x49152x1 32) : IVec S16x49152x1 32 :=
  select (cmpi .slt i (broadcastInDim S16x49152x1 ![] bcast_S_S16x49152x1 (constantI S_ 32 0#32)))
    (addi i (broadcastInDim S16x49152x1 ![] bcast_S_S16x49152x1 (constantI S_ 32 2048#32))) i

/-- Whether the wrapped index lies in 0..2047, per gathered row. -/
def inRangeOf (j : IVec S16x49152x1 32) : IVec S16x49152 1 :=
  Host.reduce IntOp.andi
    (andi (cmpi .sge j (broadcastInDim S16x49152x1 ![] bcast_S_S16x49152x1 (constantI S_ 32 0#32)))
      (cmpi .sle j (broadcastInDim S16x49152x1 ![0, 1, 2] bcast_S1x1x1_S16x49152x1_0_1_2 (broadcastInDim S1x1x1 ![2] bcast_S1_S1x1x1_2 (constantI S1 32 2047#32)))))
    (constantI S_ 1 1#1) reducesTo_S16x49152x1_S16x49152_d2 h_S_

/-- The gathered features, paired per edge: [16, 24576, 128]. -/
def xOf (a0 : FVec F S16x2048x64 .f32) (a1 : IVec S16x24576x2 32) : FVec F S16x24576x128 .f32 :=
  shapeCast _
    (select (broadcastInDim S16x49152x64 ![0, 1] bcast_S16x49152_S16x49152x64_0_1 (inRangeOf (wrapOf (idxOf a1))))
      (Host.gather gather_S16x2048x64_S16x49152x1_S16x49152x64_2_1_0_0_1_2_1164 a0 (wrapOf (idxOf a1)))
      (broadcastInDim S16x49152x64 ![] bcast_S_S16x49152x64 (constant S_ .f32 0x7FC00000#32)))
    shapeCasts_S16x49152x64_S16x24576x128

/-- A per-channel row broadcast over batch and edge. -/
def up (v : FVec F S128 .f32) : FVec F S16x24576x128 .f32 :=
  broadcastInDim S16x24576x128 ![0, 1, 2] bcast_S1x1x128_S16x24576x128_0_1_2 (broadcastInDim S1x1x128 ![2] bcast_S128_S1x1x128_2 v)

/-- The clamped L1 mass of each column, broadcast over the edge axis. -/
def massOf (x : FVec F S16x24576x128 .f32) : FVec F S16x24576x128 .f32 :=
  broadcastInDim S16x24576x128 ![0, 1, 2] bcast_S16x1x128_S16x24576x128_0_1_2
    (maximumf
      (broadcastInDim S16x1x128 ![0, 2] bcast_S16x128_S16x1x128_0_2
        (Host.reduceAdd (Host.absf x) (constant S_ .f32 0x00000000#32) reducesTo_S16x24576x128_S16x128_d1 h_S_))
      (broadcastInDim S16x1x128 ![] bcast_S_S16x1x128 (constant S_ .f32 0x2B8CBCCC#32)))

/-- The linear layer on the L1-normalized features. -/
def yOf (x : FVec F S16x24576x128 .f32) (w : FVec F S128x128 .f32) (bias : FVec F S128 .f32) : FVec F S16x24576x128 .f32 :=
  addf (Host.dotGeneral dot_S16x24576x128_S128x128_S16x24576x128_2_0_01_1_n_n none (Host.divf x (massOf x)) w) (up bias)

/-- The count 16 · 24576 as a row. -/
def cntRow : FVec F S128 .f32 := broadcastInDim S128 ![] bcast_S_S128 (constant S_ .f32 0x48C00000#32)

def meanOf (y : FVec F S16x24576x128 .f32) : FVec F S128 .f32 :=
  Host.divf (Host.reduceAdd y (constant S_ .f32 0x00000000#32) reducesTo_S16x24576x128_S128_d0_1 h_S_) cntRow

def varOf (y : FVec F S16x24576x128 .f32) : FVec F S128 .f32 :=
  Host.divf (Host.reduceAdd (mulf (subf y (up (meanOf y))) (subf y (up (meanOf y)))) (constant S_ .f32 0x00000000#32) reducesTo_S16x24576x128_S128_d0_1 h_S_) cntRow

def outOf (y : FVec F S16x24576x128 .f32) (g bt : FVec F S128 .f32) : FVec F S16x24576x128 .f32 :=
  Host.tanh (addf (mulf (mulf (subf y (up (meanOf y))) (up (Host.rsqrt (addf (varOf y) (broadcastInDim S128 ![] bcast_S_S128 (constant S_ .f32 0x3727C5AC#32)))))) (up g)) (up bt))

/-- The reference's result as one function of its six arguments. -/
def refTerm (a0 : FVec F S16x2048x64 .f32) (a1 : IVec S16x24576x2 32) (w : FVec F S128x128 .f32) (bias g bt : FVec F S128 .f32) : FVec F S16x24576x128 .f32 :=
  outOf (yOf (xOf a0 a1) w bias) g bt

end Cert.ReferenceIdeal.Stages

end
-- ==== Proof.HostValue.lean ====
/- What the kernel's host stretches compute between the regions: before region 0 the gathered features (the same
   function of the arguments as the reference's); between regions 0 and 1 the reciprocal of the clamped column masses
   and the weights (a change of float format: the identity at the exact reals); between regions 1 and 2 the mean, the
   variance as E[y²] - μ², and the per-channel scale γ·r and shift β - μ·(γ·r). -/
import proofs.«147310_j32392643347009_1_alg».proof.Proof.Gen.KernelIdeal.Regions
import proofs.«147310_j32392643347009_1_alg».proof.Proof.RefStages
import proofs.«147310_j32392643347009_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostValue

open Idealize.ShloMosaic Idealize.ShloMosaic.TcCoe Idealize.SL.Sem Idealize.ShloMosaic.ValueIdx
open Cert.KernelIdeal Cert.KernelIdeal.Gen

/-- Contents moved to a buffer's own type and back are unchanged. -/
theorem ofBuf_toBuf {σ : RefSig} {T : BufTy} {Val : EltTy → Type} (x : StableHlo.TRef σ T) (v : T.Contents Val) :
    x.ofBuf (x.toBuf v) = v := by
  obtain ⟨r, h, hd, hu⟩ := x
  subst h
  rfl

section Generic
variable {F : FTy → Type} [FloatOps F]
variable (m : (ℓ : Loc nD τ sig) → Buf (Elt F) ℓ)

section Stretches
variable (V : Valuation τ sig (Elt F))

/-- The first stretch: the index pairs flattened to a column. -/
theorem ops0_v1 :
    (StableHlo.after hostOps0 V (Proc.devRef .tc main_v1) : IVec S16x49152x1 32)
      = Cert.ReferenceIdeal.Stages.idxOf (V (Proc.devRef .tc main_arg1)) := by
  after_results; rfl

/-- The first stretch leaves the node features as they were. -/
theorem ops0_arg0 : StableHlo.after hostOps0 V (Proc.devRef .tc main_arg0) = V (Proc.devRef .tc main_arg0) :=
  StableHlo.after_of_writes_sub hostOps0 _ hostOps0_writes (r := main_arg0) (by decide)

/-- The gather's stretch: the index wrapped once, its range test per row, the gathered rows, and the fill of the
    rows out of range. -/
theorem ops01_v2 :
    (StableHlo.after hostOps0_1 V (Proc.devRef .tc main_v2) : FVec F S16x49152x64 .f32)
      = select (broadcastInDim S16x49152x64 ![0, 1] bcast_S16x49152_S16x49152x64_0_1
            (Cert.ReferenceIdeal.Stages.inRangeOf (Cert.ReferenceIdeal.Stages.wrapOf (V (Proc.devRef .tc main_v1)))))
          (Host.gather gather_S16x2048x64_S16x49152x1_S16x49152x64_2_1_0_0_1_2_1164 (V (Proc.devRef .tc main_arg0))
            (Cert.ReferenceIdeal.Stages.wrapOf (V (Proc.devRef .tc main_v1))))
          (broadcastInDim S16x49152x64 ![] bcast_S_S16x49152x64 (constant (F := F) S_ .f32 0x7FC00000#32)) := by
  after_results_simp
  simp only [ofBuf_toBuf]
  refine (cast_eq _ _).trans ?_
  rfl

/-- The last stretch before region 0: the gathered rows paired per edge. -/
theorem ops02_v3 :
    (StableHlo.after hostOps0_2 V (Proc.devRef .tc main_v3) : FVec F S16x24576x128 .f32)
      = shapeCast _ (V (Proc.devRef .tc main_v2) : FVec F S16x49152x64 .f32) shapeCasts_S16x49152x64_S16x24576x128 := by
  after_results; rfl

end Stretches

/-- The features region 0 finds are the reference's gathered features of the same arguments. -/
theorem x_eq (c : Dev nD) :
    V3 m c main_v3 = Cert.ReferenceIdeal.Stages.xOf (F := F) (m ((c : Thread nD τ).loc main_arg0)) (m ((c : Thread nD τ).loc main_arg1)) := by
  refine (ops02_v3 (V2 m c)).trans ?_
  refine (congrArg (fun v : FVec F S16x49152x64 .f32 => shapeCast S16x24576x128 v shapeCasts_S16x49152x64_S16x24576x128)
    (ops01_v2 (V1 m c))).trans ?_
  have h1 : (V1 m c (Proc.devRef .tc main_v1) : IVec S16x49152x1 32)
      = Cert.ReferenceIdeal.Stages.idxOf (V0 m c (Proc.devRef .tc main_arg1)) := ops0_v1 (V0 m c)
  have h0 : V1 m c (Proc.devRef .tc main_arg0) = V0 m c (Proc.devRef .tc main_arg0) := ops0_arg0 (V0 m c)
  rw [h1, h0]
  rfl

end Generic

/-! ## Between regions 0 and 1 -/

/-- The stretch between regions 0 and 1 at the reciprocal and at the weights, from any contents. -/
theorem ops1_v8 (V : Valuation τ sig (Elt Ideal)) :
    (StableHlo.after hostOps1 V (Proc.devRef .tc main_v8) : S16x1x128.Idx → EReal)
      = Host.divf (F := Ideal) (broadcastInDim S16x1x128 ![] bcast_S_S16x1x128 (constant (F := Ideal) S_ .f32 0x3F800000#32))
          (maximumf (F := Ideal) (V (Proc.devRef .tc main_v4))
            (broadcastInDim S16x1x128 ![] bcast_S_S16x1x128 (constant (F := Ideal) S_ .f32 0x2B8CBCCC#32))) := by
  after_results
theorem ops1_v9 (V : Valuation τ sig (Elt Ideal)) :
    (StableHlo.after hostOps1 V (Proc.devRef .tc main_v9) : S128x128.Idx → EReal)
      = truncf (F := Ideal) .bf16 (V (Proc.devRef .tc main_arg2) : FVec Ideal S128x128 .f32) bitsLt_bf16_f32 := by
  after_results

/-- One over the larger of the entry and ε₁, index by index. -/
theorem inv_val (d : FVec Ideal S16x1x128 .f32) :
    Host.divf (F := Ideal) (broadcastInDim S16x1x128 ![] bcast_S_S16x1x128 (constant (F := Ideal) S_ .f32 0x3F800000#32))
        (maximumf (F := Ideal) d (broadcastInDim S16x1x128 ![] bcast_S_S16x1x128 (constant (F := Ideal) S_ .f32 0x2B8CBCCC#32)))
      = Spec.arrD (Spec.invK (Spec.curryD d)) := by
  funext j
  obtain ⟨b, z, f, rfl⟩ : ∃ b z f, j = ix3 b z f := ⟨j 0, j 1, j 2, eq_ix3 j⟩
  have hz : z = 0 := Subsingleton.elim _ _
  subst hz
  simp only [Spec.arrD, Spec.invK, Spec.curryD, Host.divf, maximumf, broadcastInDim, constant, Ideal.hostDivf_def,
    Ideal.maximumf_def, Ideal.ofBits_def]

/-! ## Between regions 1 and 2 -/

/-- The operations between regions 1 and 2 as functions of the two sums and the parameters: a sum over the count,
    γ · rsqrt(E[y²] - μ² + ε₂), and β - μ · scale. -/
def meanT (s : FVec Ideal S128 .f32) : FVec Ideal S128 .f32 :=
  Host.divf (F := Ideal) s (broadcastInDim S128 ![] bcast_S_S128 (constant (F := Ideal) S_ .f32 0x48C00000#32))
def scaleT (g s s2 : FVec Ideal S128 .f32) : FVec Ideal S128 .f32 :=
  mulf (F := Ideal) g (Host.rsqrt (F := Ideal) (addf (F := Ideal) (subf (F := Ideal) (meanT s2) (mulf (F := Ideal) (meanT s) (meanT s)))
    (broadcastInDim S128 ![] bcast_S_S128 (constant (F := Ideal) S_ .f32 0x3727C5AC#32))))
def shiftT (g bt s s2 : FVec Ideal S128 .f32) : FVec Ideal S128 .f32 :=
  subf (F := Ideal) bt (mulf (F := Ideal) (meanT s) (scaleT g s s2))

theorem ops2_v20 (V : Valuation τ sig (Elt Ideal)) :
    (StableHlo.after hostOps2 V (Proc.devRef .tc main_v20) : S128.Idx → EReal)
      = scaleT (V (Proc.devRef .tc main_arg4)) (V (Proc.devRef .tc main_v10_0)) (V (Proc.devRef .tc main_v10_1)) := by
  after_results; rfl
theorem ops2_v22 (V : Valuation τ sig (Elt Ideal)) :
    (StableHlo.after hostOps2 V (Proc.devRef .tc main_v22) : S128.Idx → EReal)
      = shiftT (V (Proc.devRef .tc main_arg4)) (V (Proc.devRef .tc main_arg5)) (V (Proc.devRef .tc main_v10_0))
          (V (Proc.devRef .tc main_v10_1)) := by
  after_results_simp; rfl

theorem meanT_apply (s : FVec Ideal S128 .f32) (k : Fin 128) : meanT s (ix1 k) = Spec.meanK (Spec.curry1 (n := 128) s) k := by
  simp only [meanT, Spec.meanK, Spec.curry1, Host.divf, broadcastInDim, constant, Ideal.hostDivf_def, Ideal.ofBits_def]

theorem scaleT_eq (g s s2 : FVec Ideal S128 .f32) :
    scaleT g s s2 = Spec.arr1 (Spec.scaleK (Spec.curry1 (n := 128) g) (Spec.curry1 (n := 128) s) (Spec.curry1 (n := 128) s2)) := by
  funext j
  obtain ⟨k, rfl⟩ : ∃ k, j = ix1 k := ⟨j 0, eq_ix1 j⟩
  have h0 : (ix1 k : S128.Idx) 0 = k := rfl
  simp only [scaleT, Spec.arr1, Spec.scaleK, Spec.varK, Host.rsqrt, mulf_apply, addf_apply, subf_apply, meanT_apply, h0,
    Spec.curry1, broadcastInDim, constant, Ideal.hostUnary_rsqrt_def, Ideal.ofBits_def]
  rfl

theorem shiftT_eq (g bt s s2 : FVec Ideal S128 .f32) :
    shiftT g bt s s2 = Spec.arr1 (Spec.shiftK (Spec.curry1 (n := 128) g) (Spec.curry1 (n := 128) bt) (Spec.curry1 (n := 128) s)
      (Spec.curry1 (n := 128) s2)) := by
  funext j
  obtain ⟨k, rfl⟩ : ∃ k, j = ix1 k := ⟨j 0, eq_ix1 j⟩
  have h0 : (ix1 k : S128.Idx) 0 = k := rfl
  simp only [shiftT, Spec.arr1, Spec.shiftK, mulf_apply, subf_apply, meanT_apply, scaleT_eq, h0]
  rfl

variable (m : (ℓ : Loc nD τ sig) → Buf (Elt Ideal) ℓ) (outs : Outs (F := Ideal))

/-- Nothing before region 2 writes γ or β. -/
theorem V6_arg4 (c : Dev nD) : V6 m outs c main_arg4 = m ((c : Thread nD τ).loc main_arg4) :=
  (V6_of m outs c main_arg4 (by decide)).trans <| (V5_of m outs c main_arg4 (by decide)).trans <| (V4_of m outs c main_arg4 (by decide)).trans <| (V3_of m c main_arg4 (by decide)).trans <| (V2_of m c main_arg4 (by decide)).trans <| (V1_of m c main_arg4 (by decide)).trans rfl
theorem V6_arg5 (c : Dev nD) : V6 m outs c main_arg5 = m ((c : Thread nD τ).loc main_arg5) :=
  (V6_of m outs c main_arg5 (by decide)).trans <| (V5_of m outs c main_arg5 (by decide)).trans <| (V4_of m outs c main_arg5 (by decide)).trans <| (V3_of m c main_arg5 (by decide)).trans <| (V2_of m c main_arg5 (by decide)).trans <| (V1_of m c main_arg5 (by decide)).trans rfl

/-- After the stretch between regions 0 and 1: the reciprocal of the clamped masses region 0 left, and the weights. -/
theorem inv_eq (c : Dev nD) :
    V5 m outs c main_v8 = Spec.arrD (Spec.invK (Spec.curryD (V4 m outs c main_v4))) :=
  (ops1_v8 (V4 m outs c)).trans (inv_val _)
theorem w_eq (c : Dev nD) : (V5 m outs c main_v9 : S128x128.Idx → EReal) = m ((c : Thread nD τ).loc main_arg2) := by
  refine (ops1_v9 (V4 m outs c)).trans ?_
  funext j
  rw [truncf_apply]
  exact congrFun ((V4_of m outs c main_arg2 (by decide)).trans <| (V3_of m c main_arg2 (by decide)).trans <| (V2_of m c main_arg2 (by decide)).trans <| (V1_of m c main_arg2 (by decide)).trans rfl) j

/-- After the stretch between regions 1 and 2: the scale and the shift, from the two sums region 1 left. -/
theorem scale_eq (c : Dev nD) :
    V7 m outs c main_v20 = Spec.arr1 (Spec.scaleK (Spec.curry1 (n := 128) (m ((c : Thread nD τ).loc main_arg4)))
      (Spec.curry1 (n := 128) (V6 m outs c main_v10_0)) (Spec.curry1 (n := 128) (V6 m outs c main_v10_1))) := by
  refine (ops2_v20 (V6 m outs c)).trans ?_
  rw [scaleT_eq]
  exact congrArg (fun g : FVec Ideal S128 .f32 => Spec.arr1 (Spec.scaleK (Spec.curry1 (n := 128) g)
    (Spec.curry1 (n := 128) (V6 m outs c main_v10_0)) (Spec.curry1 (n := 128) (V6 m outs c main_v10_1)))) (V6_arg4 m outs c)
theorem shift_eq (c : Dev nD) :
    V7 m outs c main_v22 = Spec.arr1 (Spec.shiftK (Spec.curry1 (n := 128) (m ((c : Thread nD τ).loc main_arg4))) (Spec.curry1 (n := 128) (m ((c : Thread nD τ).loc main_arg5)))
      (Spec.curry1 (n := 128) (V6 m outs c main_v10_0)) (Spec.curry1 (n := 128) (V6 m outs c main_v10_1))) := by
  refine (ops2_v22 (V6 m outs c)).trans ?_
  rw [shiftT_eq]
  exact congrArg₂ (fun g bt : FVec Ideal S128 .f32 => Spec.arr1 (Spec.shiftK (Spec.curry1 (n := 128) g) (Spec.curry1 (n := 128) bt)
    (Spec.curry1 (n := 128) (V6 m outs c main_v10_0)) (Spec.curry1 (n := 128) (V6 m outs c main_v10_1)))) (V6_arg4 m outs c) (V6_arg5 m outs c)

end Cert.KernelIdeal.HostValue

end
-- ==== Proof.KValue.lean ====
/- The kernel program's result as one function of its arguments, at the exact reals: the result buffer after the run is
   the specification's `kernelOut` of the gathered features and the parameters. Read backwards through the run: region 2's
   output from the features, the reciprocal masses, the weights, the bias, the scale and the shift it finds; scale and shift
   from region 1's two sums; those from the features and the reciprocal masses; the reciprocal masses from region 0's
   column masses; the features from the gather. -/
import proofs.«147310_j32392643347009_1_alg».proof.Proof.Run
import proofs.«147310_j32392643347009_1_alg».proof.Proof.K0Value
import proofs.«147310_j32392643347009_1_alg».proof.Proof.K1Value
import proofs.«147310_j32392643347009_1_alg».proof.Proof.K2Value
import proofs.«147310_j32392643347009_1_alg».proof.Proof.HostValue

set_option maxRecDepth 16384

noncomputable section

namespace Cert.KernelIdeal.KValue

open Idealize.ShloMosaic Idealize.ShloMosaic.TcCoe Idealize.SL.Sem
open Cert.KernelIdeal Cert.KernelIdeal.Gen Cert.KernelIdeal.Run

variable (m : (ℓ : Loc nD τ sig) → Buf (Elt Ideal) ℓ)

/-- An array no host stretch writes and no region may change holds its launch contents at every boundary up to region 2's entry. -/
theorem keep7 (os : Outs (F := Ideal)) (c : Dev nD) (r : Ref sig .tc) (h0 : r ∉ hostOps0_W) (h1 : r ∉ hostOps0_1_W) (h2 : r ∉ hostOps0_2_W)
    (h3 : r ∉ ([main_v4] : List (Ref sig .tc))) (h4 : r ∉ hostOps1_W) (h5 : r ∉ ([main_v10_0, main_v10_1] : List (Ref sig .tc))) (h6 : r ∉ hostOps2_W) :
    V7 m os c r = m ((c : Thread nD τ).loc r) :=
  (V7_of m os c r h6).trans <| (V6_of m os c r h5).trans <| (V5_of m os c r h4).trans <| (V4_of m os c r h3).trans <|
    (V3_of m c r h2).trans <| (V2_of m c r h1).trans <| (V1_of m c r h0).trans rfl
theorem keep5 (os : Outs (F := Ideal)) (c : Dev nD) (r : Ref sig .tc) (h0 : r ∉ hostOps0_W) (h1 : r ∉ hostOps0_1_W) (h2 : r ∉ hostOps0_2_W)
    (h3 : r ∉ ([main_v4] : List (Ref sig .tc))) (h4 : r ∉ hostOps1_W) :
    V5 m os c r = m ((c : Thread nD τ).loc r) :=
  (V5_of m os c r h4).trans <| (V4_of m os c r h3).trans <| (V3_of m c r h2).trans <| (V2_of m c r h1).trans <| (V1_of m c r h0).trans rfl

/-- The gathered features as region 0 finds them. -/
abbrev xK (c : Dev nD) : Spec.X3 :=
  Spec.curry3 (n0 := 16) (n1 := 24576) (n2 := 128) (Cert.ReferenceIdeal.Stages.xOf (F := Ideal) (m ((c : Thread nD τ).loc main_arg0)) (m ((c : Thread nD τ).loc main_arg1)))

theorem result_eq (c : Dev nD) :
    V8 m (outs m) c main_v23
      = Spec.arr3 (Spec.kernelOut (xK m c) (Spec.curry2 (n0 := 128) (n1 := 128) (m ((c : Thread nD τ).loc main_arg2)))
          (Spec.curry1 (n := 128) (m ((c : Thread nD τ).loc main_arg3))) (Spec.curry1 (n := 128) (m ((c : Thread nD τ).loc main_arg4)))
          (Spec.curry1 (n := 128) (m ((c : Thread nD τ).loc main_arg5)))) := by
  -- the features at the three regions' entries
  have hx3 : E3 m c main_v3 = Cert.ReferenceIdeal.Stages.xOf (F := Ideal) (m ((c : Thread nD τ).loc main_arg0)) (m ((c : Thread nD τ).loc main_arg1)) :=
    HostValue.x_eq m c
  have hx5 : E5 m c main_v3 = E3 m c main_v3 :=
    (V5_of m (outsA m) c main_v3 (by decide)).trans (V4_of m (outsA m) c main_v3 (by decide))
  have hx7 : E7 m c main_v3 = E3 m c main_v3 :=
    (V7_of m (outsB m) c main_v3 (by decide)).trans <| (V6_of m (outsB m) c main_v3 (by decide)).trans <|
      (V5_of m (outsB m) c main_v3 (by decide)).trans (V4_of m (outsB m) c main_v3 (by decide))
  -- region 0's column masses, and their clamped reciprocals
  have hd : V4 m (outsA m) c main_v4 = Spec.arrD (Spec.denomK (Spec.curry3 (n0 := 16) (n1 := 24576) (n2 := 128) (E3 m c main_v3))) :=
    (hF0 m c 1).symm.trans (Reg0Value.denom (E3 m) c)
  have hi5 : E5 m c main_v8 = Spec.arrD (Spec.invK (Spec.curryD (V4 m (outsA m) c main_v4))) := HostValue.inv_eq m (outsA m) c
  have hi7 : E7 m c main_v8 = E5 m c main_v8 :=
    (V7_of m (outsB m) c main_v8 (by decide)).trans (V6_of m (outsB m) c main_v8 (by decide))
  -- the weights and the bias
  have hw5 : (E5 m c main_v9 : S128x128.Idx → EReal) = m ((c : Thread nD τ).loc main_arg2) := HostValue.w_eq m (outsA m) c
  have hw7 : E7 m c main_v9 = E5 m c main_v9 :=
    (V7_of m (outsB m) c main_v9 (by decide)).trans (V6_of m (outsB m) c main_v9 (by decide))
  have hb5 : E5 m c main_arg3 = m ((c : Thread nD τ).loc main_arg3) :=
    keep5 m (outsA m) c main_arg3 (by decide) (by decide) (by decide) (by decide) (by decide)
  have hb7 : E7 m c main_arg3 = m ((c : Thread nD τ).loc main_arg3) :=
    keep7 m (outsB m) c main_arg3 (by decide) (by decide) (by decide) (by decide) (by decide) (by decide) (by decide)
  -- region 1's sums, then the scale and the shift
  obtain ⟨hs, hs2⟩ := Reg1Value.sums (E5 m) c
  have hs6 : V6 m (outsB m) c main_v10_0 = _ := (hF1 m c 4).symm.trans hs
  have hs62 : V6 m (outsB m) c main_v10_1 = _ := (hF1 m c 5).symm.trans hs2
  have hsc : E7 m c main_v20 = _ := HostValue.scale_eq m (outsB m) c
  have hsh : E7 m c main_v22 = _ := HostValue.shift_eq m (outsB m) c
  -- region 2
  have ho := Reg2Value.out (E7 m) c
  refine ((hF2 m c 6).symm.trans ho).trans ?_
  rw [hx7, hi7, hw7, hb7, hsc, hsh, hs6, hs62, hx5, hi5, hw5, hb5, hd, hx3]
  rfl

end Cert.KernelIdeal.KValue

end
-- ==== Proof.RefValue.lean ====
/- The reference's stages read at the exact reals, index by index: its result is the specification's `refOut` of the
   gathered features and the parameters. -/
import proofs.«147310_j32392643347009_1_alg».proof.Proof.RefStages
import proofs.«147310_j32392643347009_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The host's elementwise operations at an index, at the exact reals. -/
theorem hostDivf_apply {s : Shape} (a b : FVec Ideal s .f32) (i : s.Idx) : Host.divf a b i = Ideal.div (a i) (b i) := rfl
theorem hostAbsf_apply {s : Shape} (a : FVec Ideal s .f32) (i : s.Idx) : Host.absf a i = Spec.absE (a i) := rfl
theorem hostRsqrt_apply {s : Shape} (a : FVec Ideal s .f32) (i : s.Idx) : Host.rsqrt a i = Ideal.rsqrt (a i) := rfl
theorem hostTanh_apply {s : Shape} (a : FVec Ideal s .f32) (i : s.Idx) : Host.tanh a i = Ideal.tanh (a i) := rfl

/-- A per-channel row broadcast over batch and edge reads the row at the channel. -/
theorem up_apply (v : FVec Ideal S128 .f32) (b : Fin 16) (e : Fin 24576) (c : Fin 128) :
    Stages.up (F := Ideal) v (ix3 b e c) = v (ix1 c) := by
  unfold Stages.up
  rw [broadcastInDim_apply _ bcast_S1x1x128_S16x24576x128_0_1_2 _ (ix3 b e c) (ix3 (0 : Fin 1) (0 : Fin 1) c) (fun a => match a with
    | ⟨0, _⟩ => by show 0 = if (1 : Nat) = 1 then 0 else b.val; rw [if_pos rfl]
    | ⟨1, _⟩ => by show 0 = if (1 : Nat) = 1 then 0 else e.val; rw [if_pos rfl]
    | ⟨2, _⟩ => by show c.val = if (128 : Nat) = 1 then 0 else c.val; rw [if_neg (by decide)])]
  exact broadcastInDim_apply _ bcast_S128_S1x1x128_2 v (ix3 (0 : Fin 1) (0 : Fin 1) c) (ix1 c) (fun a => match a with
    | ⟨0, _⟩ => by show c.val = if (128 : Nat) = 1 then 0 else c.val; rw [if_neg (by decide)])

/-- The host's sum over the edge axis from the initial value zero, read at (b, f): the sum over the edges. -/
theorem sumEdge_apply (y : FVec Ideal S16x24576x128 .f32) (b : Fin 16) (f : Fin 128) :
    Host.reduceAdd (F := Ideal) y (constant S_ .f32 0x00000000#32) reducesTo_S16x24576x128_S16x128_d1 h_S_ (ix2 b f)
      = ∑ e : Fin 24576, y (ix3 b e f) := by
  simp only [Host.reduceAdd, Ideal.hostReduceAdd_def]
  rw [Ideal.hostReduceAdd_single reducesTo_S16x24576x128_S16x128_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl | ⟨2, _⟩ => rfl))

/-- The clamped L1 mass read at (b, e, f): the larger of the column's mass and ε₁. -/
theorem massOf_apply (x : FVec Ideal S16x24576x128 .f32) (b : Fin 16) (e : Fin 24576) (f : Fin 128) :
    Stages.massOf (F := Ideal) x (ix3 b e f) = max (∑ e' : Fin 24576, Spec.absE (x (ix3 b e' f))) Spec.eps1 := by
  unfold Stages.massOf
  rw [broadcastInDim_apply _ bcast_S16x1x128_S16x24576x128_0_1_2 _ (ix3 b e f) (ix3 b (0 : Fin 1) f) (fun a => match a with
    | ⟨0, _⟩ => by show b.val = if (16 : Nat) = 1 then 0 else b.val; rw [if_neg (by decide)]
    | ⟨1, _⟩ => by show 0 = if (1 : Nat) = 1 then 0 else e.val; rw [if_pos rfl]
    | ⟨2, _⟩ => by show f.val = if (128 : Nat) = 1 then 0 else f.val; rw [if_neg (by decide)])]
  rw [maximumf_apply]
  rw [broadcastInDim_apply _ bcast_S16x128_S16x1x128_0_2 _ (ix3 b (0 : Fin 1) f) (ix2 b f) (fun a => match a with
    | ⟨0, _⟩ => by show b.val = if (16 : Nat) = 1 then 0 else b.val; rw [if_neg (by decide)]
    | ⟨1, _⟩ => by show f.val = if (128 : Nat) = 1 then 0 else f.val; rw [if_neg (by decide)])]
  rw [broadcastInDim_apply _ bcast_S_S16x1x128 _ (ix3 b (0 : Fin 1) f) ix0 (fun a => a.elim0)]
  rw [sumEdge_apply]
  rfl

/-- The dot's operand indices at output index i and contraction index q, coordinate by coordinate. -/
theorem dot_lhs0 (i : S16x24576x128.Idx) (q : dot_S16x24576x128_S128x128_S16x24576x128_2_0_01_1_n_n.contr.Idx) :
    (dot_S16x24576x128_S128x128_S16x24576x128_2_0_01_1_n_n.lhsIdx i q 0).val = (i 0).val := by
  unfold DotDims.lhsIdx
  rw [dif_neg (show ¬(0 : Fin S16x24576x128.rank) ∈ dot_S16x24576x128_S128x128_S16x24576x128_2_0_01_1_n_n.lhsBatch by decide),
    dif_pos (show (0 : Fin S16x24576x128.rank) ∈ dot_S16x24576x128_S128x128_S16x24576x128_2_0_01_1_n_n.lhsNonContracting by decide)]
  rfl
theorem dot_lhs1 (i : S16x24576x128.Idx) (q : dot_S16x24576x128_S128x128_S16x24576x128_2_0_01_1_n_n.contr.Idx) :
    (dot_S16x24576x128_S128x128_S16x24576x128_2_0_01_1_n_n.lhsIdx i q 1).val = (i 1).val := by
  unfold DotDims.lhsIdx
  rw [dif_neg (show ¬(1 : Fin S16x24576x128.rank) ∈ dot_S16x24576x128_S128x128_S16x24576x128_2_0_01_1_n_n.lhsBatch by decide),
    dif_pos (show (1 : Fin S16x24576x128.rank) ∈ dot_S16x24576x128_S128x128_S16x24576x128_2_0_01_1_n_n.lhsNonContracting by decide)]
  rfl
theorem dot_lhs2 (i : S16x24576x128.Idx) (q : dot_S16x24576x128_S128x128_S16x24576x128_2_0_01_1_n_n.contr.Idx) :
    (dot_S16x24576x128_S128x128_S16x24576x128_2_0_01_1_n_n.lhsIdx i q 2).val = (q ⟨0, by decide⟩).val :=
  dot_S16x24576x128_S128x128_S16x24576x128_2_0_01_1_n_n.lhsIdx_val_of_single rfl i q
theorem dot_rhs0 (i : S16x24576x128.Idx) (q : dot_S16x24576x128_S128x128_S16x24576x128_2_0_01_1_n_n.contr.Idx) :
    (dot_S16x24576x128_S128x128_S16x24576x128_2_0_01_1_n_n.rhsIdx i q 0).val = (q ⟨0, by decide⟩).val :=
  dot_S16x24576x128_S128x128_S16x24576x128_2_0_01_1_n_n.rhsIdx_val_of_single rfl i q
theorem dot_rhs1 (i : S16x24576x128.Idx) (q : dot_S16x24576x128_S128x128_S16x24576x128_2_0_01_1_n_n.contr.Idx) :
    (dot_S16x24576x128_S128x128_S16x24576x128_2_0_01_1_n_n.rhsIdx i q 1).val = (i 2).val := by
  unfold DotDims.rhsIdx
  rw [dif_neg (show ¬(1 : Fin S128x128.rank) ∈ dot_S16x24576x128_S128x128_S16x24576x128_2_0_01_1_n_n.rhsBatch by decide),
    dif_pos (show (1 : Fin S128x128.rank) ∈ dot_S16x24576x128_S128x128_S16x24576x128_2_0_01_1_n_n.rhsNonContracting by decide)]
  rfl

/-- The host's product with the weights, read at (b, e, c): the sum over the input channels. -/
theorem dot_apply (l : FVec Ideal S16x24576x128 .f32) (w : FVec Ideal S128x128 .f32) (b : Fin 16) (e : Fin 24576) (c : Fin 128) :
    Host.dotGeneral (F := Ideal) dot_S16x24576x128_S128x128_S16x24576x128_2_0_01_1_n_n none l w (ix3 b e c)
      = ∑ f : Fin 128, l (ix3 b e f) * w (ix2 f c) := by
  simp only [Host.dotGeneral]
  rw [Ideal.dotGeneral_apply, ← Equiv.sum_comp (contrEquiv1 dot_S16x24576x128_S128x128_S16x24576x128_2_0_01_1_n_n 128 rfl rfl).symm]
  refine Finset.sum_congr rfl fun k _ => ?_
  have hk := contrEquiv1_symm_val dot_S16x24576x128_S128x128_S16x24576x128_2_0_01_1_n_n 128 rfl rfl k
  have el : dot_S16x24576x128_S128x128_S16x24576x128_2_0_01_1_n_n.lhsIdx (ix3 b e c)
      ((contrEquiv1 dot_S16x24576x128_S128x128_S16x24576x128_2_0_01_1_n_n 128 rfl rfl).symm k) = ix3 b e k :=
    funext fun a => Fin.ext (by
      match a with
      | ⟨0, _⟩ => exact dot_lhs0 _ _
      | ⟨1, _⟩ => exact dot_lhs1 _ _
      | ⟨2, _⟩ => exact (dot_lhs2 _ _).trans hk)
  have er : dot_S16x24576x128_S128x128_S16x24576x128_2_0_01_1_n_n.rhsIdx (ix3 b e c)
      ((contrEquiv1 dot_S16x24576x128_S128x128_S16x24576x128_2_0_01_1_n_n 128 rfl rfl).symm k) = ix2 k c :=
    funext fun a => Fin.ext (by
      match a with
      | ⟨0, _⟩ => exact (dot_rhs0 _ _).trans hk
      | ⟨1, _⟩ => exact dot_rhs1 _ _)
  rw [el, er]

/-- The linear layer on the L1-normalized features, read at (b, e, c). -/
theorem yOf_apply (x : FVec Ideal S16x24576x128 .f32) (w : FVec Ideal S128x128 .f32) (bias : FVec Ideal S128 .f32)
    (b : Fin 16) (e : Fin 24576) (c : Fin 128) :
    Stages.yOf (F := Ideal) x w bias (ix3 b e c)
      = (∑ f : Fin 128, Ideal.div (x (ix3 b e f)) (max (∑ e' : Fin 24576, Spec.absE (x (ix3 b e' f))) Spec.eps1) * w (ix2 f c))
        + bias (ix1 c) := by
  unfold Stages.yOf
  rw [addf_apply, up_apply, dot_apply]
  refine congrArg (· + bias (ix1 c)) (Finset.sum_congr rfl fun f _ => ?_)
  rw [hostDivf_apply, massOf_apply]

/-- An index of the [16, 24576, 128] array drops, along batch and edge, to channel c exactly when its channel is c. -/
theorem drop01_iff (i : S16x24576x128.Idx) (c : Fin 128) :
    reducesTo_S16x24576x128_S128_d0_1.drop i = ix1 c ↔ i 2 = c := by
  have hv : (reducesTo_S16x24576x128_S128_d0_1.drop i 0 : Nat) = i 2 :=
    Shape.ReducesTo.drop_apply_val_of_eq reducesTo_S16x24576x128_S128_d0_1 i 0 2
  constructor
  · intro h; rw [h] at hv; exact Fin.ext hv.symm
  · intro h; funext a
    have ha : a = 0 := Subsingleton.elim _ _
    subst ha; exact Fin.ext (by rw [hv, h])

/-- The host's sum over batch and edge from the initial value zero, read at channel c: the double sum over the two coordinates. -/
theorem sumBatchEdge_apply (y : FVec Ideal S16x24576x128 .f32) (c : Fin 128) :
    Host.reduceAdd (F := Ideal) y (constant S_ .f32 0x00000000#32) reducesTo_S16x24576x128_S128_d0_1 h_S_ (ix1 c)
      = ∑ b : Fin 16, ∑ e : Fin 24576, y (ix3 b e c) := by
  simp only [Host.reduceAdd, Ideal.hostReduceAdd_def]
  unfold Ideal.hostReduceAdd
  show Ideal.ofBits .f32 0x00000000#32 + _ = _
  rw [Ideal.ofBits_zero_f32, zero_add]
  have hback : ∀ i : S16x24576x128.Idx, i 2 = c → ix3 (i 0) (i 1) c = i := fun i h => by
    subst h; exact (eq_ix3 i).symm
  refine (Finset.sum_bij' (fun i _ => ((i 0, i 1) : Fin 16 × Fin 24576)) (fun p _ => ix3 p.1 p.2 c) (fun _ _ => Finset.mem_univ _)
    (fun p _ => Finset.mem_filter.2 ⟨Finset.mem_univ _, (drop01_iff _ c).2 rfl⟩)
    (fun i hi => hback i ((drop01_iff i c).1 (Finset.mem_filter.1 hi).2)) (fun _ _ => rfl)
    (fun i hi => (congrArg y (hback i ((drop01_iff i c).1 (Finset.mem_filter.1 hi).2))).symm)).trans
    (Fintype.sum_prod_type' (fun b e => y (ix3 b e c)))

/-- The count row reads the count at every channel, the ε₂ row ε₂. -/
theorem cntRow_apply (c : Fin 128) : Stages.cntRow (F := Ideal) (ix1 c) = Spec.cnt := by
  unfold Stages.cntRow
  exact broadcastInDim_apply _ bcast_S_S128 _ (ix1 c) ix0 (fun a => a.elim0)
theorem eps2Row_apply (c : Fin 128) :
    broadcastInDim S128 ![] bcast_S_S128 (constant (F := Ideal) S_ .f32 0x3727C5AC#32) (ix1 c) = Spec.eps2 :=
  broadcastInDim_apply _ bcast_S_S128 _ (ix1 c) ix0 (fun a => a.elim0)

/-- The linear layer is the specification's, coordinate by coordinate. -/
theorem yOf_eq (x : FVec Ideal S16x24576x128 .f32) (w : FVec Ideal S128x128 .f32) (bias : FVec Ideal S128 .f32)
    (b : Fin 16) (e : Fin 24576) (c : Fin 128) :
    Stages.yOf (F := Ideal) x w bias (ix3 b e c)
      = Spec.yR (Spec.curry3 (n0 := 16) (n1 := 24576) (n2 := 128) x) (Spec.curry2 (n0 := 128) (n1 := 128) w)
          (Spec.curry1 (n := 128) bias) b e c := by
  rw [yOf_apply]; rfl
theorem yOf_curry (x : FVec Ideal S16x24576x128 .f32) (w : FVec Ideal S128x128 .f32) (bias : FVec Ideal S128 .f32) :
    Spec.curry3 (n0 := 16) (n1 := 24576) (n2 := 128) (Stages.yOf (F := Ideal) x w bias)
      = Spec.yR (Spec.curry3 (n0 := 16) (n1 := 24576) (n2 := 128) x) (Spec.curry2 (n0 := 128) (n1 := 128) w)
          (Spec.curry1 (n := 128) bias) :=
  funext fun b => funext fun e => funext fun c => yOf_eq x w bias b e c

/-- The mean over batch and edge, read at channel c. -/
theorem meanOf_apply (y : FVec Ideal S16x24576x128 .f32) (c : Fin 128) :
    Stages.meanOf (F := Ideal) y (ix1 c) = Spec.meanR (Spec.curry3 (n0 := 16) (n1 := 24576) (n2 := 128) y) c := by
  unfold Stages.meanOf
  rw [hostDivf_apply, sumBatchEdge_apply, cntRow_apply]
  rfl

/-- The variance over batch and edge, read at channel c. -/
theorem varOf_apply (y : FVec Ideal S16x24576x128 .f32) (c : Fin 128) :
    Stages.varOf (F := Ideal) y (ix1 c) = Spec.varR (Spec.curry3 (n0 := 16) (n1 := 24576) (n2 := 128) y) c := by
  unfold Stages.varOf
  rw [hostDivf_apply, sumBatchEdge_apply, cntRow_apply]
  refine congrArg (Ideal.div · Spec.cnt) (Finset.sum_congr rfl fun b _ => Finset.sum_congr rfl fun e _ => ?_)
  rw [mulf_apply, subf_apply, up_apply, meanOf_apply]
  rfl

/-- The normalized, squashed output read at (b, e, c). -/
theorem outOf_apply (y : FVec Ideal S16x24576x128 .f32) (g bt : FVec Ideal S128 .f32) (b : Fin 16) (e : Fin 24576) (c : Fin 128) :
    Stages.outOf (F := Ideal) y g bt (ix3 b e c)
      = Ideal.tanh (((y (ix3 b e c) - Spec.meanR (Spec.curry3 (n0 := 16) (n1 := 24576) (n2 := 128) y) c)
          * Ideal.rsqrt (Spec.varR (Spec.curry3 (n0 := 16) (n1 := 24576) (n2 := 128) y) c + Spec.eps2)) * g (ix1 c) + bt (ix1 c)) := by
  unfold Stages.outOf
  rw [hostTanh_apply, addf_apply, mulf_apply, mulf_apply, subf_apply, up_apply, up_apply, up_apply, up_apply,
    hostRsqrt_apply, addf_apply, eps2Row_apply, meanOf_apply, varOf_apply]

/-- The specification's array form read at coordinates, and its output unfolded once. -/
theorem arr3_apply {n0 n1 n2 : Nat} (h : Fin n0 → Fin n1 → Fin n2 → EReal) (b : Fin n0) (e : Fin n1) (c : Fin n2) :
    Spec.arr3 h (ix3 b e c) = h b e c := rfl
theorem refOut_apply (x : Spec.X3) (w : Spec.M2) (bias g bt : Spec.R1) (b : Fin 16) (e : Fin 24576) (c : Fin 128) :
    Spec.refOut x w bias g bt b e c
      = Ideal.tanh (((Spec.yR x w bias b e c - Spec.meanR (Spec.yR x w bias) c)
          * Ideal.rsqrt (Spec.varR (Spec.yR x w bias) c + Spec.eps2)) * g c + bt c) := rfl

theorem refTerm_eq (a0 : FVec Ideal S16x2048x64 .f32) (a1 : IVec S16x24576x2 32) (w : FVec Ideal S128x128 .f32) (bias g bt : FVec Ideal S128 .f32) :
    Stages.refTerm (F := Ideal) a0 a1 w bias g bt
      = Spec.arr3 (Spec.refOut (Spec.curry3 (n0 := 16) (n1 := 24576) (n2 := 128) (Stages.xOf (F := Ideal) a0 a1)) (Spec.curry2 (n0 := 128) (n1 := 128) w)
          (Spec.curry1 (n := 128) bias) (Spec.curry1 (n := 128) g) (Spec.curry1 (n := 128) bt)) := by
  unfold Stages.refTerm
  generalize Stages.xOf (F := Ideal) a0 a1 = x
  funext j
  obtain ⟨b, e, c, rfl⟩ : ∃ b e c, j = ix3 b e c := ⟨j 0, j 1, j 2, eq_ix3 j⟩
  rw [outOf_apply, yOf_curry, yOf_eq, arr3_apply, refOut_apply]
  rfl

end Cert.ReferenceIdeal.RefValue

end
-- ==== Proof.Algebra1.lean ====
/- The structural half of the algebra: the tile-by-tile sums are the sums over the whole edge axis; dividing by the
   clamped column mass is multiplying by its reciprocal; and the rescaled features, hence the linear layer's values,
   are real numbers whatever extended reals x holds (a column holding an infinite entry has infinite mass, so its
   rescaled entries are all 0). -/
import proofs.«147310_j32392643347009_1_alg».proof.Proof.Spec

noncomputable section

open scoped BigOperators

namespace Cert.Algebra1

open Idealize.ShloMosaic Cert.Spec

/-! ### Re-indexing the tiled sums -/

/-- (tile, row) ↦ 4096·tile + row is a bijection onto the edge axis. -/
private def tileEquiv : Fin 6 × Fin 4096 ≃ Fin 24576 where
  toFun p := tile p.1 p.2
  invFun e := (⟨e.val / 4096, by omega⟩, ⟨e.val % 4096, by omega⟩)
  left_inv := by
    rintro ⟨k, r⟩
    ext
    · simp only [tile]; omega
    · simp only [tile]; omega
  right_inv := by
    intro e
    ext
    simp only [tile]; omega

/-- (batch, tile) ↦ 6·batch + tile is a bijection onto the grid, with inverse t ↦ (t / 6, t % 6). -/
private def ptEquiv : Fin 16 × Fin 6 ≃ Fin 96 where
  toFun p := ⟨6 * p.1.val + p.2.val, by omega⟩
  invFun t := (ptB t, ptK t)
  left_inv := by
    rintro ⟨b, k⟩
    ext
    · simp only [ptB]; omega
    · simp only [ptK]; omega
  right_inv := by
    intro t
    ext
    simp only [ptB, ptK]; omega

/-- Σ_k Σ_r g(4096k + r) = Σ_e g(e). -/
private theorem sum_tile (g : Fin 24576 → EReal) :
    ∑ k : Fin 6, ∑ r : Fin 4096, g (tile k r) = ∑ e : Fin 24576, g e := by
  rw [← Fintype.sum_prod_type' (fun k r => g (tile k r))]
  exact Equiv.sum_comp tileEquiv g

/-- Σ_t F(t / 6, t % 6) = Σ_b Σ_k F(b, k). -/
private theorem sum_pt (F : Fin 16 → Fin 6 → EReal) :
    ∑ t : Fin 96, F (ptB t) (ptK t) = ∑ b : Fin 16, ∑ k : Fin 6, F b k := by
  rw [← Fintype.sum_prod_type' F]
  exact Equiv.sum_comp ptEquiv.symm (fun p : Fin 16 × Fin 6 => F p.1 p.2)

/-- Σ_t Σ_r F(t / 6, 4096·(t % 6) + r) = Σ_b Σ_e F(b, e). -/
private theorem sum_grid (F : Fin 16 → Fin 24576 → EReal) :
    ∑ t : Fin 96, ∑ r : Fin 4096, F (ptB t) (tile (ptK t) r) = ∑ b : Fin 16, ∑ e : Fin 24576, F b e := by
  rw [sum_pt (fun b k => ∑ r : Fin 4096, F b (tile k r))]
  exact Finset.sum_congr rfl (fun b _ => sum_tile (F b))

/-- A column's mass added up tile by tile is its sum over the edge axis. -/
theorem denom_eq (x : X3) : denomK x = denomR x := by
  funext b f
  exact sum_tile (fun e => absE (x b e f))

/-! ### The two literals, and dividing as multiplying by the reciprocal -/

private theorem one_eq : one = 1 := by
  simp [one, Ideal.ofBits, Ideal.ieee, -EReal.coe_mul]; norm_num

/-- ε₁ is the dyadic real 9223372 · 2⁻⁶³. -/
private theorem eps1_eq : eps1 = (((9223372 : ℝ) * (2 : ℝ) ^ (-63 : Int) : ℝ) : EReal) := by
  simp [eps1, Ideal.ofBits, Ideal.ieee, -EReal.coe_mul]

private theorem eps1_pos : (0 : EReal) < eps1 := by
  rw [eps1_eq, EReal.coe_pos]; positivity

/-- The clamped mass is positive, so not zero. -/
private theorem clamp_ne_zero (a : EReal) : max a eps1 ≠ 0 :=
  ne_of_gt (lt_max_of_lt_right eps1_pos)

private theorem mul_div_one {d : EReal} (hd : d ≠ 0) (a : EReal) : a * Ideal.div one d = Ideal.div a d := by
  rw [Ideal.div, if_neg hd, Ideal.div, if_neg hd, one_eq, one_mul]

private theorem mul_inv_clamp (a D : EReal) : a * Ideal.div one (max D eps1) = Ideal.div a (max D eps1) :=
  mul_div_one (clamp_ne_zero D) a

/-- x · (1 / d) = x / d for the clamped mass d ≥ ε₁ > 0, so the kernel's linear layer is the reference's. -/
theorem y_eq (x : X3) (w : M2) (bias : R1) : yK x (invK (denomR x)) w bias = yR x w bias := by
  funext b e c
  simp only [yK, invK, yR, mul_inv_clamp]

/-! ### The rescaled features are real -/

private theorem absE_nonneg (a : EReal) : 0 ≤ absE a := by
  rcases le_total 0 a with h | h
  · exact le_max_of_le_left h
  · exact le_max_of_le_right (EReal.neg_nonneg.2 h)

private theorem absE_top : absE ⊤ = ⊤ := by simp [absE]
private theorem absE_bot : absE ⊥ = ⊤ := by simp [absE]

/-- The reciprocal of an extended real is a real (of ±∞ it is 0). -/
private theorem inv_real (d : EReal) : ∃ s : ℝ, d⁻¹ = (s : EReal) := by
  induction d using EReal.rec with
  | bot => exact ⟨0, by rw [EReal.inv_bot, EReal.coe_zero]⟩
  | coe s => exact ⟨s⁻¹, (EReal.coe_inv s).symm⟩
  | top => exact ⟨0, by rw [EReal.inv_top, EReal.coe_zero]⟩

/-- A column holding an infinite entry has infinite mass: the other terms are non-negative, so their sum is not -∞. -/
private theorem denomR_top (x : X3) (b : Fin 16) (e : Fin 24576) (f : Fin 128) (h : absE (x b e f) = ⊤) :
    denomR x b f = ⊤ := by
  show ∑ e' : Fin 24576, absE (x b e' f) = ⊤
  rw [← Finset.add_sum_erase Finset.univ (fun e' => absE (x b e' f)) (Finset.mem_univ e), h]
  refine EReal.top_add_of_ne_bot (ne_of_gt (lt_of_lt_of_le EReal.bot_lt_zero ?_))
  exact Finset.sum_nonneg (fun e' _ => absE_nonneg _)

/-- Dividing by the infinite clamped mass gives 0, whatever is divided. -/
private theorem div_clamp_top (a D : EReal) (hD : D = ⊤) : Ideal.div a (max D eps1) = 0 := by
  rw [hD, max_eq_left le_top, Ideal.div, if_neg EReal.top_ne_zero, EReal.inv_top, mul_zero]

/-- a / max D ε₁ is real as soon as an infinite a forces D = ⊤. -/
private theorem div_real_aux (a D : EReal) (h : absE a = ⊤ → D = ⊤) :
    ∃ r : ℝ, Ideal.div a (max D eps1) = (r : EReal) := by
  induction a using EReal.rec with
  | bot => exact ⟨0, by rw [div_clamp_top _ _ (h absE_bot), EReal.coe_zero]⟩
  | top => exact ⟨0, by rw [div_clamp_top _ _ (h absE_top), EReal.coe_zero]⟩
  | coe r =>
    obtain ⟨s, hs⟩ := inv_real (max D eps1)
    exact ⟨r * s, by rw [Ideal.div, if_neg (clamp_ne_zero _), hs, EReal.coe_mul]⟩

private theorem div_real (x : X3) (b : Fin 16) (e : Fin 24576) (f : Fin 128) :
    ∃ r : ℝ, Ideal.div (x b e f) (max (denomR x b f) eps1) = (r : EReal) :=
  div_real_aux _ _ (denomR_top x b e f)

/-- A finite sum of reals is a real. -/
private theorem sum_real {ι : Type} (s : Finset ι) (g : ι → EReal) (h : ∀ i ∈ s, ∃ r : ℝ, g i = (r : EReal)) :
    ∃ r : ℝ, ∑ i ∈ s, g i = (r : EReal) := by
  classical
  induction s using Finset.induction_on with
  | empty => exact ⟨0, by rw [Finset.sum_empty, EReal.coe_zero]⟩
  | insert a s ha ih =>
    obtain ⟨r1, h1⟩ := h a (Finset.mem_insert_self a s)
    obtain ⟨r2, h2⟩ := ih (fun i hi => h i (Finset.mem_insert_of_mem hi))
    exact ⟨r1 + r2, by rw [Finset.sum_insert ha, h1, h2, EReal.coe_add]⟩

/-- With real parameters the linear layer's values are real, for every x. -/
theorem y_real (x : X3) (w : M2) (bias : R1) (hw : ∀ f c, ∃ r : ℝ, w f c = (r : EReal)) (hb : ∀ c, ∃ r : ℝ, bias c = (r : EReal)) :
    ∃ yr : Fin 16 → Fin 24576 → Fin 128 → ℝ, yR x w bias = fun b e c => ((yr b e c : ℝ) : EReal) := by
  have key : ∀ b e c, ∃ r : ℝ, yR x w bias b e c = (r : EReal) := by
    intro b e c
    obtain ⟨rb, hrb⟩ := hb c
    obtain ⟨rs, hrs⟩ := sum_real Finset.univ
      (fun f : Fin 128 => Ideal.div (x b e f) (max (denomR x b f) eps1) * w f c) (fun f _ => by
        obtain ⟨r1, h1⟩ := div_real x b e f
        obtain ⟨r2, h2⟩ := hw f c
        exact ⟨r1 * r2, by rw [h1, h2, EReal.coe_mul]⟩)
    refine ⟨rs + rb, ?_⟩
    simp only [yR]
    rw [hrs, hrb, EReal.coe_add]
  choose yr hyr using key
  exact ⟨yr, by funext b e c; exact hyr b e c⟩

/-- The sums over the 96 tiles of 4096 rows are the sums over batch and edge. -/
theorem sumK_eq (y : X3) : sumK y = fun c => ∑ b : Fin 16, ∑ e : Fin 24576, y b e c := by
  funext c
  exact sum_grid (fun b e => y b e c)
theorem sumSqK_eq (y : X3) : sumSqK y = fun c => ∑ b : Fin 16, ∑ e : Fin 24576, y b e c * y b e c := by
  funext c
  exact sum_grid (fun b e => y b e c * y b e c)

end Cert.Algebra1

end
-- ==== Proof.Algebra2.lean ====
/- The normalization half of the algebra, for real y, γ, β: with μ = S/N and S₂ = Σ y², the mean of (y - μ)² is S₂/N - μ²
   (so both programs take the reciprocal root of the same positive real), and (y - μ)·r·γ + β = y·(γ·r) + (β - μ·(γ·r)). -/
import proofs.«147310_j32392643347009_1_alg».proof.Proof.Spec

noncomputable section

open scoped BigOperators

namespace Cert.Algebra2

open Idealize.ShloMosaic Cert.Spec

/-- The count's pattern denotes 393216 = 16·24576. -/
private theorem cnt_eq : cnt = ((393216 : ℝ) : EReal) := by
  simp [cnt, Ideal.ofBits, Ideal.ieee, -EReal.coe_mul]; norm_num

/-- ε₂'s pattern denotes a positive real. -/
private theorem eps2_eq : ∃ ε : ℝ, 0 < ε ∧ eps2 = ((ε : ℝ) : EReal) := by
  have h : eps2 = (((10995116 : ℝ) * (2 : ℝ) ^ (-40 : Int) : ℝ) : EReal) := by
    simp [eps2, Ideal.ofBits, Ideal.ieee, -EReal.coe_mul]
  exact ⟨_, by positivity, h⟩

/-- A finite sum of coercions is the coercion of the sum. -/
private theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Division by the count is multiplication by 1/393216. -/
private theorem div_cnt (x : ℝ) : Ideal.div (x : EReal) cnt = ((x * (1 / 393216) : ℝ) : EReal) := by
  rw [cnt_eq, Ideal.div_coe (by norm_num), ← EReal.coe_mul]

section Reals

variable (yr : Fin 16 → Fin 24576 → Fin 128 → ℝ) (c : Fin 128)

/-- The kernel's mean is the real S/N. -/
private theorem meanK_eq :
    meanK (fun c => ∑ b : Fin 16, ∑ e : Fin 24576, ((yr b e c : ℝ) : EReal)) c
      = (((∑ b : Fin 16, ∑ e : Fin 24576, yr b e c) * (1 / 393216) : ℝ) : EReal) := by
  simp only [meanK, coe_sum, div_cnt]

/-- The reference's mean is the same real. -/
private theorem meanR_eq :
    meanR (fun b e c => ((yr b e c : ℝ) : EReal)) c
      = (((∑ b : Fin 16, ∑ e : Fin 24576, yr b e c) * (1 / 393216) : ℝ) : EReal) := by
  simp only [meanR, coe_sum, div_cnt]

/-- The kernel's variance is the real S₂/N - μ·μ. -/
private theorem varK_eq :
    varK (fun c => ∑ b : Fin 16, ∑ e : Fin 24576, ((yr b e c : ℝ) : EReal))
        (fun c => ∑ b : Fin 16, ∑ e : Fin 24576, ((yr b e c : ℝ) : EReal) * ((yr b e c : ℝ) : EReal)) c
      = (((∑ b : Fin 16, ∑ e : Fin 24576, yr b e c * yr b e c) * (1 / 393216)
          - ((∑ b : Fin 16, ∑ e : Fin 24576, yr b e c) * (1 / 393216))
            * ((∑ b : Fin 16, ∑ e : Fin 24576, yr b e c) * (1 / 393216)) : ℝ) : EReal) := by
  simp only [varK, meanK, ← EReal.coe_mul, coe_sum, div_cnt, ← EReal.coe_sub]

/-- The reference's variance is the real mean of (y - μ)². -/
private theorem varR_eq :
    varR (fun b e c => ((yr b e c : ℝ) : EReal)) c
      = (((∑ b : Fin 16, ∑ e : Fin 24576,
            (yr b e c - (∑ b : Fin 16, ∑ e : Fin 24576, yr b e c) * (1 / 393216))
              * (yr b e c - (∑ b : Fin 16, ∑ e : Fin 24576, yr b e c) * (1 / 393216))) * (1 / 393216) : ℝ) : EReal) := by
  simp only [varR, meanR_eq, ← EReal.coe_sub, ← EReal.coe_mul, coe_sum, div_cnt]

/-- Σ (y - μ)² = S₂ - 2μS + Nμ² for any μ. -/
private theorem sum_sq_dev (μ : ℝ) :
    (∑ b : Fin 16, ∑ e : Fin 24576, (yr b e c - μ) * (yr b e c - μ))
      = (∑ b : Fin 16, ∑ e : Fin 24576, yr b e c * yr b e c)
        - 2 * μ * (∑ b : Fin 16, ∑ e : Fin 24576, yr b e c) + 393216 * (μ * μ) := by
  have h : ∀ b e, (yr b e c - μ) * (yr b e c - μ) = yr b e c * yr b e c - 2 * μ * yr b e c + μ * μ := by
    intro b e; ring
  simp only [h, Finset.sum_add_distrib, Finset.sum_sub_distrib, ← Finset.mul_sum, Finset.sum_const,
    Finset.card_univ, Fintype.card_fin, nsmul_eq_mul]
  push_cast
  ring

/-- The mean of (y - μ)² at μ = S/N is S₂/N - μ·μ. -/
private theorem var_real :
    (∑ b : Fin 16, ∑ e : Fin 24576,
        (yr b e c - (∑ b : Fin 16, ∑ e : Fin 24576, yr b e c) * (1 / 393216))
          * (yr b e c - (∑ b : Fin 16, ∑ e : Fin 24576, yr b e c) * (1 / 393216))) * (1 / 393216)
      = (∑ b : Fin 16, ∑ e : Fin 24576, yr b e c * yr b e c) * (1 / 393216)
          - ((∑ b : Fin 16, ∑ e : Fin 24576, yr b e c) * (1 / 393216))
            * ((∑ b : Fin 16, ∑ e : Fin 24576, yr b e c) * (1 / 393216)) := by
  rw [sum_sq_dev]
  ring

/-- A mean of squares is nonnegative. -/
private theorem var_nonneg :
    0 ≤ (∑ b : Fin 16, ∑ e : Fin 24576,
        (yr b e c - (∑ b : Fin 16, ∑ e : Fin 24576, yr b e c) * (1 / 393216))
          * (yr b e c - (∑ b : Fin 16, ∑ e : Fin 24576, yr b e c) * (1 / 393216))) * (1 / 393216) := by
  refine mul_nonneg (Finset.sum_nonneg fun b _ => Finset.sum_nonneg fun e _ => mul_self_nonneg _) (by norm_num)

end Reals

/-- The reciprocal root of a positive real sum. -/
private theorem rsqrt_pos {v ε : ℝ} (hv : 0 ≤ v) (hε : 0 < ε) :
    Ideal.rsqrt ((v : EReal) + (ε : EReal)) = (((Real.sqrt (v + ε))⁻¹ : ℝ) : EReal) := by
  have h : 0 < v + ε := by linarith
  rw [← EReal.coe_add, Ideal.rsqrt_coe, if_neg (not_lt.mpr h.le), if_neg h.ne']

theorem normalize_eq (yr : Fin 16 → Fin 24576 → Fin 128 → ℝ) (g bt : R1)
    (hg : ∀ c, ∃ r : ℝ, g c = (r : EReal)) (hbt : ∀ c, ∃ r : ℝ, bt c = (r : EReal)) :
    outK (fun b e c => ((yr b e c : ℝ) : EReal))
        (scaleK g (fun c => ∑ b : Fin 16, ∑ e : Fin 24576, ((yr b e c : ℝ) : EReal)) (fun c => ∑ b : Fin 16, ∑ e : Fin 24576, ((yr b e c : ℝ) : EReal) * ((yr b e c : ℝ) : EReal)))
        (shiftK g bt (fun c => ∑ b : Fin 16, ∑ e : Fin 24576, ((yr b e c : ℝ) : EReal)) (fun c => ∑ b : Fin 16, ∑ e : Fin 24576, ((yr b e c : ℝ) : EReal) * ((yr b e c : ℝ) : EReal)))
      = fun b e c => Ideal.tanh (((((yr b e c : ℝ) : EReal) - meanR (fun b e c => ((yr b e c : ℝ) : EReal)) c)
          * Ideal.rsqrt (varR (fun b e c => ((yr b e c : ℝ) : EReal)) c + eps2)) * g c + bt c) := by
  funext b e c
  obtain ⟨γ, hγ⟩ := hg c
  obtain ⟨β, hβ⟩ := hbt c
  obtain ⟨ε, hε, hε2⟩ := eps2_eq
  have hv0 := var_nonneg yr c
  simp only [outK, scaleK, shiftK]
  rw [meanK_eq, varK_eq, meanR_eq, varR_eq, hε2, hγ, hβ, ← var_real, rsqrt_pos hv0 hε]
  simp only [← EReal.coe_mul, ← EReal.coe_add, ← EReal.coe_sub, Ideal.tanh_coe]
  congr 2
  ring

end Cert.Algebra2

end
-- ==== Proof.Algebra.lean ====
/- The two programs compute one function of the gathered features and the (real) parameters. -/
import proofs.«147310_j32392643347009_1_alg».proof.Proof.Algebra1
import proofs.«147310_j32392643347009_1_alg».proof.Proof.Algebra2

noncomputable section

open scoped BigOperators

namespace Cert.Algebra

open Idealize.ShloMosaic Cert.Spec

theorem kernel_eq_ref (x : X3) (w : M2) (bias g bt : R1)
    (hw : ∀ f c, ∃ r : ℝ, w f c = (r : EReal)) (hb : ∀ c, ∃ r : ℝ, bias c = (r : EReal))
    (hg : ∀ c, ∃ r : ℝ, g c = (r : EReal)) (hbt : ∀ c, ∃ r : ℝ, bt c = (r : EReal)) :
    kernelOut x w bias g bt = refOut x w bias g bt := by
  unfold kernelOut refOut
  dsimp only
  rw [Algebra1.denom_eq, Algebra1.y_eq, Algebra1.sumK_eq, Algebra1.sumSqK_eq]
  obtain ⟨yr, hyr⟩ := Algebra1.y_real x w bias hw hb
  rw [hyr]
  exact Algebra2.normalize_eq yr g bt hg hbt

end Cert.Algebra

end
-- ==== Proof.Finite.lean ====
/- From the precondition (every float input's absolute value is below +∞) to: every entry of the weights, the bias,
   γ and β is a real number. (The gathered features need no such fact: the algebra holds for every extended real x.) -/
import proofs.«147310_j32392643347009_1_alg».proof.Defs
import proofs.«147310_j32392643347009_1_alg».proof.Proof.Gen.Pre_finite_inputs
import Idealize.ShloMosaic.Lib.ReduceAll
import Idealize.ShloMosaic.Lib.ValueIdx

noncomputable section

namespace Cert.Finite

open Idealize.ShloMosaic Idealize.ShloMosaic.TcCoe Idealize.SL.Sem Idealize.ShloMosaic.ValueIdx

variable [hP : Cert.Pre_finite_inputs.Facts]

/-- The scalar shape has one index. -/
instance : Subsingleton Cert.Pre_finite_inputs.S_.Idx := ⟨fun a b => funext fun d => d.elim0⟩

/-- An extended real whose absolute value max x (-x) lies below ⊤ is neither ⊤ nor ⊥: it is a real. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- One entry: the comparison word of |x| < +∞ being 1 makes x a real. -/
theorem real_of_cmp (x : Ideal .f32)
    (h : FloatOps.cmpf .olt (FloatOps.hostAbsf x) (FloatOps.ofBits (F := Ideal) .f32 0x7F800000#32) = 1#1) :
    ∃ r : ℝ, x = ((r : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  by_cases hlt : max (x : EReal) (-(x : EReal)) < ⊤
  · exact real_of_abs_lt_top x hlt
  · simp [hlt] at h'

/-- An and-reduce over all axes of the words (|x| < +∞) that is 1 makes every entry of x a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu j = 1#1) :
    ∀ i, ∃ r : ℝ, x i = ((r : ℝ) : EReal) := fun i =>
  real_of_cmp (x i) (Host.reduce_andi_all _ _ hr hu j e i)

theorem params_real (m : (ℓ : Loc Cert.KernelIdeal.nD Cert.KernelIdeal.τ Cert.KernelIdeal.sig) → Buf (Elt Ideal) ℓ) (h : Cert.Pre_KernelIdeal m) (c : Dev Cert.KernelIdeal.nD) :
    (∀ j, ∃ r : ℝ, m ((c.tc : Thread Cert.KernelIdeal.nD Cert.KernelIdeal.τ).loc Cert.KernelIdeal.main_arg2) j = ((r : ℝ) : EReal))
    ∧ (∀ j, ∃ r : ℝ, m ((c.tc : Thread Cert.KernelIdeal.nD Cert.KernelIdeal.τ).loc Cert.KernelIdeal.main_arg3) j = ((r : ℝ) : EReal))
    ∧ (∀ j, ∃ r : ℝ, m ((c.tc : Thread Cert.KernelIdeal.nD Cert.KernelIdeal.τ).loc Cert.KernelIdeal.main_arg4) j = ((r : ℝ) : EReal))
    ∧ (∀ j, ∃ r : ℝ, m ((c.tc : Thread Cert.KernelIdeal.nD Cert.KernelIdeal.τ).loc Cert.KernelIdeal.main_arg5) j = ((r : ℝ) : EReal)) := by
  have h0 := congrFun (h c) ValueIdx.ix0
  dsimp only [Cert.Pre_finite_inputs.fn, Cert.Pre_finite_inputs.fn_part1] at h0
  obtain ⟨h1, e5⟩ := IntOp.andi_eq_one.1 h0
  obtain ⟨h2, e4⟩ := IntOp.andi_eq_one.1 h1
  obtain ⟨h3, e3⟩ := IntOp.andi_eq_one.1 h2
  obtain ⟨_, e2⟩ := IntOp.andi_eq_one.1 h3
  exact ⟨all_real _ _ _ _ _ e2, all_real _ _ _ _ _ e3, all_real _ _ _ _ _ e4, all_real _ _ _ _ _ e5⟩

end Cert.Finite

end
-- ==== Proof.lean ====
/- The proof of `Cert.Claim`: the three programs run (terminate, fault nowhere, leave their arguments unchanged), the
   idealized kernel is the kernel's own text read over the extended reals (no rewrite to justify), and the idealized kernel
   and the idealized reference, run from memories agreeing on the arguments, end with equal results.

   Both programs gather the same edge-pair features x from the atoms (one shared function of the arguments, never opened: the
   algebra holds for every extended-real x, since a column holding an infinite entry has infinite L1 mass and its normalized
   entries are then all 0) and compute tanh of the batch-normalized linear layer of the L1-normalized features. The kernel does it in three passes over
   the edge axis, tile by tile: the column masses; the sums of y and y² (y recomputed from x · (1/mass), the variance taken as
   E[y²] - μ²); and the output y · (γ r) + (β - μ γ r). Over the reals these are the reference's mass, mean, variance
   E[(y - μ)²] and ((y - μ) r) γ + β; the parameters are real by the precondition, and y is real for every x. -/
import proofs.«147310_j32392643347009_1_alg».proof.Defs
import proofs.«147310_j32392643347009_1_alg».proof.Proof.Gen.Kernel
import proofs.«147310_j32392643347009_1_alg».proof.Proof.Gen.KernelIdeal
import proofs.«147310_j32392643347009_1_alg».proof.Proof.Gen.ReferenceIdeal
import proofs.«147310_j32392643347009_1_alg».proof.Proof.Gen.Pre_finite_inputs
import proofs.«147310_j32392643347009_1_alg».proof.Proof.BRun
import proofs.«147310_j32392643347009_1_alg».proof.Proof.Run
import proofs.«147310_j32392643347009_1_alg».proof.Proof.KValue
import proofs.«147310_j32392643347009_1_alg».proof.Proof.RefRun
import proofs.«147310_j32392643347009_1_alg».proof.Proof.RefValue
import proofs.«147310_j32392643347009_1_alg».proof.Proof.Algebra
import proofs.«147310_j32392643347009_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged. -/
theorem frame_k : Cert.frame_Kernel := fun m ρ _ => Cert.Kernel.Run.frame m ρ
/-- So does the kernel read over the extended reals, -/
theorem frame_ki : Cert.frame_KernelIdeal := fun m ρ _ => Cert.KernelIdeal.Run.frame m ρ
/-- and the reference (its run with the result dropped). -/
theorem frame_r : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

open Cert.KernelIdeal Cert.KernelIdeal.Gen in
/-- The two idealized programs end with equal results: the kernel's result buffer holds `kernelOut` of the gathered features and
    the parameters, the reference's `refOut` of the same, and the two are one function when the parameters are real. -/
theorem algebraic : Cert.algebraic_KernelIdeal_ReferenceIdeal := by
  intro m ρ m' ρ' hpre hagree
  refine ⟨fun c => V8 m (Run.outs m) c main_v23, ?_, ?_⟩
  · exact (θ_run Cert.KernelIdeal.defs _ _).mono (fun _ h c =>
      ⟨h c _ (Run.mem_uc main_v23 (by decide)),
       (h c _ (Run.mem_uc main_arg0 (by decide))).trans (V8_main_arg0 m (Run.outs m) c),
       (h c _ (Run.mem_uc main_arg1 (by decide))).trans (V8_main_arg1 m (Run.outs m) c),
       (h c _ (Run.mem_uc main_arg2 (by decide))).trans (V8_main_arg2 m (Run.outs m) c),
       (h c _ (Run.mem_uc main_arg3 (by decide))).trans (V8_main_arg3 m (Run.outs m) c),
       (h c _ (Run.mem_uc main_arg4 (by decide))).trans (V8_main_arg4 m (Run.outs m) c),
       (h c _ (Run.mem_uc main_arg5 (by decide))).trans (V8_main_arg5 m (Run.outs m) c)⟩) (Run.run_all m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2]
    obtain ⟨hw, hb, hg, hbt⟩ := Cert.Finite.params_real m hpre c
    rw [Cert.ReferenceIdeal.RefValue.refTerm_eq]
    refine Eq.trans ?_ (KValue.result_eq m c).symm
    refine congrArg Spec.arr3 (Cert.Algebra.kernel_eq_ref _ _ _ _ _ (fun f c' => hw (ix2 f c')) (fun c' => hb (ix1 c')) (fun c' => hg (ix1 c')) (fun c' => hbt (ix1 c'))).symm

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
